-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S10 .f32) (main_v48 : IVec S_ 1) (main_v49 : FVec F S256x10 .f32) (main_v50 : FVec F S256x10 .f32) : IVec S_ 1 :=
  let main_v51 : IVec S256x10 1 := cmpf .olt main_v49 main_v50
  let main_c_19 : IVec S_ 1 := constantI S_ 1 1#1
  let main_v52 : IVec S_ 1 := (fun x v => Host.reduce IntOp.andi x v reducesTo_S256x10_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg9 : FVec F S256x256 .f32) (main_arg10 : FVec F S256x256 .f32) (main_arg11 : FVec F S256 .f32) (main_arg12 : FVec F S256x10 .f32) (main_arg13 : FVec F S10 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x10 .f32 := Host.absf main_arg12
  let main_cst_18 : FVec F S_ .f32 := constant S_ .f32 0x7F800000#32
  let main_v50 : FVec F S256x10 .f32 := broadcastInDim S256x10 ![] bcast_S_S256x10 main_cst_18
  fn_part3 (F := F) main_arg13 main_v48 main_v49 main_v50

def fn_part1 {F : FTy → Type} [FloatOps F] (main_arg6 : FVec F S256x256 .f32) (main_arg7 : FVec F S256x256 .f32) (main_arg8 : FVec F S256 .f32) (main_arg9 : FVec F S256x256 .f32) (main_arg10 : FVec F S256x256 .f32) (main_arg11 : FVec F S256 .f32) (main_arg12 : FVec F S256x10 .f32) (main_arg13 : FVec F S10 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S2x800000 32) (main_arg2 : IVec S50000 32) (main_arg3 : FVec F S128x256 .f32) (main_arg4 : FVec F S128x256 .f32) (main_arg5 : FVec F S256 .f32) (main_arg6 : FVec F S256x256 .f32) (main_arg7 : FVec F S256x256 .f32) (main_arg8 : FVec F S256 .f32) (main_arg9 : FVec F S256x256 .f32) (main_arg10 : FVec F S256x256 .f32) (main_arg11 : FVec F S256 .f32) (main_arg12 : FVec F S256x10 .f32) (main_arg13 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S800000x256 : Shape := ⟨2, ![800000, 256]⟩
abbrev S64 : Shape := ⟨1, ![64]⟩
abbrev S50000x1 : Shape := ⟨2, ![50000, 1]⟩
abbrev S64x1 : Shape := ⟨2, ![64, 1]⟩
abbrev S1x10 : Shape := ⟨2, ![1, 10]⟩
abbrev S64x10 : Shape := ⟨2, ![64, 10]⟩
abbrev S5000x1 : Shape := ⟨2, ![5000, 1]⟩
abbrev S64x256 : Shape := ⟨2, ![64, 256]⟩
abbrev S5000x64 : Shape := ⟨2, ![5000, 64]⟩

abbrev nBuf : Space → Nat
  | .hbm => 79
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256, .f32⟩
  | .hbm, ⟨12, _⟩ => ⟨S256x10, .f32⟩
  | .hbm, ⟨13, _⟩ => ⟨S10, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S1x256, .f32⟩
  | .hbm, ⟨32, _⟩ => ⟨S50000x256, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x256, .f32⟩
  | .hbm, ⟨42, _⟩ => ⟨S_, .f32⟩
  | .hbm, ⟨43, _⟩ => ⟨S50000x256, .f32⟩
  | .hbm, ⟨44, _⟩ => ⟨S800000x1, .i32⟩
  | .hbm, ⟨45, _⟩ => ⟨S50000x256, .f32⟩
  | .hbm, ⟨46, _⟩ => ⟨S1x256, .f32⟩
  | .hbm, ⟨47, _⟩ => ⟨S50000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S1x256, .f32⟩
  | .hbm, ⟨62, _⟩ => ⟨S50000x256, .f32⟩
  | .hbm, ⟨63, _⟩ => ⟨S_, .f32⟩
  | .hbm, ⟨64, _⟩ => ⟨S50000, .f32⟩
  | .hbm, ⟨65, _⟩ => ⟨S_, .f32⟩
  | .hbm, ⟨66, _⟩ => ⟨S64, .f32⟩
  | .hbm, ⟨67, _⟩ => ⟨S50000x1, .i32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S64x1, .f32⟩
  | .hbm, ⟨76, _⟩ => ⟨S50000x1, .i32⟩
  | .hbm, ⟨77, _⟩ => ⟨S1x10, .f32⟩
  | .hbm, ⟨78, _⟩ => ⟨S64x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S256x256, .f32⟩
  | .local _ .vmem, ⟨23, _⟩ => ⟨S256x256, .f32⟩
  | .local _ .vmem, ⟨24, _⟩ => ⟨S1x256, .f32⟩
  | .local _ .vmem, ⟨25, _⟩ => ⟨S5000x256, .f32⟩
  | .local _ .vmem, ⟨26, _⟩ => ⟨S5000x256, .f32⟩
  | .local _ .vmem, ⟨27, _⟩ => ⟨S5000x256, .f32⟩
  | .local _ .vmem, ⟨28, _⟩ => ⟨S5000x256, .f32⟩
  | .local _ .vmem, ⟨29, _⟩ => ⟨S5000x1, .i32⟩
  | .local _ .vmem, ⟨30, _⟩ => ⟨S5000x1, .i32⟩
  | .local _ .vmem, ⟨31, _⟩ => ⟨S64x1, .f32⟩
  | .local _ .vmem, ⟨32, _⟩ => ⟨S256x10, .f32⟩
  | .local _ .vmem, ⟨33, _⟩ => ⟨S1x10, .f32⟩
  | .local _ .vmem, ⟨34, _⟩ => ⟨S64x10, .f32⟩
  | .local _ .vmem, ⟨35, _⟩ => ⟨S64x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_1 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v18 : BitVec 1 := Scalar.cmpi .eq arg0 c9_i32
  let v19 : BitVec 32 := Scalar.extui v18
  let c0_i32_8 : BitVec 32 := 0#32
  let v20 : BitVec 1 := Scalar.cmpi .ne v19 c0_i32_8
  v20

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  bcast_S_S50000 : S_.BroadcastsInDim S50000 (![] : Fin 0 → Fin S50000.rank)
  bcast_S_S64 : S_.BroadcastsInDim S64 (![] : Fin 0 → Fin S64.rank)
  bcast_S50000_S50000x1_0 : S50000.BroadcastsInDim S50000x1 (![0] : Fin 1 → Fin S50000x1.rank)
  shapeCasts_S64_S64x1 : S64.ShapeCasts S64x1
  shapeCasts_S50000_S50000x1 : S50000.ShapeCasts S50000x1
  shapeCasts_S10_S1x10 : S10.ShapeCasts S1x10
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x256 : S64x1.Broadcasts S64x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  scatter_S64_S50000x1_S50000_n_0_0_1_wf : ScatterDims.WF S64 S50000x1 S50000 [] [0] [0] 1
  dot_S5000x64_S5000x256_S64x256_0_0_1_1_n_n_wf : DotDims.WF S5000x64 S5000x256 S64x256 [0] [0] [1] [1] [] []
  dot_S64x256_S256x10_S64x10_1_0_0_1_n_n_wf : DotDims.WF S64x256 S256x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S50000x256.size a
  hwx1_5 : ∀ i : grid1.Coords, EltTy.bits .f32 = 32 ∨ (Rect.block (s := S50000x256) S5000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S50000x256.size a
  hwx2_1 : ∀ i : grid2.Coords, EltTy.bits .f32 = 32 ∨ (Rect.block (s := S50000x256) S5000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x256.size a ≤ S50000x256.size a
  hwx2_5 : ∀ i : grid2.Coords, EltTy.bits .f32 = 32 ∨ (Rect.block (s := S50000x256) S5000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .i32 = 32 ∨ (Rect.block (s := S50000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x1.size a ≤ S64x1.size a
  hwx3_2 : ∀ i : grid3.Coords, EltTy.bits .f32 = 32 ∨ (Rect.block (s := S64x1) S64x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x10.size a ≤ S256x10.size a
  hwx3_3 : ∀ i : grid3.Coords, EltTy.bits .f32 = 32 ∨ (Rect.block (s := S256x10) S256x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x10.size a ≤ S64x10.size a
  hwx3_5 : ∀ i : grid3.Coords, EltTy.bits .f32 = 32 ∨ (Rect.block (s := S64x10) S64x10.size (cc3_transform_5 i) (hinb3_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S5000x64_S5000x256_S64x256_0_0_1_1_n_n : DotDims S5000x64 S5000x256 S64x256 where
  lhsContracting := [0]
  rhsContracting := [0]
  lhsNonContracting := [1]
  rhsNonContracting := [1]
  lhsBatch := []
  rhsBatch := []
  wf := dot_S5000x64_S5000x256_S64x256_0_0_1_1_n_n_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v27) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v39) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v48) S64x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S256x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50) S1x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S64x10.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S64x256 : Shape := ⟨2, ![64, 256]⟩
abbrev S50000x1 : Shape := ⟨2, ![50000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256, .f32⟩
  | .hbm, ⟨12, _⟩ => ⟨S256x10, .f32⟩
  | .hbm, ⟨13, _⟩ => ⟨S10, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S50000x256, .f32⟩
  | .hbm, ⟨32, _⟩ => ⟨S50000x256, .f32⟩
  | .hbm, ⟨33, _⟩ => ⟨S50000x256, .f32⟩
  | .hbm, ⟨34, _⟩ => ⟨S1x256, .f32⟩
  | .hbm, ⟨35, _⟩ => ⟨S50000x256, .f32⟩
  | .hbm, ⟨36, _⟩ => ⟨S50000x256, .f32⟩
  | .hbm, ⟨37, _⟩ => ⟨S_, .f32⟩
  | .hbm, ⟨38, _⟩ => ⟨S50000x256, .f32⟩
  | .hbm, ⟨39, _⟩ => ⟨S50000x256, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x256, .f32⟩
  | .hbm, ⟨49, _⟩ => ⟨S_, .f32⟩
  | .hbm, ⟨50, _⟩ => ⟨S50000x256, .f32⟩
  | .hbm, ⟨51, _⟩ => ⟨S800000x1, .i32⟩
  | .hbm, ⟨52, _⟩ => ⟨S50000x256, .f32⟩
  | .hbm, ⟨53, _⟩ => ⟨S50000x256, .f32⟩
  | .hbm, ⟨54, _⟩ => ⟨S50000x256, .f32⟩
  | .hbm, ⟨55, _⟩ => ⟨S50000x256, .f32⟩
  | .hbm, ⟨56, _⟩ => ⟨S1x256, .f32⟩
  | .hbm, ⟨57, _⟩ => ⟨S50000x256, .f32⟩
  | .hbm, ⟨58, _⟩ => ⟨S50000x256, .f32⟩
  | .hbm, ⟨59, _⟩ => ⟨S_, .f32⟩
  | .hbm, ⟨60, _⟩ => ⟨S50000x256, .f32⟩
  | .hbm, ⟨61, _⟩ => ⟨S50000x256, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x256, .f32⟩
  | .hbm, ⟨71, _⟩ => ⟨S_, .f32⟩
  | .hbm, ⟨72, _⟩ => ⟨S50000x256, .f32⟩
  | .hbm, ⟨73, _⟩ => ⟨S800000x1, .i32⟩
  | .hbm, ⟨74, _⟩ => ⟨S50000x256, .f32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S1x256, .f32⟩
  | .hbm, ⟨79, _⟩ => ⟨S50000x256, .f32⟩
  | .hbm, ⟨80, _⟩ => ⟨S50000x256, .f32⟩
  | .hbm, ⟨81, _⟩ => ⟨S_, .f32⟩
  | .hbm, ⟨82, _⟩ => ⟨S64x256, .f32⟩
  | .hbm, ⟨83, _⟩ => ⟨S50000x1, .i32⟩
  | .hbm, ⟨84, _⟩ => ⟨S64x256, .f32⟩
  | .hbm, ⟨85, _⟩ => ⟨S_, .f32⟩
  | .hbm, ⟨86, _⟩ => ⟨S50000, .f32⟩
  | .hbm, ⟨87, _⟩ => ⟨S_, .f32⟩
  | .hbm, ⟨88, _⟩ => ⟨S64, .f32⟩
  | .hbm, ⟨89, _⟩ => ⟨S50000x1, .i32⟩
  | .hbm, ⟨90, _⟩ => ⟨S64, .f32⟩
  | .hbm, ⟨91, _⟩ => ⟨S_, .f32⟩
  | .hbm, ⟨92, _⟩ => ⟨S64, .f32⟩
  | .hbm, ⟨93, _⟩ => ⟨S64, .f32⟩
  | .hbm, ⟨94, _⟩ => ⟨S64x1, .f32⟩
  | .hbm, ⟨95, _⟩ => ⟨S64x256, .f32⟩
  | .hbm, ⟨96, _⟩ => ⟨S64x256, .f32⟩
  | .hbm, ⟨97, _⟩ => ⟨S64x10, .f32⟩
  | .hbm, ⟨98, _⟩ => ⟨S1x10, .f32⟩
  | .hbm, ⟨99, _⟩ => ⟨S64x10, .f32⟩
  | .hbm, ⟨100, _⟩ => ⟨S64x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_cst : Ref sig .tc := ⟨.hbm, 37, rfl⟩
abbrev main_call0_v0 : Ref sig .tc := ⟨.hbm, 38, rfl⟩
abbrev main_v20 : Ref sig .tc := ⟨.hbm, 39, rfl⟩
abbrev main_c_1 : Ref sig .tc := ⟨.hbm, 40, rfl⟩
abbrev main_v21 : Ref sig .tc := ⟨.hbm, 41, rfl⟩
abbrev main_v22 : Ref sig .tc := ⟨.hbm, 42, rfl⟩
abbrev main_c_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call1_cst : Ref sig .tc := ⟨.hbm, 59, rfl⟩
abbrev main_call1_v0 : Ref sig .tc := ⟨.hbm, 60, rfl⟩
abbrev main_v37 : Ref sig .tc := ⟨.hbm, 61, rfl⟩
abbrev main_c_4 : Ref sig .tc := ⟨.hbm, 62, rfl⟩
abbrev main_v38 : Ref sig .tc := ⟨.hbm, 63, rfl⟩
abbrev main_v39 : Ref sig .tc := ⟨.hbm, 64, rfl⟩
abbrev main_c_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_8 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S64x256 : S_.BroadcastsInDim S64x256 (![] : Fin 0 → Fin S64x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x10_S64x10_1_0_0_1_n_n_wf : DotDims.WF S64x256 S256x10 S64x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

class Facts : Prop extends Facts₀ where

variable [Facts]
-- ==== Proof.KRegion0.lean ====
/-
  The first graph-convolution layer's dense half as one pipelined region: grid point `t` of ten is handed rows
  5000·t … 5000·t+4999 of the node features and of the neighbour sums, the two weight matrices and the bias row
  whole, and writes rows 5000·t … of the layer's output. What the body leaves in the output window's staging buffer is ONE
  pure function of the five input blocks (the skeleton's payload); the input buffers are left as found. From that: the
  proof data of the pipeline at the contents `V` the region is entered with, and the body obligation at every point.
-/
import proofs.«425379_j2551210574350_1_alg».proof.Proof.KernelLaunch
import proofs.«425379_j2551210574350_1_alg».proof.Proof.Gen.Kernel.Skeleton
import proofs.«425379_j2551210574350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, instantiated by the run
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, its block
    index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S5000x128 := Rect.unit (s := S5000x128) ![0, 0] S5000x128.size inb_S5000x128_S5000x128_0_0
abbrev r0_w : Rect S128x256 := Rect.unit (s := S128x256) ![0, 0] S128x256.size inb_S128x256_S128x256_0_0
abbrev r0_b : Rect S1x256 := Rect.unit (s := S1x256) ![0, 0] S1x256.size inb_S1x256_S1x256_0_0
abbrev r0_o : Rect S5000x256 := Rect.unit (s := S5000x256) ![0, 0] S5000x256.size inb_S5000x256_S5000x256_0_0

/-! ## What the body leaves in the output window's buffer -/

/-- The output window's staging buffer after the body, from the five input blocks: its one store, of the payload. -/
def out0_5 (x0 x1 : Vec F S5000x128 .f32) (x2 x3 : Vec F S128x256 .f32) (x4 : Vec F S1x256 .f32) : Vec F S5000x256 .f32 :=
  View.canon [⟨r0_o, k0_pay1 (View.ld x0 r0_x) (View.ld x1 r0_x) (View.ld x2 r0_w) (View.ld x3 r0_w) (View.ld x4 r0_b)⟩]

/-- The one store covers the buffer. -/
theorem cover0_5 (p0 : Vec F S5000x256 .f32) (y : S5000x256.Idx) :
    ∃ pc ∈ ([⟨r0_o, p0⟩] : List (View.Piece (Elt F) S5000x256 .f32)), y ∈ pc.1.set :=
  View.cover_of_tiled [⟨r0_o, p0⟩] S5000x256.size (by rfl) y

/-! ## The body's triple -/

set_option maxHeartbeats 1000000 in
/-- On whole staging memrefs, the inputs' at contents `x0 … x4` and the output's at anything, the body runs to the
    continuation holding the inputs' as they were and the output's at `out0_5` of them. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x256 .f32) (harg3 : arg3.IsWhole) (arg4 : Memref sig .tc .vmem S128x256 .f32) (harg4 : arg4.IsWhole)
    (arg5 : Memref sig .tc .vmem S1x256 .f32) (harg5 : arg5.IsWhole) (arg6 : Memref sig .tc .vmem S5000x256 .f32) (harg6 : arg6.IsWhole)
    (x0 x1 : Vec F S5000x128 .f32) (x2 x3 : Vec F S128x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__gc_kernel i arg1 harg1 arg2 harg2 arg3 harg3 arg4 harg4 arg5 harg5 arg6 harg6) K := by
  simp only [cc0__gc_kernel_eq_skeleton]; unfold cc0__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of this pipeline on core `c`: the arrays as the region finds them; after the body at point `t`
    each input's buffer at its block and the output's at `out0_5` of the input blocks; the invariant the scoped buffers no
    window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  The second graph-convolution layer's dense half as one pipelined region: grid point `t` of ten is handed rows
  5000·t … 5000·t+4999 of the node features and of the neighbour sums, the two weight matrices and the bias row
  whole, and writes rows 5000·t … of the layer's output. What the body leaves in the output window's staging buffer is ONE
  pure function of the five input blocks (the skeleton's payload); the input buffers are left as found. From that: the
  proof data of the pipeline at the contents `V` the region is entered with, and the body obligation at every point.
-/
import proofs.«425379_j2551210574350_1_alg».proof.Proof.KernelLaunch
import proofs.«425379_j2551210574350_1_alg».proof.Proof.Gen.Kernel.Skeleton
import proofs.«425379_j2551210574350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, instantiated by the run
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, its block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_x : Rect S5000x256 := Rect.unit (s := S5000x256) ![0, 0] S5000x256.size inb_S5000x256_S5000x256_0_0
abbrev r1_w : Rect S256x256 := Rect.unit (s := S256x256) ![0, 0] S256x256.size inb_S256x256_S256x256_0_0
abbrev r1_b : Rect S1x256 := Rect.unit (s := S1x256) ![0, 0] S1x256.size inb_S1x256_S1x256_0_0
abbrev r1_o : Rect S5000x256 := Rect.unit (s := S5000x256) ![0, 0] S5000x256.size inb_S5000x256_S5000x256_0_0

/-! ## What the body leaves in the output window's buffer -/

/-- The output window's staging buffer after the body, from the five input blocks: its one store, of the payload. -/
def out1_5 (x0 x1 : Vec F S5000x256 .f32) (x2 x3 : Vec F S256x256 .f32) (x4 : Vec F S1x256 .f32) : Vec F S5000x256 .f32 :=
  View.canon [⟨r1_o, k1_pay1 (View.ld x0 r1_x) (View.ld x1 r1_x) (View.ld x2 r1_w) (View.ld x3 r1_w) (View.ld x4 r1_b)⟩]

/-- The one store covers the buffer. -/
theorem cover1_5 (p0 : Vec F S5000x256 .f32) (y : S5000x256.Idx) :
    ∃ pc ∈ ([⟨r1_o, p0⟩] : List (View.Piece (Elt F) S5000x256 .f32)), y ∈ pc.1.set :=
  View.cover_of_tiled [⟨r1_o, p0⟩] S5000x256.size (by rfl) y

/-! ## The body's triple -/

set_option maxHeartbeats 1000000 in
/-- On whole staging memrefs, the inputs' at contents `x0 … x4` and the output's at anything, the body runs to the
    continuation holding the inputs' as they were and the output's at `out1_5` of them. -/
theorem sound_kernel1 (c : Dev nD) (E : Set ℕ) (i : grid1.Coords)
    (arg1 : Memref sig .tc .vmem S5000x256 .f32) (harg1 : arg1.IsWhole) (arg2 : Memref sig .tc .vmem S5000x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S5000x256 .f32) (harg6 : arg6.IsWhole)
    (x0 x1 : Vec F S5000x256 .f32) (x2 x3 : Vec F S256x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__gc_kernel i arg1 harg1 arg2 harg2 arg3 harg3 arg4 harg4 arg5 harg5 arg6 harg6) K := by
  simp only [cc1__gc_kernel_eq_skeleton]; unfold cc1__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them; after the body at point `t`
    each input's buffer at its block and the output's at `out1_5` of the input blocks; the invariant the scoped buffers no
    window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
/-
  The third graph-convolution layer's dense half as one pipelined region: grid point `t` of ten is handed rows
  5000·t … 5000·t+4999 of the node features and of the neighbour sums, the two weight matrices and the bias row
  whole, and writes rows 5000·t … of the layer's output. What the body leaves in the output window's staging buffer is ONE
  pure function of the five input blocks (the skeleton's payload); the input buffers are left as found. From that: the
  proof data of the pipeline at the contents `V` the region is entered with, and the body obligation at every point.
-/
import proofs.«425379_j2551210574350_1_alg».proof.Proof.KernelLaunch
import proofs.«425379_j2551210574350_1_alg».proof.Proof.Gen.Kernel.Skeleton
import proofs.«425379_j2551210574350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, instantiated by the run
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, its block
    index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_x : Rect S5000x256 := Rect.unit (s := S5000x256) ![0, 0] S5000x256.size inb_S5000x256_S5000x256_0_0
abbrev r2_w : Rect S256x256 := Rect.unit (s := S256x256) ![0, 0] S256x256.size inb_S256x256_S256x256_0_0
abbrev r2_b : Rect S1x256 := Rect.unit (s := S1x256) ![0, 0] S1x256.size inb_S1x256_S1x256_0_0
abbrev r2_o : Rect S5000x256 := Rect.unit (s := S5000x256) ![0, 0] S5000x256.size inb_S5000x256_S5000x256_0_0

/-! ## What the body leaves in the output window's buffer -/

/-- The output window's staging buffer after the body, from the five input blocks: its one store, of the payload. -/
def out2_5 (x0 x1 : Vec F S5000x256 .f32) (x2 x3 : Vec F S256x256 .f32) (x4 : Vec F S1x256 .f32) : Vec F S5000x256 .f32 :=
  View.canon [⟨r2_o, k2_pay1 (View.ld x0 r2_x) (View.ld x1 r2_x) (View.ld x2 r2_w) (View.ld x3 r2_w) (View.ld x4 r2_b)⟩]

/-- The one store covers the buffer. -/
theorem cover2_5 (p0 : Vec F S5000x256 .f32) (y : S5000x256.Idx) :
    ∃ pc ∈ ([⟨r2_o, p0⟩] : List (View.Piece (Elt F) S5000x256 .f32)), y ∈ pc.1.set :=
  View.cover_of_tiled [⟨r2_o, p0⟩] S5000x256.size (by rfl) y

/-! ## The body's triple -/

set_option maxHeartbeats 1000000 in
/-- On whole staging memrefs, the inputs' at contents `x0 … x4` and the output's at anything, the body runs to the
    continuation holding the inputs' as they were and the output's at `out2_5` of them. -/
theorem sound_kernel2 (c : Dev nD) (E : Set ℕ) (i : grid2.Coords)
    (arg1 : Memref sig .tc .vmem S5000x256 .f32) (harg1 : arg1.IsWhole) (arg2 : Memref sig .tc .vmem S5000x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S5000x256 .f32) (harg6 : arg6.IsWhole)
    (x0 x1 : Vec F S5000x256 .f32) (x2 x3 : Vec F S256x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__gc_kernel i arg1 harg1 arg2 harg2 arg3 harg3 arg4 harg4 arg5 harg5 arg6 harg6) K := by
  simp only [cc2__gc_kernel_eq_skeleton]; unfold cc2__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of this pipeline on core `c`: the arrays as the region finds them; after the body at point `t`
    each input's buffer at its block and the output's at `out2_5` of the input blocks; the invariant the scoped buffers no
    window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the triple applies; the invariant and the core's
    `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRegion3Defs.lean ====
/-
  The pooling region's quantities, as functions of the contents `V` the region is entered with: each window's block at
  a grid point; the running per-graph sums the kernel keeps in its scratch — after point 0 the first 5000 rows' one-hot
  product added to the zero block, after point n+1 that point's product added to what point n left —; and what the last
  point writes to the output block from those sums, the graph factors, the head's weights and its bias.
-/
import proofs.«425379_j2551210574350_1_alg».proof.Proof.KernelLaunch
import proofs.«425379_j2551210574350_1_alg».proof.Proof.Gen.Kernel.Skeleton
import proofs.«425379_j2551210574350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The scratch after point `n`: the sums over the rows of points 0 … n. -/
def acc3 (c : Dev nD) : (n : ℕ) → n < cfg3.N → Vec F S64x256 .f32
  | 0, h => k3_pay2 (iblk3 V c 0 ⟨0, h⟩) (iblk3 V c 1 ⟨0, h⟩) (k3_pay1 (F := F))
  | n + 1, h => k3_pay2 (iblk3 V c 0 ⟨n + 1, h⟩) (iblk3 V c 1 ⟨n + 1, h⟩) (acc3 c n (Nat.lt_of_succ_lt h))

/-- What a point that stores the output block leaves in it (only the last point does). -/
def out3_5 (c : Dev nD) (t : Fin cfg3.N) : Vec F S64x10 .f32 :=
  k3_pay3 (acc3 V c t.val t.isLt) (iblk3 V c 2 t) (iblk3 V c 3 t) (iblk3 V c 4 t)

end Cert.Kernel.Hand

end
-- ==== Proof.KRegion3.lean ====
/-
  The pooling head as one pipelined region of ten points. The kernel keeps per-graph running sums in a scratch block it
  carries from point to point: point 0 zeroes it; every point adds onehot(graph ids of its 5000 rows)ᵀ · (its 5000 rows);
  point 9 then writes the output block, (sums scaled by the per-graph factors) · W + b. Three control cases — first point,
  points between, last point — each with its body triple at explicit contents; the output window is idle (handed back
  untouched, not written back) away from the last point. From these: the proof data of the pipeline at the contents `V` the
  region is entered with, whose invariant carries the scratch at the sums so far, the body obligation at every point, and the
  passage from and back to the region-entry invariant.
-/
import proofs.«425379_j2551210574350_1_alg».proof.Proof.KernelLaunch
import proofs.«425379_j2551210574350_1_alg».proof.Proof.Gen.Kernel.Skeleton
import proofs.«425379_j2551210574350_1_alg».proof.Proof.Gen.Kernel.Points
import proofs.«425379_j2551210574350_1_alg».proof.Proof.KRegion3Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, instantiated by the run
variable (V : (c : Dev nD) → (b : Ref sig .tc) → Buf (Elt F) ((c : Thread nD τ).loc b))

/-! ## The body's two branch conditions, in closed form over the grid -/

/-- The first conditional's test, from the grid coordinate: "this is point 0". -/
abbrev cond3_0 (i : grid3.Coords) : Prop :=
  (Scalar.cmpi .ne (Scalar.extui (Scalar.cmpi .eq (BitVec.ofNat 32 (i 0).val) 0#32)) 0#32) = 1#1
/-- The second conditional's test: "this is point 9". -/
abbrev cond3_1 (i : grid3.Coords) : Prop := k3_cond2 i = 1#1

theorem hcond3_0 : ∀ t : Fin cfg3.N, cond3_0 (grid3.coords t) ↔ t.val = 0 :=
  (by decide +kernel : ∀ t : Fin grid3.N, cond3_0 (grid3.coords t) ↔ t.val = 0)
theorem hcond3_1 : ∀ t : Fin cfg3.N, cond3_1 (grid3.coords t) ↔ t.val = 9 :=
  (by decide +kernel : ∀ t : Fin grid3.N, cond3_1 (grid3.coords t) ↔ t.val = 9)

/-! ## Where the windows are idle, where the output is written back -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
/-- Away from point 9 the output window is idle and not written back. -/
theorem idleAt3_5 : ∀ t : Fin cfg3.N, ¬cond3_1 (grid3.coords t) → cfg3.idle 5 (grid3.coords t) = true := by decide +kernel
theorem noFlush3_5 : ∀ t : Fin cfg3.N, ¬cond3_1 (grid3.coords t) → (cfg3.win 5).flush t = false := by decide +kernel
/-- At point 9 it is live. -/
theorem liveAt3_5 : ∀ t : Fin cfg3.N, cond3_1 (grid3.coords t) → cfg3.idle 5 (grid3.coords t) = false := by decide +kernel

/-! ## The body's accesses: each buffer whole -/

abbrev r3_x : Rect S5000x256 := Rect.unit (s := S5000x256) ![0, 0] S5000x256.size inb_S5000x256_S5000x256_0_0
abbrev r3_b : Rect S5000x1 := Rect.unit (s := S5000x1) ![0, 0] S5000x1.size inb_S5000x1_S5000x1_0_0
abbrev r3_c : Rect S64x1 := Rect.unit (s := S64x1) ![0, 0] S64x1.size inb_S64x1_S64x1_0_0
abbrev r3_w : Rect S256x10 := Rect.unit (s := S256x10) ![0, 0] S256x10.size inb_S256x10_S256x10_0_0
abbrev r3_l : Rect S1x10 := Rect.unit (s := S1x10) ![0, 0] S1x10.size inb_S1x10_S1x10_0_0
abbrev r3_o : Rect S64x10 := Rect.unit (s := S64x10) ![0, 0] S64x10.size inb_S64x10_S64x10_0_0
abbrev r3_s : Rect S64x256 := Rect.unit (s := S64x256) ![0, 0] S64x256.size inb_S64x256_S64x256_0_0

/-- The offsets of every access are zero. -/
theorem hz3 : (![0, 0] : Fin 2 → ℕ) = fun _ => 0 := by funext a; fin_cases a <;> rfl

set_option maxHeartbeats 1000000 in
/-- Point 0: the scratch, handed at anything, is zeroed, read back and left at the first block's sums over the zero block;
    the inputs and the idle output block are left as found. -/
theorem sound_kernel3_A (c : Dev nD) (E : Set ℕ) (i : grid3.Coords) (hc0 : cond3_0 i) (hc1 : ¬cond3_1 i)
    (arg1 : Memref sig .tc .vmem S5000x256 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S256x10 .f32) (harg4 : arg4.IsWhole)
    (arg5 : Memref sig .tc .vmem S1x10 .f32) (harg5 : arg5.IsWhole) (arg6 : Memref sig .tc .vmem S64x10 .f32) (harg6 : arg6.IsWhole)
    (arg7 : Memref sig .tc .vmem S64x256 .f32) (harg7 : arg7.IsWhole)
    (x0 : Vec F S5000x256 .f32) (x1 : Vec F S5000x1 .i32) (x2 : Vec F S64x1 .f32) (x3 : Vec F S256x10 .f32) (x4 : Vec F S1x10 .f32)
    (y : Vec F S64x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare y ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare y ∗ owns (c : Thread nD τ) arg7 fullShare (k3_pay2 x0 x1 (k3_pay1 (F := F)))) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_words
  rw [View.read_writes_eq_canon _ _ _ (fun y => ⟨_, List.mem_cons_self, View.mem_set_unit_zero hz3 inb_S64x256_S64x256_0_0 y⟩),
    View.canon_cons_unit_zero (S := S64x256) hz3]
  simp only [View.readAt_eq_ld, View.ld_unit_zero (S := S5000x256) hz3, View.ld_unit_zero (S := S5000x1) hz3,
    View.ld_unit_zero (S := S64x1) hz3, View.ld_unit_zero (S := S256x10) hz3, View.ld_unit_zero (S := S1x10) hz3,
    View.ld_unit_zero (S := S64x256) hz3, View.ld_unit_zero (S := S64x10) hz3,
    View.readCov_unit_zero (S := S64x256) _ hz3]

set_option maxHeartbeats 1000000 in
/-- Points 1 … 8: the scratch, handed at the sums so far, is left at this block's sums added to them; the inputs and the
    idle output block are left as found. -/
theorem sound_kernel3_B (c : Dev nD) (E : Set ℕ) (i : grid3.Coords) (hc0 : ¬cond3_0 i) (hc1 : ¬cond3_1 i)
    (arg1 : Memref sig .tc .vmem S5000x256 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S256x10 .f32) (harg4 : arg4.IsWhole)
    (arg5 : Memref sig .tc .vmem S1x10 .f32) (harg5 : arg5.IsWhole) (arg6 : Memref sig .tc .vmem S64x10 .f32) (harg6 : arg6.IsWhole)
    (arg7 : Memref sig .tc .vmem S64x256 .f32) (harg7 : arg7.IsWhole)
    (x0 : Vec F S5000x256 .f32) (x1 : Vec F S5000x1 .i32) (x2 : Vec F S64x1 .f32) (x3 : Vec F S256x10 .f32) (x4 : Vec F S1x10 .f32)
    (y : Vec F S64x10 .f32) (xs : Vec F S64x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare y ∗ owns (c : Thread nD τ) arg7 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare y ∗ owns (c : Thread nD τ) arg7 fullShare (k3_pay2 x0 x1 xs)) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_words
  rw [View.read_writes_eq_canon _ _ _ (fun y => ⟨_, List.mem_cons_self, View.mem_set_unit_zero hz3 inb_S64x256_S64x256_0_0 y⟩),
    View.canon_cons_unit_zero (S := S64x256) hz3]
  simp only [View.readAt_eq_ld, View.ld_unit_zero (S := S5000x256) hz3, View.ld_unit_zero (S := S5000x1) hz3,
    View.ld_unit_zero (S := S64x1) hz3, View.ld_unit_zero (S := S256x10) hz3, View.ld_unit_zero (S := S1x10) hz3,
    View.ld_unit_zero (S := S64x256) hz3, View.ld_unit_zero (S := S64x10) hz3,
    View.readCov_unit_zero (S := S64x256) _ hz3]

set_option maxHeartbeats 1000000 in
/-- Point 9: the scratch, handed at the sums so far, is left at the last block's sums added to them, and the output block,
    handed at anything, at the head applied to those final sums; the inputs are left as found. -/
theorem sound_kernel3_C (c : Dev nD) (E : Set ℕ) (i : grid3.Coords) (hc0 : ¬cond3_0 i) (hc1 : cond3_1 i)
    (arg1 : Memref sig .tc .vmem S5000x256 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S256x10 .f32) (harg4 : arg4.IsWhole)
    (arg5 : Memref sig .tc .vmem S1x10 .f32) (harg5 : arg5.IsWhole) (arg6 : Memref sig .tc .vmem S64x10 .f32) (harg6 : arg6.IsWhole)
    (arg7 : Memref sig .tc .vmem S64x256 .f32) (harg7 : arg7.IsWhole)
    (x0 : Vec F S5000x256 .f32) (x1 : Vec F S5000x1 .i32) (x2 : Vec F S64x1 .f32) (x3 : Vec F S256x10 .f32) (x4 : Vec F S1x10 .f32)
    (y : Vec F S64x10 .f32) (xs : Vec F S64x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare y ∗ owns (c : Thread nD τ) arg7 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k3_pay3 (k3_pay2 x0 x1 xs) x2 x3 x4) ∗ owns (c : Thread nD τ) arg7 fullShare (k3_pay2 x0 x1 xs)) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (fun y => ⟨_, List.mem_cons_self, View.mem_set_unit_zero hz3 inb_S64x10_S64x10_0_0 y⟩),
      View.canon_cons_unit_zero (S := S64x10) hz3]
    simp only [View.readAt_eq_ld, View.ld_unit_zero (S := S5000x256) hz3, View.ld_unit_zero (S := S5000x1) hz3,
    View.ld_unit_zero (S := S64x1) hz3, View.ld_unit_zero (S := S256x10) hz3, View.ld_unit_zero (S := S1x10) hz3,
    View.ld_unit_zero (S := S64x256) hz3, View.ld_unit_zero (S := S64x10) hz3,
    View.readCov_unit_zero (S := S64x256) _ hz3]
  iexists _; isplitr
  swap; · iexact H6
  ipureintro
  sl_unfold_words
  rw [View.read_writes_eq_canon _ _ _ (fun y => ⟨_, List.mem_cons_self, View.mem_set_unit_zero hz3 inb_S64x256_S64x256_0_0 y⟩),
    View.canon_cons_unit_zero (S := S64x256) hz3]
  simp only [View.readAt_eq_ld, View.ld_unit_zero (S := S5000x256) hz3, View.ld_unit_zero (S := S5000x1) hz3,
    View.ld_unit_zero (S := S64x1) hz3, View.ld_unit_zero (S := S256x10) hz3, View.ld_unit_zero (S := S1x10) hz3,
    View.ld_unit_zero (S := S64x256) hz3, View.ld_unit_zero (S := S64x10) hz3,
    View.readCov_unit_zero (S := S64x256) _ hz3]

/-! ## The scratch as a memref, and the class invariant opened at it -/

/-- The kernel's scratch, whole. -/
abbrev scM3 : Memref sig .tc .vmem S64x256 .f32 := Memref.whole cc3_scratch0

/-- The region-entry invariant with the kernel's scratch owned as a memref at some contents, the other scoped buffers
    unopened, the generator register at some state. -/
theorem PhiA3_eq (c : Dev nD) :
    (Pipeline.ΦA spec3 c : sProp 𝕄)
      = iprop(iprop((∃ d, owns (c : Thread nD τ) scM3 fullShare d) ∗ Pipeline.scopedRestBut spec3 c [cc3_scratch0]) ∗ (∃ r, prngReg c r)) := by
  unfold Pipeline.ΦA; rw [scopedRest3_split]; simp only [scM3, owns_whole]; try rfl

/-! ## The running sums, point by point -/

/-- At point 0 the sums are the first block's over the zero block. -/
theorem acc3_zero (c : Dev nD) (t : Fin cfg3.N) (hz : t.val = 0) :
    acc3 V c t.val t.isLt = k3_pay2 (iblk3 V c 0 t) (iblk3 V c 1 t) (k3_pay1 (F := F)) := by
  obtain ⟨n, hn⟩ := t
  cases n with
  | zero => rfl
  | succ n => exact absurd hz (Nat.succ_ne_zero n)

/-- At a later point they are that point's block's added to what the point before left. -/
theorem acc3_pos (c : Dev nD) (t : Fin cfg3.N) (hz : t.val ≠ 0) :
    acc3 V c t.val t.isLt = k3_pay2 (iblk3 V c 0 t) (iblk3 V c 1 t) (acc3 V c (t.val - 1) (Nat.lt_of_le_of_lt (Nat.sub_le _ _) t.isLt)) := by
  obtain ⟨n, hn⟩ := t
  cases n with
  | zero => exact absurd rfl hz
  | succ n => rfl

/-! ## The region invariant -/

/-- Before point `n`: at the region's entry the class's invariant (the scratch at anything); afterwards the scratch at the
    sums the point before left, the other scoped buffers unopened, the generator register at some state. -/
def PhiS3 (c : Dev nD) : (n : ℕ) → n ≤ cfg3.N → sProp 𝕄
  | 0, _ => Pipeline.ΦA spec3 c
  | n + 1, hn => iprop(owns (c : Thread nD τ) scM3 fullShare (acc3 V c n hn) ∗ Pipeline.scopedRestBut spec3 c [cc3_scratch0] ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(owns (c : Thread nD τ) scM3 fullShare (acc3 V c n hn) ∗ Pipeline.scopedRestBut spec3 c [cc3_scratch0] ∗ (∃ r, prngReg c r)) := rfl

theorem PhiS3_pos (c : Dev nD) (n : ℕ) (h : n ≤ cfg3.N) (hz : n ≠ 0) :
    PhiS3 V c n h = iprop(owns (c : Thread nD τ) scM3 fullShare (acc3 V c (n - 1) (by omega)) ∗ Pipeline.scopedRestBut spec3 c [cc3_scratch0] ∗ (∃ r, prngReg c r)) := by
  cases n with
  | zero => exact absurd rfl hz
  | succ n => rfl

/-! ## The pipeline's proof data -/

/-- The proof data of the pooling pipeline on core `c`: the arrays as the region finds them; after the body at point `t`
    each input's buffer at its block and the output's at the head of the sums so far (kept only where the pipeline writes
    it back: the last point); the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 V c t := by dsimp only [dat3]

/-- Input window 0's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
/-- Input window 1's current staging buffer holds its block at every point, fetched there or not. -/
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
/-- Input window 2's current staging buffer holds its block at every point, fetched there or not. -/
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
/-- Input window 3's current staging buffer holds its block at every point, fetched there or not. -/
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
/-- Input window 4's current staging buffer holds its block at every point, fetched there or not. -/
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns: each window's buffer as the pipeline wants it left (an idle window's as found). -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4000000 in
/-- The body at any point. The inputs' memrefs hold their blocks; the closed forms say whether the point is the first, the
    last or one between, and the matching triple applies: the invariant hands the scratch over at what the point before left
    (at anything at the first point) and takes it back at this point's sums; the output block is handed back untouched where
    the window is idle and at the head of the final sums at the last point; the other scoped buffers, the generator register
    and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [show (dat3 V c).leavesExact 4 t = owns (c : Thread nD τ) (st3_4 t) fullShare ((dat3 V c).after 4 t) from by
    unfold Dat.leavesExact; rw [liveAt3_4 t], after3_4]
  have hN : t.val < 10 := lt_of_lt_of_eq t.isLt (show cfg3.N = 10 from N_3)
  by_cases h0 : t.val = 0
  · have hc0 : cond3_0 (grid3.coords t) := (hcond3_0 t).mpr h0
    have hc1 : ¬cond3_1 (grid3.coords t) := fun h => by have := (hcond3_1 t).mp h; omega
    rw [Dat.leavesExact_idle (dat3 V c) 5 t (idleAt3_5 t hc1) (noFlush3_5 t hc1)]
    rw [acc3_zero V c t h0]
    rw [PhiS3_castSucc V c t, PhiS3_zero V c _ _ h0, PhiA3_eq]
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (sound_kernel3_A c Set.univ (grid3.coords t) hc0 hc1 _ _ _ _ _ _ _ _ _ _ _ _ _ _
      (iblk3 V c 0 t) (iblk3 V c 1 t) (iblk3 V c 2 t) (iblk3 V c 3 t) (iblk3 V c 4 t) ((dat3 V c).before 5 t d5) _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    iexists d5; iexact H5
  · have hc0 : ¬cond3_0 (grid3.coords t) := fun h => h0 ((hcond3_0 t).mp h)
    by_cases h9 : t.val = 9
    · have hc1 : cond3_1 (grid3.coords t) := (hcond3_1 t).mpr h9
      rw [show (dat3 V c).leavesExact 5 t = owns (c : Thread nD τ) (st3_5 t) fullShare ((dat3 V c).after 5 t) from by
        unfold Dat.leavesExact; rw [liveAt3_5 t hc1], after3_5]
      unfold out3_5
      rw [acc3_pos V c t h0]
      rw [PhiS3_castSucc V c t, PhiS3_pos V c _ _ h0]
      iintro ⟨⟨HS, Hr, Hg⟩, Ho, ⟨%d0, H0⟩, ⟨%d1, H1⟩, ⟨%d2, H2⟩, ⟨%d3, H3⟩, ⟨%d4, H4⟩, ⟨%d5, H5⟩⟩
      iapply (sound_kernel3_C c Set.univ (grid3.coords t) hc0 hc1 _ _ _ _ _ _ _ _ _ _ _ _ _ _
        (iblk3 V c 0 t) (iblk3 V c 1 t) (iblk3 V c 2 t) (iblk3 V c 3 t) (iblk3 V c 4 t) ((dat3 V c).before 5 t d5)
        (acc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond3_1 (grid3.coords t) := fun h => h9 ((hcond3_1 t).mp h)
      rw [Dat.leavesExact_idle (dat3 V c) 5 t (idleAt3_5 t hc1) (noFlush3_5 t hc1)]
      rw [acc3_pos V c t h0]
      rw [PhiS3_castSucc V c t, PhiS3_pos V c _ _ h0]
      iintro ⟨⟨HS, Hr, Hg⟩, Ho, ⟨%d0, H0⟩, ⟨%d1, H1⟩, ⟨%d2, H2⟩, ⟨%d3, H3⟩, ⟨%d4, H4⟩, ⟨%d5, H5⟩⟩
      iapply (sound_kernel3_B c Set.univ (grid3.coords t) hc0 hc1 _ _ _ _ _ _ _ _ _ _ _ _ _ _
        (iblk3 V c 0 t) (iblk3 V c 1 t) (iblk3 V c 2 t) (iblk3 V c 3 t) (iblk3 V c 4 t) ((dat3 V c).before 5 t d5)
        (acc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Entering and leaving the region -/

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class's back: the scratch's named contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 10 := N_3; omega), PhiA3_eq]
  iintro ⟨HS, Hr, Hg⟩
  isplitl [HS Hr]
  · isplitl [HS]
    · iexists _; iexact HS
    iexact Hr
  iexact Hg

end Cert.Kernel.Hand

end
-- ==== Proof.KSegs.lean ====
/-
  The whole program as eight items in order — four stretches of host operations and the four pipelined regions — and its
  run: from any memory, every weakly fair execution ends, the arguments hold what they held at launch, and the result
  array holds what the last region's write-back leaves. Between two items a core holds every unscoped buffer at a named
  valuation: the launch memory, then each host stretch applied, then each region's output array replaced by what that
  region leaves in it (the fold of its points' write-backs, `Dat.arrAt`).
-/
import proofs.«425379_j2551210574350_1_alg».proof.Proof.KernelRegions
import proofs.«425379_j2551210574350_1_alg».proof.Proof.KRegion0
import proofs.«425379_j2551210574350_1_alg».proof.Proof.KRegion1
import proofs.«425379_j2551210574350_1_alg».proof.Proof.KRegion2
import proofs.«425379_j2551210574350_1_alg».proof.Proof.KRegion3

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The valuations between the items -/

/-- A valuation read at the TensorCore's references: what a region's proof data take. -/
abbrev rd (W : Dev nD → Valuation τ sig (Elt F)) : (c : Dev nD) → (b : Ref sig .tc) → Buf (Elt F) ((c : Thread nD τ).loc b) :=
  fun c b => W c b

/-- What region 0 leaves in the buffers: its arrays at the fold of its write-backs, every other buffer as entered. -/
def o2 : (r : Ref sig .tc) → (c : Dev nD) → Buf (Elt F) ((c : Thread nD τ).loc r) := fun r c =>
  Pipeline.withArrays spec0 c (GenP.V1 m c) (fun w => (dat0 (rd (GenP.V1 m)) c).arrAt w cfg0.N) (Proc.devRef .tc r)
abbrev O2 : GenP.Outs (F := F) := fun _ => o2 m
/-- What region 1 leaves, entered after the second host stretch run from region 0's exit. -/
def o4 : (r : Ref sig .tc) → (c : Dev nD) → Buf (Elt F) ((c : Thread nD τ).loc r) := fun r c =>
  Pipeline.withArrays spec1 c (GenP.V3 m (O2 m) c) (fun w => (dat1 (rd (GenP.V3 m (O2 m))) c).arrAt w cfg1.N) (Proc.devRef .tc r)
abbrev O4 : GenP.Outs (F := F) := fun n => if n = 2 then o2 m else o4 m
/-- What region 2 leaves. -/
def o6 : (r : Ref sig .tc) → (c : Dev nD) → Buf (Elt F) ((c : Thread nD τ).loc r) := fun r c =>
  Pipeline.withArrays spec2 c (GenP.V5 m (O4 m) c) (fun w => (dat2 (rd (GenP.V5 m (O4 m))) c).arrAt w cfg2.N) (Proc.devRef .tc r)
abbrev O6 : GenP.Outs (F := F) := fun n => if n = 2 then o2 m else if n = 4 then o4 m else o6 m
/-- What region 3 leaves. -/
def o8 : (r : Ref sig .tc) → (c : Dev nD) → Buf (Elt F) ((c : Thread nD τ).loc r) := fun r c =>
  Pipeline.withArrays spec3 c (GenP.V7 m (O6 m) c) (fun w => (dat3 (rd (GenP.V7 m (O6 m))) c).arrAt w cfg3.N) (Proc.devRef .tc r)
/-- The regions' results, by the item after which they are read. -/
abbrev outs : GenP.Outs (F := F) := fun n => if n = 2 then o2 m else if n = 4 then o4 m else if n = 6 then o6 m else o8 m

theorem V3_outs : GenP.V3 m (outs m) = GenP.V3 m (O2 m) := rfl
theorem V5_outs : GenP.V5 m (outs m) = GenP.V5 m (O4 m) := rfl
theorem V7_outs : GenP.V7 m (outs m) = GenP.V7 m (O6 m) := rfl

/-! ## The proof data family and what rides beside the buffers -/

/-- Every pipeline's proof data, each at its region's entry contents. -/
def pdats : (p : Fin 4) → (c : Dev nD) → Dat τ (Elt F) Unit ℕ (UR sig nD τ) ℕ (cfgs p) c
  | ⟨0, _⟩ => fun c => dat0 (rd (GenP.V1 m)) c
  | ⟨1, _⟩ => fun c => dat1 (rd (GenP.V3 m (outs m))) c
  | ⟨2, _⟩ => fun c => dat2 (rd (GenP.V5 m (outs m))) c
  | ⟨3, _⟩ => fun c => dat3 (rd (GenP.V7 m (outs m))) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the core's generator register at some state and its dues, none. -/
abbrev Rst (c : Dev nD) : sProp 𝕄 := iprop((∃ r, prngReg c r) ∗ ∃ W, owes (c : Thread nD τ) (0 : CellTallies nD τ sig Unit) W)

theorem hinP0 (c : Dev nD) : Pipeline.ΦA spec0 c ⊢ (pdats m 0 c).Φ 0 := by
  rw [show (pdats m 0 c).Φ 0 = Pipeline.ΦA spec0 c from rfl]
theorem houtP0 (c : Dev nD) : (pdats m 0 c).Φ (Fin.last _) ⊢ Pipeline.ΦA spec0 c := by
  rw [show (pdats m 0 c).Φ (Fin.last _) = Pipeline.ΦA spec0 c from rfl]

theorem hinP1 (c : Dev nD) : Pipeline.ΦA spec1 c ⊢ (pdats m 1 c).Φ 0 := by
  rw [show (pdats m 1 c).Φ 0 = Pipeline.ΦA spec1 c from rfl]
theorem houtP1 (c : Dev nD) : (pdats m 1 c).Φ (Fin.last _) ⊢ Pipeline.ΦA spec1 c := by
  rw [show (pdats m 1 c).Φ (Fin.last _) = Pipeline.ΦA spec1 c from rfl]

theorem hinP2 (c : Dev nD) : Pipeline.ΦA spec2 c ⊢ (pdats m 2 c).Φ 0 := by
  rw [show (pdats m 2 c).Φ 0 = Pipeline.ΦA spec2 c from rfl]
theorem houtP2 (c : Dev nD) : (pdats m 2 c).Φ (Fin.last _) ⊢ Pipeline.ΦA spec2 c := by
  rw [show (pdats m 2 c).Φ (Fin.last _) = Pipeline.ΦA spec2 c from rfl]

theorem hinP3 (c : Dev nD) : Pipeline.ΦA spec3 c ⊢ (pdats m 3 c).Φ 0 := hin3 (rd (GenP.V7 m (outs m))) c
theorem houtP3 (c : Dev nD) : (pdats m 3 c).Φ (Fin.last _) ⊢ Pipeline.ΦA spec3 c := hout3 (rd (GenP.V7 m (outs m))) c

/-! ## The regions as segments -/

/-- Region 0's arrays after it, one by one, are what the next valuation holds: an input's array as entered, the
    output's at what the write-backs leave. -/
theorem hF0 (c : Dev nD) (w : Fin cfg0.W) :
    (pdats m 0 c).arrAt w cfg0.N = rd (GenP.V2 m (outs m)) c (Pipeline.arrRef spec0 w) := by
  have hin : ∀ w : Fin cfg0.W, (cfg0.win w).isOut = false → Pipeline.arrRef spec0 w ∉ ([main_v15] : List (Ref sig .tc)) →
      (pdats m 0 c).arrAt w cfg0.N = rd (GenP.V2 m (outs m)) c (Pipeline.arrRef spec0 w) := fun w hw hn =>
    ((pdats m 0 c).arrAt_in w hw _).trans ((A_eq0 (rd (GenP.V1 m)) c w).trans (GenP.V2_of m (outs m) c _ hn).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ =>
    refine (Pipeline.withArrays_arr spec0 launch0.win.arr_inj c (GenP.V1 m c)
      (fun w => (dat0 (rd (GenP.V1 m)) c).arrAt w cfg0.N) 5).symm.trans ?_
    exact (Function.update_self (f := GenP.V1 m c) (Proc.devRef (τ := τ) .tc main_v15) _).symm

/-- Every buffer that is no array of region 0 is held as entered. -/
theorem hrest0 (c : Dev nD) : ∀ b, b ∉ Finset.univ.image (Pipeline.arrRef spec0) →
    rd (GenP.V2 m (outs m)) c b = rd (GenP.V1 m) c b := fun b hb =>
  GenP.V2_of m (outs m) c b (by
    simp only [List.mem_singleton]
    rintro rfl
    exact hb (Finset.mem_image.mpr ⟨5, Finset.mem_univ _, rfl⟩))

set_option backward.isDefEq.respectTransparency.types false in
/-- Region 0 over the thread state: entered holding every unscoped buffer at the valuation before it, left holding them
    at the valuation after it; its arrays split out at entry and put back at exit; the generator register lent to the region's
    invariant and returned; nothing owed; the kernel has no semaphore of its own. -/
def reg0 : Pipeline.RegionSeg (pcfgs (F := F)) GenP.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (GenP.V1 m)) c).loose
  hwaits := Pipeline.hwaits_of_owed_zero _ _ _ _ L lv 0 fun _ _ => rfl
  pre c := iprop(StableHlo.held (c : Thread nD τ) (Pipeline.ucRefs τ sig) (GenP.V1 m c) ∗ Rst c)
  post c := iprop(StableHlo.held (c : Thread nD τ) (Pipeline.ucRefs τ sig) (GenP.V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (rd (GenP.V1 m) c)
  hentry c := by
    rw [Pipeline.ownSems0_none]
    have hsplit := Pipeline.arrays_of_unscopedBufs (p := 0) (pcfgs (F := F)) GenP.adm (pdats m) launch0.win launch0.arr_whole c
      ((pdats m 0 c).share_full fun _ => rfl) (rd (GenP.V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec0 c from by
    unfold Pipeline.ΦA
    iintro ⟨Hp, -, Hr⟩
    isplitl [Hr]; · iexact Hr
    iexact Hp).trans (hinP0 m c)
  hout c := (houtP0 m c).trans (by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 0) (pcfgs (F := F)) GenP.adm (Ix := Unit) (Name := ℕ) (U := UR sig nD τ) (Lvl := ℕ)
      launch0.win launch0.arr_whole c (pdats m) ((pdats m 0 c).share_full fun _ => rfl)
      (rd (GenP.V1 m) c) (rd (GenP.V2 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1's arrays after it, one by one, are what the next valuation holds: an input's array as entered, the
    output's at what the write-backs leave. -/
theorem hF1 (c : Dev nD) (w : Fin cfg1.W) :
    (pdats m 1 c).arrAt w cfg1.N = rd (GenP.V4 m (outs m)) c (Pipeline.arrRef spec1 w) := by
  have hin : ∀ w : Fin cfg1.W, (cfg1.win w).isOut = false → Pipeline.arrRef spec1 w ∉ ([main_v27] : List (Ref sig .tc)) →
      (pdats m 1 c).arrAt w cfg1.N = rd (GenP.V4 m (outs m)) c (Pipeline.arrRef spec1 w) := fun w hw hn =>
    ((pdats m 1 c).arrAt_in w hw _).trans ((A_eq1 (rd (GenP.V3 m (outs m))) c w).trans (GenP.V4_of m (outs m) c _ hn).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ =>
    refine (Pipeline.withArrays_arr spec1 launch1.win.arr_inj c (GenP.V3 m (outs m) c)
      (fun w => (dat1 (rd (GenP.V3 m (outs m))) c).arrAt w cfg1.N) 5).symm.trans ?_
    exact (Function.update_self (f := GenP.V3 m (outs m) c) (Proc.devRef (τ := τ) .tc main_v27) _).symm

/-- Every buffer that is no array of region 1 is held as entered. -/
theorem hrest1 (c : Dev nD) : ∀ b, b ∉ Finset.univ.image (Pipeline.arrRef spec1) →
    rd (GenP.V4 m (outs m)) c b = rd (GenP.V3 m (outs m)) c b := fun b hb =>
  GenP.V4_of m (outs m) c b (by
    simp only [List.mem_singleton]
    rintro rfl
    exact hb (Finset.mem_image.mpr ⟨5, Finset.mem_univ _, rfl⟩))

set_option backward.isDefEq.respectTransparency.types false in
/-- Region 1 over the thread state: entered holding every unscoped buffer at the valuation before it, left holding them
    at the valuation after it; its arrays split out at entry and put back at exit; the generator register lent to the region's
    invariant and returned; nothing owed; the kernel has no semaphore of its own. -/
def reg1 : Pipeline.RegionSeg (pcfgs (F := F)) GenP.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (GenP.V3 m (outs m))) c).loose
  hwaits := Pipeline.hwaits_of_owed_zero _ _ _ _ L lv 1 fun _ _ => rfl
  pre c := iprop(StableHlo.held (c : Thread nD τ) (Pipeline.ucRefs τ sig) (GenP.V3 m (outs m) c) ∗ Rst c)
  post c := iprop(StableHlo.held (c : Thread nD τ) (Pipeline.ucRefs τ sig) (GenP.V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (rd (GenP.V3 m (outs m)) c)
  hentry c := by
    rw [Pipeline.ownSems0_none]
    have hsplit := Pipeline.arrays_of_unscopedBufs (p := 1) (pcfgs (F := F)) GenP.adm (pdats m) launch1.win launch1.arr_whole c
      ((pdats m 1 c).share_full fun _ => rfl) (rd (GenP.V3 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec1 c from by
    unfold Pipeline.ΦA
    iintro ⟨Hp, -, Hr⟩
    isplitl [Hr]; · iexact Hr
    iexact Hp).trans (hinP1 m c)
  hout c := (houtP1 m c).trans (by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 1) (pcfgs (F := F)) GenP.adm (Ix := Unit) (Name := ℕ) (U := UR sig nD τ) (Lvl := ℕ)
      launch1.win launch1.arr_whole c (pdats m) ((pdats m 1 c).share_full fun _ => rfl)
      (rd (GenP.V3 m (outs m)) c) (rd (GenP.V4 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2's arrays after it, one by one, are what the next valuation holds: an input's array as entered, the
    output's at what the write-backs leave. -/
theorem hF2 (c : Dev nD) (w : Fin cfg2.W) :
    (pdats m 2 c).arrAt w cfg2.N = rd (GenP.V6 m (outs m)) c (Pipeline.arrRef spec2 w) := by
  have hin : ∀ w : Fin cfg2.W, (cfg2.win w).isOut = false → Pipeline.arrRef spec2 w ∉ ([main_v39] : List (Ref sig .tc)) →
      (pdats m 2 c).arrAt w cfg2.N = rd (GenP.V6 m (outs m)) c (Pipeline.arrRef spec2 w) := fun w hw hn =>
    ((pdats m 2 c).arrAt_in w hw _).trans ((A_eq2 (rd (GenP.V5 m (outs m))) c w).trans (GenP.V6_of m (outs m) c _ hn).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ =>
    refine (Pipeline.withArrays_arr spec2 launch2.win.arr_inj c (GenP.V5 m (outs m) c)
      (fun w => (dat2 (rd (GenP.V5 m (outs m))) c).arrAt w cfg2.N) 5).symm.trans ?_
    exact (Function.update_self (f := GenP.V5 m (outs m) c) (Proc.devRef (τ := τ) .tc main_v39) _).symm

/-- Every buffer that is no array of region 2 is held as entered. -/
theorem hrest2 (c : Dev nD) : ∀ b, b ∉ Finset.univ.image (Pipeline.arrRef spec2) →
    rd (GenP.V6 m (outs m)) c b = rd (GenP.V5 m (outs m)) c b := fun b hb =>
  GenP.V6_of m (outs m) c b (by
    simp only [List.mem_singleton]
    rintro rfl
    exact hb (Finset.mem_image.mpr ⟨5, Finset.mem_univ _, rfl⟩))

set_option backward.isDefEq.respectTransparency.types false in
/-- Region 2 over the thread state: entered holding every unscoped buffer at the valuation before it, left holding them
    at the valuation after it; its arrays split out at entry and put back at exit; the generator register lent to the region's
    invariant and returned; nothing owed; the kernel has no semaphore of its own. -/
def reg2 : Pipeline.RegionSeg (pcfgs (F := F)) GenP.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (GenP.V5 m (outs m))) c).loose
  hwaits := Pipeline.hwaits_of_owed_zero _ _ _ _ L lv 2 fun _ _ => rfl
  pre c := iprop(StableHlo.held (c : Thread nD τ) (Pipeline.ucRefs τ sig) (GenP.V5 m (outs m) c) ∗ Rst c)
  post c := iprop(StableHlo.held (c : Thread nD τ) (Pipeline.ucRefs τ sig) (GenP.V6 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (rd (GenP.V5 m (outs m)) c)
  hentry c := by
    rw [Pipeline.ownSems0_none]
    have hsplit := Pipeline.arrays_of_unscopedBufs (p := 2) (pcfgs (F := F)) GenP.adm (pdats m) launch2.win launch2.arr_whole c
      ((pdats m 2 c).share_full fun _ => rfl) (rd (GenP.V5 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec2 c from by
    unfold Pipeline.ΦA
    iintro ⟨Hp, -, Hr⟩
    isplitl [Hr]; · iexact Hr
    iexact Hp).trans (hinP2 m c)
  hout c := (houtP2 m c).trans (by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 2) (pcfgs (F := F)) GenP.adm (Ix := Unit) (Name := ℕ) (U := UR sig nD τ) (Lvl := ℕ)
      launch2.win launch2.arr_whole c (pdats m) ((pdats m 2 c).share_full fun _ => rfl)
      (rd (GenP.V5 m (outs m)) c) (rd (GenP.V6 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 3's arrays after it, one by one, are what the next valuation holds: an input's array as entered, the
    output's at what the write-backs leave. -/
theorem hF3 (c : Dev nD) (w : Fin cfg3.W) :
    (pdats m 3 c).arrAt w cfg3.N = rd (GenP.V8 m (outs m)) c (Pipeline.arrRef spec3 w) := by
  have hin : ∀ w : Fin cfg3.W, (cfg3.win w).isOut = false → Pipeline.arrRef spec3 w ∉ ([main_v51] : List (Ref sig .tc)) →
      (pdats m 3 c).arrAt w cfg3.N = rd (GenP.V8 m (outs m)) c (Pipeline.arrRef spec3 w) := fun w hw hn =>
    ((pdats m 3 c).arrAt_in w hw _).trans ((A_eq3 (rd (GenP.V7 m (outs m))) c w).trans (GenP.V8_of m (outs m) c _ hn).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ =>
    refine (Pipeline.withArrays_arr spec3 launch3.win.arr_inj c (GenP.V7 m (outs m) c)
      (fun w => (dat3 (rd (GenP.V7 m (outs m))) c).arrAt w cfg3.N) 5).symm.trans ?_
    exact (Function.update_self (f := GenP.V7 m (outs m) c) (Proc.devRef (τ := τ) .tc main_v51) _).symm

/-- Every buffer that is no array of region 3 is held as entered. -/
theorem hrest3 (c : Dev nD) : ∀ b, b ∉ Finset.univ.image (Pipeline.arrRef spec3) →
    rd (GenP.V8 m (outs m)) c b = rd (GenP.V7 m (outs m)) c b := fun b hb =>
  GenP.V8_of m (outs m) c b (by
    simp only [List.mem_singleton]
    rintro rfl
    exact hb (Finset.mem_image.mpr ⟨5, Finset.mem_univ _, rfl⟩))

set_option backward.isDefEq.respectTransparency.types false in
/-- Region 3 over the thread state: entered holding every unscoped buffer at the valuation before it, left holding them
    at the valuation after it; its arrays split out at entry and put back at exit; the generator register lent to the region's
    invariant and returned; nothing owed; the kernel has no semaphore of its own. -/
def reg3 : Pipeline.RegionSeg (pcfgs (F := F)) GenP.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (rd (GenP.V7 m (outs m))) c).loose
  hwaits := Pipeline.hwaits_of_owed_zero _ _ _ _ L lv 3 fun _ _ => rfl
  pre c := iprop(StableHlo.held (c : Thread nD τ) (Pipeline.ucRefs τ sig) (GenP.V7 m (outs m) c) ∗ Rst c)
  post c := iprop(StableHlo.held (c : Thread nD τ) (Pipeline.ucRefs τ sig) (GenP.V8 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (rd (GenP.V7 m (outs m)) c)
  hentry c := by
    rw [Pipeline.ownSems0_none]
    have hsplit := Pipeline.arrays_of_unscopedBufs (p := 3) (pcfgs (F := F)) GenP.adm (pdats m) launch3.win launch3.arr_whole c
      ((pdats m 3 c).share_full fun _ => rfl) (rd (GenP.V7 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec3 c from by
    unfold Pipeline.ΦA
    iintro ⟨Hp, -, Hr⟩
    isplitl [Hr]; · iexact Hr
    iexact Hp).trans (hinP3 m c)
  hout c := (houtP3 m c).trans (by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 3) (pcfgs (F := F)) GenP.adm (Ix := Unit) (Name := ℕ) (U := UR sig nD τ) (Lvl := ℕ)
      launch3.win launch3.arr_whole c (pdats m) ((pdats m 3 c).share_full fun _ => rfl)
      (rd (GenP.V7 m (outs m)) c) (rd (GenP.V8 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The result array at the end: what region 3's write-backs leave in it. -/
def result (c : Dev nD) : Buf (Elt F) ((c : Thread nD τ).loc main_v51) := (dat3 (rd (GenP.V7 m (outs m))) c).arrAt 5 cfg3.N

theorem V8_main_v51 (c : Dev nD) : GenP.V8 m (outs m) c main_v51 = result m c :=
  (Function.update_self (f := GenP.V7 m (outs m) c) (Proc.devRef (τ := τ) .tc main_v51) _).trans
    (Pipeline.withArrays_arr spec3 launch3.win.arr_inj c (GenP.V7 m (O6 m) c)
      (fun w => (dat3 (rd (GenP.V7 m (O6 m))) c).arrAt w cfg3.N) 5)

set_option backward.isDefEq.respectTransparency.types false in
/-- From any memory with zero counters every weakly fair execution of the program terminates, and every final memory holds
    the result array at `result` and each argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v51) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine Pipeline.θ_run_regions_kit_dev (pcfgs (F := F)) GenP.adm (pdats m) () GenP.cellOf_inj emb₁ defs₀ 𝒱₀ L lv m ρ main
    (GenP.segs m (outs m) 𝒱₀ L lv (fun _ => Rst) () (pdats m) (reg0 m) (reg1 m) (reg2 m) (reg3 m))
    (fun c Q => by
      rewrite [GenP.main_chain c, Seg.run_eq_chain,
        show (GenP.segs m (outs m) 𝒱₀ L lv (fun _ => Rst) () (pdats m) (reg0 m) (reg1 m) (reg2 m) (reg3 m) c).map Seg.prog = [
          StableHlo.seq GenP.hostOps0,
          Prog.lift (.customCall (Pipeline.entry 0) ()),
          StableHlo.seq GenP.hostOps1,
          Prog.lift (.customCall (Pipeline.entry 1) ()),
          StableHlo.seq GenP.hostOps2,
          Prog.lift (.customCall (Pipeline.entry 2) ()),
          StableHlo.seq GenP.hostOps3,
          Prog.lift (.customCall (Pipeline.entry 3) ()) ] from rfl]
      exact .rfl)
    (fun c => by simp only [GenP.segs, Seg.pipes_host, Seg.pipes_region, Seg.pipes_nil]; decide) (fun _ => 0) (fun _ _ => rfl)
    (fun _ => iprop(emp)) (initOf (Pipeline.cells cfgs GenP.cellOf_inj) (Pipeline.launchToks cfgs GenP.cellOf_inj))
    (by
      iintro Hu; imodintro
      isplitl [Hu]
      · iapply (show (ownU (initOf (Pipeline.cells cfgs GenP.cellOf_inj) (Pipeline.launchToks cfgs GenP.cellOf_inj)) : sProp 𝕄)
            ⊢ BI.own (emb₁ (initOf (Pipeline.cells cfgs GenP.cellOf_inj) (Pipeline.launchToks cfgs GenP.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (GenP.V0 m c) ∗ Rst c))
    (Tₙ := fun c => StableHlo.held (c : Thread nD τ) (Pipeline.ucRefs τ sig) (GenP.V8 m (outs m) c))
    (hch := fun c => ⟨.rfl, .rfl, .rfl, .rfl, .rfl, .rfl, .rfl, .rfl, sep_mono .rfl (show (Rst c : sProp 𝕄) ⊢ iprop(∃ W, owes (c : Thread nD τ) (0 : CellTallies nD τ sig Unit) W) from by
      iintro ⟨-, HO⟩
      iexact HO)⟩)
    (hinit := ?_) (QY := fun c s => s.mem ((c.tc : Thread nD τ).loc main_v51) = result m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13))
    (hfin := fun c s' => ?_) (hQ := fun _ h => h)
  · -- the launch: the unscoped buffers are held at the launch memory; the register and the dues ride along
    refine Pipeline.initEach L lv fun c => ?_
    rw [show unscopedBufs c (fun b => m ((c : Thread nD τ).loc b)) = StableHlo.held (c : Thread nD τ) (Pipeline.ucRefs τ sig) (GenP.V0 m c)
      from Pipeline.unscopedBufs_held c (GenP.V0 m c)]
    iintro ⟨⟨Hh, -, HO, -, Hp, -⟩, -⟩
    imodintro
    isplitl [Hh]; · iexact Hh
    isplitl [Hp]; · iexists _; iexact Hp
    iexists ∅; iexact HO
  · -- the end: the result and each argument read off the last valuation
    unfold StableHlo.held
    iintro ⟨Hh, HSI⟩
    ihave Hr := (pointsTo_read_all (Pipeline.ucRefs τ sig) (fun b => ((c : Thread nD τ).1, b)) (GenP.V8 m (outs m) c) s') $$ [Hh HSI]
    · isplitl [Hh] <;> iassumption
    icases Hr with ⟨%h, HSI⟩
    imodintro
    isplitr
    · ipureintro
      exact ⟨(h (Proc.devRef .tc main_v51) (Finset.mem_filter.mpr ⟨StableHlo.devRef_mem_tcRefs main_v51, by decide⟩)).trans (V8_main_v51 m c),
        (h (Proc.devRef .tc main_arg0) (Finset.mem_filter.mpr ⟨StableHlo.devRef_mem_tcRefs main_arg0, by decide⟩)).trans (GenP.V8_main_arg0 m (outs m) c),
        (h (Proc.devRef .tc main_arg1) (Finset.mem_filter.mpr ⟨StableHlo.devRef_mem_tcRefs main_arg1, by decide⟩)).trans (GenP.V8_main_arg1 m (outs m) c),
        (h (Proc.devRef .tc main_arg2) (Finset.mem_filter.mpr ⟨StableHlo.devRef_mem_tcRefs main_arg2, by decide⟩)).trans (GenP.V8_main_arg2 m (outs m) c),
        (h (Proc.devRef .tc main_arg3) (Finset.mem_filter.mpr ⟨StableHlo.devRef_mem_tcRefs main_arg3, by decide⟩)).trans (GenP.V8_main_arg3 m (outs m) c),
        (h (Proc.devRef .tc main_arg4) (Finset.mem_filter.mpr ⟨StableHlo.devRef_mem_tcRefs main_arg4, by decide⟩)).trans (GenP.V8_main_arg4 m (outs m) c),
        (h (Proc.devRef .tc main_arg5) (Finset.mem_filter.mpr ⟨StableHlo.devRef_mem_tcRefs main_arg5, by decide⟩)).trans (GenP.V8_main_arg5 m (outs m) c),
        (h (Proc.devRef .tc main_arg6) (Finset.mem_filter.mpr ⟨StableHlo.devRef_mem_tcRefs main_arg6, by decide⟩)).trans (GenP.V8_main_arg6 m (outs m) c),
        (h (Proc.devRef .tc main_arg7) (Finset.mem_filter.mpr ⟨StableHlo.devRef_mem_tcRefs main_arg7, by decide⟩)).trans (GenP.V8_main_arg7 m (outs m) c),
        (h (Proc.devRef .tc main_arg8) (Finset.mem_filter.mpr ⟨StableHlo.devRef_mem_tcRefs main_arg8, by decide⟩)).trans (GenP.V8_main_arg8 m (outs m) c),
        (h (Proc.devRef .tc main_arg9) (Finset.mem_filter.mpr ⟨StableHlo.devRef_mem_tcRefs main_arg9, by decide⟩)).trans (GenP.V8_main_arg9 m (outs m) c),
        (h (Proc.devRef .tc main_arg10) (Finset.mem_filter.mpr ⟨StableHlo.devRef_mem_tcRefs main_arg10, by decide⟩)).trans (GenP.V8_main_arg10 m (outs m) c),
        (h (Proc.devRef .tc main_arg11) (Finset.mem_filter.mpr ⟨StableHlo.devRef_mem_tcRefs main_arg11, by decide⟩)).trans (GenP.V8_main_arg11 m (outs m) c),
        (h (Proc.devRef .tc main_arg12) (Finset.mem_filter.mpr ⟨StableHlo.devRef_mem_tcRefs main_arg12, by decide⟩)).trans (GenP.V8_main_arg12 m (outs m) c),
        (h (Proc.devRef .tc main_arg13) (Finset.mem_filter.mpr ⟨StableHlo.devRef_mem_tcRefs main_arg13, by decide⟩)).trans (GenP.V8_main_arg13 m (outs m) c)⟩
    · iexact HSI

/-- The frame: the arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => (h c).2) (run_main m ρ)

end Cert.Kernel.Hand

end
-- ==== Proof.KIRegion0.lean ====
/-
  The first graph-convolution layer's dense half as one pipelined region: grid point `t` of ten is handed rows
  5000·t … 5000·t+4999 of the node features and of the neighbour sums, the two weight matrices and the bias row
  whole, and writes rows 5000·t … of the layer's output. What the body leaves in the output window's staging buffer is ONE
  pure function of the five input blocks (the skeleton's payload); the input buffers are left as found. From that: the
  proof data of the pipeline at the contents `V` the region is entered with, and the body obligation at every point.
-/
import proofs.«425379_j2551210574350_1_alg».proof.Proof.KernelIdealLaunch
import proofs.«425379_j2551210574350_1_alg».proof.Proof.Gen.KernelIdeal.Skeleton
import proofs.«425379_j2551210574350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, instantiated by the run
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, its block
    index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S5000x128 := Rect.unit (s := S5000x128) ![0, 0] S5000x128.size inb_S5000x128_S5000x128_0_0
abbrev r0_w : Rect S128x256 := Rect.unit (s := S128x256) ![0, 0] S128x256.size inb_S128x256_S128x256_0_0
abbrev r0_b : Rect S1x256 := Rect.unit (s := S1x256) ![0, 0] S1x256.size inb_S1x256_S1x256_0_0
abbrev r0_o : Rect S5000x256 := Rect.unit (s := S5000x256) ![0, 0] S5000x256.size inb_S5000x256_S5000x256_0_0

/-! ## What the body leaves in the output window's buffer -/

/-- The output window's staging buffer after the body, from the five input blocks: its one store, of the payload. -/
def out0_5 (x0 x1 : Vec F S5000x128 .f32) (x2 x3 : Vec F S128x256 .f32) (x4 : Vec F S1x256 .f32) : Vec F S5000x256 .f32 :=
  View.canon [⟨r0_o, k0_pay1 (View.ld x0 r0_x) (View.ld x1 r0_x) (View.ld x2 r0_w) (View.ld x3 r0_w) (View.ld x4 r0_b)⟩]

/-- The one store covers the buffer. -/
theorem cover0_5 (p0 : Vec F S5000x256 .f32) (y : S5000x256.Idx) :
    ∃ pc ∈ ([⟨r0_o, p0⟩] : List (View.Piece (Elt F) S5000x256 .f32)), y ∈ pc.1.set :=
  View.cover_of_tiled [⟨r0_o, p0⟩] S5000x256.size (by rfl) y

/-! ## The body's triple -/

set_option maxHeartbeats 1000000 in
/-- On whole staging memrefs, the inputs' at contents `x0 … x4` and the output's at anything, the body runs to the
    continuation holding the inputs' as they were and the output's at `out0_5` of them. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x256 .f32) (harg3 : arg3.IsWhole) (arg4 : Memref sig .tc .vmem S128x256 .f32) (harg4 : arg4.IsWhole)
    (arg5 : Memref sig .tc .vmem S1x256 .f32) (harg5 : arg5.IsWhole) (arg6 : Memref sig .tc .vmem S5000x256 .f32) (harg6 : arg6.IsWhole)
    (x0 x1 : Vec F S5000x128 .f32) (x2 x3 : Vec F S128x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__gc_kernel i arg1 harg1 arg2 harg2 arg3 harg3 arg4 harg4 arg5 harg5 arg6 harg6) K := by
  simp only [cc0__gc_kernel_eq_skeleton]; unfold cc0__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of this pipeline on core `c`: the arrays as the region finds them; after the body at point `t`
    each input's buffer at its block and the output's at `out0_5` of the input blocks; the invariant the scoped buffers no
    window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
/-
  The second graph-convolution layer's dense half as one pipelined region: grid point `t` of ten is handed rows
  5000·t … 5000·t+4999 of the node features and of the neighbour sums, the two weight matrices and the bias row
  whole, and writes rows 5000·t … of the layer's output. What the body leaves in the output window's staging buffer is ONE
  pure function of the five input blocks (the skeleton's payload); the input buffers are left as found. From that: the
  proof data of the pipeline at the contents `V` the region is entered with, and the body obligation at every point.
-/
import proofs.«425379_j2551210574350_1_alg».proof.Proof.KernelIdealLaunch
import proofs.«425379_j2551210574350_1_alg».proof.Proof.Gen.KernelIdeal.Skeleton
import proofs.«425379_j2551210574350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, instantiated by the run
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, its block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_x : Rect S5000x256 := Rect.unit (s := S5000x256) ![0, 0] S5000x256.size inb_S5000x256_S5000x256_0_0
abbrev r1_w : Rect S256x256 := Rect.unit (s := S256x256) ![0, 0] S256x256.size inb_S256x256_S256x256_0_0
abbrev r1_b : Rect S1x256 := Rect.unit (s := S1x256) ![0, 0] S1x256.size inb_S1x256_S1x256_0_0
abbrev r1_o : Rect S5000x256 := Rect.unit (s := S5000x256) ![0, 0] S5000x256.size inb_S5000x256_S5000x256_0_0

/-! ## What the body leaves in the output window's buffer -/

/-- The output window's staging buffer after the body, from the five input blocks: its one store, of the payload. -/
def out1_5 (x0 x1 : Vec F S5000x256 .f32) (x2 x3 : Vec F S256x256 .f32) (x4 : Vec F S1x256 .f32) : Vec F S5000x256 .f32 :=
  View.canon [⟨r1_o, k1_pay1 (View.ld x0 r1_x) (View.ld x1 r1_x) (View.ld x2 r1_w) (View.ld x3 r1_w) (View.ld x4 r1_b)⟩]

/-- The one store covers the buffer. -/
theorem cover1_5 (p0 : Vec F S5000x256 .f32) (y : S5000x256.Idx) :
    ∃ pc ∈ ([⟨r1_o, p0⟩] : List (View.Piece (Elt F) S5000x256 .f32)), y ∈ pc.1.set :=
  View.cover_of_tiled [⟨r1_o, p0⟩] S5000x256.size (by rfl) y

/-! ## The body's triple -/

set_option maxHeartbeats 1000000 in
/-- On whole staging memrefs, the inputs' at contents `x0 … x4` and the output's at anything, the body runs to the
    continuation holding the inputs' as they were and the output's at `out1_5` of them. -/
theorem sound_kernel1 (c : Dev nD) (E : Set ℕ) (i : grid1.Coords)
    (arg1 : Memref sig .tc .vmem S5000x256 .f32) (harg1 : arg1.IsWhole) (arg2 : Memref sig .tc .vmem S5000x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S5000x256 .f32) (harg6 : arg6.IsWhole)
    (x0 x1 : Vec F S5000x256 .f32) (x2 x3 : Vec F S256x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__gc_kernel i arg1 harg1 arg2 harg2 arg3 harg3 arg4 harg4 arg5 harg5 arg6 harg6) K := by
  simp only [cc1__gc_kernel_eq_skeleton]; unfold cc1__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them; after the body at point `t`
    each input's buffer at its block and the output's at `out1_5` of the input blocks; the invariant the scoped buffers no
    window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRegion2.lean ====
/-
  The third graph-convolution layer's dense half as one pipelined region: grid point `t` of ten is handed rows
  5000·t … 5000·t+4999 of the node features and of the neighbour sums, the two weight matrices and the bias row
  whole, and writes rows 5000·t … of the layer's output. What the body leaves in the output window's staging buffer is ONE
  pure function of the five input blocks (the skeleton's payload); the input buffers are left as found. From that: the
  proof data of the pipeline at the contents `V` the region is entered with, and the body obligation at every point.
-/
import proofs.«425379_j2551210574350_1_alg».proof.Proof.KernelIdealLaunch
import proofs.«425379_j2551210574350_1_alg».proof.Proof.Gen.KernelIdeal.Skeleton
import proofs.«425379_j2551210574350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, instantiated by the run
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, its block
    index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_x : Rect S5000x256 := Rect.unit (s := S5000x256) ![0, 0] S5000x256.size inb_S5000x256_S5000x256_0_0
abbrev r2_w : Rect S256x256 := Rect.unit (s := S256x256) ![0, 0] S256x256.size inb_S256x256_S256x256_0_0
abbrev r2_b : Rect S1x256 := Rect.unit (s := S1x256) ![0, 0] S1x256.size inb_S1x256_S1x256_0_0
abbrev r2_o : Rect S5000x256 := Rect.unit (s := S5000x256) ![0, 0] S5000x256.size inb_S5000x256_S5000x256_0_0

/-! ## What the body leaves in the output window's buffer -/

/-- The output window's staging buffer after the body, from the five input blocks: its one store, of the payload. -/
def out2_5 (x0 x1 : Vec F S5000x256 .f32) (x2 x3 : Vec F S256x256 .f32) (x4 : Vec F S1x256 .f32) : Vec F S5000x256 .f32 :=
  View.canon [⟨r2_o, k2_pay1 (View.ld x0 r2_x) (View.ld x1 r2_x) (View.ld x2 r2_w) (View.ld x3 r2_w) (View.ld x4 r2_b)⟩]

/-- The one store covers the buffer. -/
theorem cover2_5 (p0 : Vec F S5000x256 .f32) (y : S5000x256.Idx) :
    ∃ pc ∈ ([⟨r2_o, p0⟩] : List (View.Piece (Elt F) S5000x256 .f32)), y ∈ pc.1.set :=
  View.cover_of_tiled [⟨r2_o, p0⟩] S5000x256.size (by rfl) y

/-! ## The body's triple -/

set_option maxHeartbeats 1000000 in
/-- On whole staging memrefs, the inputs' at contents `x0 … x4` and the output's at anything, the body runs to the
    continuation holding the inputs' as they were and the output's at `out2_5` of them. -/
theorem sound_kernel2 (c : Dev nD) (E : Set ℕ) (i : grid2.Coords)
    (arg1 : Memref sig .tc .vmem S5000x256 .f32) (harg1 : arg1.IsWhole) (arg2 : Memref sig .tc .vmem S5000x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S5000x256 .f32) (harg6 : arg6.IsWhole)
    (x0 x1 : Vec F S5000x256 .f32) (x2 x3 : Vec F S256x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__gc_kernel i arg1 harg1 arg2 harg2 arg3 harg3 arg4 harg4 arg5 harg5 arg6 harg6) K := by
  simp only [cc2__gc_kernel_eq_skeleton]; unfold cc2__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of this pipeline on core `c`: the arrays as the region finds them; after the body at point `t`
    each input's buffer at its block and the output's at `out2_5` of the input blocks; the invariant the scoped buffers no
    window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the triple applies; the invariant and the core's
    `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRegion3Defs.lean ====
/-
  The pooling region's quantities, as functions of the contents `V` the region is entered with: each window's block at
  a grid point; the running per-graph sums the kernel keeps in its scratch — after point 0 the first 5000 rows' one-hot
  product added to the zero block, after point n+1 that point's product added to what point n left —; and what the last
  point writes to the output block from those sums, the graph factors, the head's weights and its bias.
-/
import proofs.«425379_j2551210574350_1_alg».proof.Proof.KernelIdealLaunch
import proofs.«425379_j2551210574350_1_alg».proof.Proof.Gen.KernelIdeal.Skeleton
import proofs.«425379_j2551210574350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The scratch after point `n`: the sums over the rows of points 0 … n. -/
def acc3 (c : Dev nD) : (n : ℕ) → n < cfg3.N → Vec F S64x256 .f32
  | 0, h => k3_pay2 (iblk3 V c 0 ⟨0, h⟩) (iblk3 V c 1 ⟨0, h⟩) (k3_pay1 (F := F))
  | n + 1, h => k3_pay2 (iblk3 V c 0 ⟨n + 1, h⟩) (iblk3 V c 1 ⟨n + 1, h⟩) (acc3 c n (Nat.lt_of_succ_lt h))

/-- What a point that stores the output block leaves in it (only the last point does). -/
def out3_5 (c : Dev nD) (t : Fin cfg3.N) : Vec F S64x10 .f32 :=
  k3_pay3 (acc3 V c t.val t.isLt) (iblk3 V c 2 t) (iblk3 V c 3 t) (iblk3 V c 4 t)

end Cert.KernelIdeal.Hand

end
-- ==== Proof.KIRegion3.lean ====
/-
  The pooling head as one pipelined region of ten points. The kernel keeps per-graph running sums in a scratch block it
  carries from point to point: point 0 zeroes it; every point adds onehot(graph ids of its 5000 rows)ᵀ · (its 5000 rows);
  point 9 then writes the output block, (sums scaled by the per-graph factors) · W + b. Three control cases — first point,
  points between, last point — each with its body triple at explicit contents; the output window is idle (handed back
  untouched, not written back) away from the last point. From these: the proof data of the pipeline at the contents `V` the
  region is entered with, whose invariant carries the scratch at the sums so far, the body obligation at every point, and the
  passage from and back to the region-entry invariant.
-/
import proofs.«425379_j2551210574350_1_alg».proof.Proof.KernelIdealLaunch
import proofs.«425379_j2551210574350_1_alg».proof.Proof.Gen.KernelIdeal.Skeleton
import proofs.«425379_j2551210574350_1_alg».proof.Proof.Gen.KernelIdeal.Points
import proofs.«425379_j2551210574350_1_alg».proof.Proof.KIRegion3Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, instantiated by the run
variable (V : (c : Dev nD) → (b : Ref sig .tc) → Buf (Elt F) ((c : Thread nD τ).loc b))

/-! ## The body's two branch conditions, in closed form over the grid -/

/-- The first conditional's test, from the grid coordinate: "this is point 0". -/
abbrev cond3_0 (i : grid3.Coords) : Prop :=
  (Scalar.cmpi .ne (Scalar.extui (Scalar.cmpi .eq (BitVec.ofNat 32 (i 0).val) 0#32)) 0#32) = 1#1
/-- The second conditional's test: "this is point 9". -/
abbrev cond3_1 (i : grid3.Coords) : Prop := k3_cond2 i = 1#1

theorem hcond3_0 : ∀ t : Fin cfg3.N, cond3_0 (grid3.coords t) ↔ t.val = 0 :=
  (by decide +kernel : ∀ t : Fin grid3.N, cond3_0 (grid3.coords t) ↔ t.val = 0)
theorem hcond3_1 : ∀ t : Fin cfg3.N, cond3_1 (grid3.coords t) ↔ t.val = 9 :=
  (by decide +kernel : ∀ t : Fin grid3.N, cond3_1 (grid3.coords t) ↔ t.val = 9)

/-! ## Where the windows are idle, where the output is written back -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
/-- Away from point 9 the output window is idle and not written back. -/
theorem idleAt3_5 : ∀ t : Fin cfg3.N, ¬cond3_1 (grid3.coords t) → cfg3.idle 5 (grid3.coords t) = true := by decide +kernel
theorem noFlush3_5 : ∀ t : Fin cfg3.N, ¬cond3_1 (grid3.coords t) → (cfg3.win 5).flush t = false := by decide +kernel
/-- At point 9 it is live. -/
theorem liveAt3_5 : ∀ t : Fin cfg3.N, cond3_1 (grid3.coords t) → cfg3.idle 5 (grid3.coords t) = false := by decide +kernel

/-! ## The body's accesses: each buffer whole -/

abbrev r3_x : Rect S5000x256 := Rect.unit (s := S5000x256) ![0, 0] S5000x256.size inb_S5000x256_S5000x256_0_0
abbrev r3_b : Rect S5000x1 := Rect.unit (s := S5000x1) ![0, 0] S5000x1.size inb_S5000x1_S5000x1_0_0
abbrev r3_c : Rect S64x1 := Rect.unit (s := S64x1) ![0, 0] S64x1.size inb_S64x1_S64x1_0_0
abbrev r3_w : Rect S256x10 := Rect.unit (s := S256x10) ![0, 0] S256x10.size inb_S256x10_S256x10_0_0
abbrev r3_l : Rect S1x10 := Rect.unit (s := S1x10) ![0, 0] S1x10.size inb_S1x10_S1x10_0_0
abbrev r3_o : Rect S64x10 := Rect.unit (s := S64x10) ![0, 0] S64x10.size inb_S64x10_S64x10_0_0
abbrev r3_s : Rect S64x256 := Rect.unit (s := S64x256) ![0, 0] S64x256.size inb_S64x256_S64x256_0_0

/-- The offsets of every access are zero. -/
theorem hz3 : (![0, 0] : Fin 2 → ℕ) = fun _ => 0 := by funext a; fin_cases a <;> rfl

set_option maxHeartbeats 1000000 in
/-- Point 0: the scratch, handed at anything, is zeroed, read back and left at the first block's sums over the zero block;
    the inputs and the idle output block are left as found. -/
theorem sound_kernel3_A (c : Dev nD) (E : Set ℕ) (i : grid3.Coords) (hc0 : cond3_0 i) (hc1 : ¬cond3_1 i)
    (arg1 : Memref sig .tc .vmem S5000x256 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S256x10 .f32) (harg4 : arg4.IsWhole)
    (arg5 : Memref sig .tc .vmem S1x10 .f32) (harg5 : arg5.IsWhole) (arg6 : Memref sig .tc .vmem S64x10 .f32) (harg6 : arg6.IsWhole)
    (arg7 : Memref sig .tc .vmem S64x256 .f32) (harg7 : arg7.IsWhole)
    (x0 : Vec F S5000x256 .f32) (x1 : Vec F S5000x1 .i32) (x2 : Vec F S64x1 .f32) (x3 : Vec F S256x10 .f32) (x4 : Vec F S1x10 .f32)
    (y : Vec F S64x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare y ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare y ∗ owns (c : Thread nD τ) arg7 fullShare (k3_pay2 x0 x1 (k3_pay1 (F := F)))) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_words
  rw [View.read_writes_eq_canon _ _ _ (fun y => ⟨_, List.mem_cons_self, View.mem_set_unit_zero hz3 inb_S64x256_S64x256_0_0 y⟩),
    View.canon_cons_unit_zero (S := S64x256) hz3]
  simp only [View.readAt_eq_ld, View.ld_unit_zero (S := S5000x256) hz3, View.ld_unit_zero (S := S5000x1) hz3,
    View.ld_unit_zero (S := S64x1) hz3, View.ld_unit_zero (S := S256x10) hz3, View.ld_unit_zero (S := S1x10) hz3,
    View.ld_unit_zero (S := S64x256) hz3, View.ld_unit_zero (S := S64x10) hz3,
    View.readCov_unit_zero (S := S64x256) _ hz3]

set_option maxHeartbeats 1000000 in
/-- Points 1 … 8: the scratch, handed at the sums so far, is left at this block's sums added to them; the inputs and the
    idle output block are left as found. -/
theorem sound_kernel3_B (c : Dev nD) (E : Set ℕ) (i : grid3.Coords) (hc0 : ¬cond3_0 i) (hc1 : ¬cond3_1 i)
    (arg1 : Memref sig .tc .vmem S5000x256 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S256x10 .f32) (harg4 : arg4.IsWhole)
    (arg5 : Memref sig .tc .vmem S1x10 .f32) (harg5 : arg5.IsWhole) (arg6 : Memref sig .tc .vmem S64x10 .f32) (harg6 : arg6.IsWhole)
    (arg7 : Memref sig .tc .vmem S64x256 .f32) (harg7 : arg7.IsWhole)
    (x0 : Vec F S5000x256 .f32) (x1 : Vec F S5000x1 .i32) (x2 : Vec F S64x1 .f32) (x3 : Vec F S256x10 .f32) (x4 : Vec F S1x10 .f32)
    (y : Vec F S64x10 .f32) (xs : Vec F S64x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare y ∗ owns (c : Thread nD τ) arg7 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare y ∗ owns (c : Thread nD τ) arg7 fullShare (k3_pay2 x0 x1 xs)) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_words
  rw [View.read_writes_eq_canon _ _ _ (fun y => ⟨_, List.mem_cons_self, View.mem_set_unit_zero hz3 inb_S64x256_S64x256_0_0 y⟩),
    View.canon_cons_unit_zero (S := S64x256) hz3]
  simp only [View.readAt_eq_ld, View.ld_unit_zero (S := S5000x256) hz3, View.ld_unit_zero (S := S5000x1) hz3,
    View.ld_unit_zero (S := S64x1) hz3, View.ld_unit_zero (S := S256x10) hz3, View.ld_unit_zero (S := S1x10) hz3,
    View.ld_unit_zero (S := S64x256) hz3, View.ld_unit_zero (S := S64x10) hz3,
    View.readCov_unit_zero (S := S64x256) _ hz3]

set_option maxHeartbeats 1000000 in
/-- Point 9: the scratch, handed at the sums so far, is left at the last block's sums added to them, and the output block,
    handed at anything, at the head applied to those final sums; the inputs are left as found. -/
theorem sound_kernel3_C (c : Dev nD) (E : Set ℕ) (i : grid3.Coords) (hc0 : ¬cond3_0 i) (hc1 : cond3_1 i)
    (arg1 : Memref sig .tc .vmem S5000x256 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S256x10 .f32) (harg4 : arg4.IsWhole)
    (arg5 : Memref sig .tc .vmem S1x10 .f32) (harg5 : arg5.IsWhole) (arg6 : Memref sig .tc .vmem S64x10 .f32) (harg6 : arg6.IsWhole)
    (arg7 : Memref sig .tc .vmem S64x256 .f32) (harg7 : arg7.IsWhole)
    (x0 : Vec F S5000x256 .f32) (x1 : Vec F S5000x1 .i32) (x2 : Vec F S64x1 .f32) (x3 : Vec F S256x10 .f32) (x4 : Vec F S1x10 .f32)
    (y : Vec F S64x10 .f32) (xs : Vec F S64x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare y ∗ owns (c : Thread nD τ) arg7 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k3_pay3 (k3_pay2 x0 x1 xs) x2 x3 x4) ∗ owns (c : Thread nD τ) arg7 fullShare (k3_pay2 x0 x1 xs)) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (fun y => ⟨_, List.mem_cons_self, View.mem_set_unit_zero hz3 inb_S64x10_S64x10_0_0 y⟩),
      View.canon_cons_unit_zero (S := S64x10) hz3]
    simp only [View.readAt_eq_ld, View.ld_unit_zero (S := S5000x256) hz3, View.ld_unit_zero (S := S5000x1) hz3,
    View.ld_unit_zero (S := S64x1) hz3, View.ld_unit_zero (S := S256x10) hz3, View.ld_unit_zero (S := S1x10) hz3,
    View.ld_unit_zero (S := S64x256) hz3, View.ld_unit_zero (S := S64x10) hz3,
    View.readCov_unit_zero (S := S64x256) _ hz3]
  iexists _; isplitr
  swap; · iexact H6
  ipureintro
  sl_unfold_words
  rw [View.read_writes_eq_canon _ _ _ (fun y => ⟨_, List.mem_cons_self, View.mem_set_unit_zero hz3 inb_S64x256_S64x256_0_0 y⟩),
    View.canon_cons_unit_zero (S := S64x256) hz3]
  simp only [View.readAt_eq_ld, View.ld_unit_zero (S := S5000x256) hz3, View.ld_unit_zero (S := S5000x1) hz3,
    View.ld_unit_zero (S := S64x1) hz3, View.ld_unit_zero (S := S256x10) hz3, View.ld_unit_zero (S := S1x10) hz3,
    View.ld_unit_zero (S := S64x256) hz3, View.ld_unit_zero (S := S64x10) hz3,
    View.readCov_unit_zero (S := S64x256) _ hz3]

/-! ## The scratch as a memref, and the class invariant opened at it -/

/-- The kernel's scratch, whole. -/
abbrev scM3 : Memref sig .tc .vmem S64x256 .f32 := Memref.whole cc3_scratch0

/-- The region-entry invariant with the kernel's scratch owned as a memref at some contents, the other scoped buffers
    unopened, the generator register at some state. -/
theorem PhiA3_eq (c : Dev nD) :
    (Pipeline.ΦA spec3 c : sProp 𝕄)
      = iprop(iprop((∃ d, owns (c : Thread nD τ) scM3 fullShare d) ∗ Pipeline.scopedRestBut spec3 c [cc3_scratch0]) ∗ (∃ r, prngReg c r)) := by
  unfold Pipeline.ΦA; rw [scopedRest3_split]; simp only [scM3, owns_whole]; try rfl

/-! ## The running sums, point by point -/

/-- At point 0 the sums are the first block's over the zero block. -/
theorem acc3_zero (c : Dev nD) (t : Fin cfg3.N) (hz : t.val = 0) :
    acc3 V c t.val t.isLt = k3_pay2 (iblk3 V c 0 t) (iblk3 V c 1 t) (k3_pay1 (F := F)) := by
  obtain ⟨n, hn⟩ := t
  cases n with
  | zero => rfl
  | succ n => exact absurd hz (Nat.succ_ne_zero n)

/-- At a later point they are that point's block's added to what the point before left. -/
theorem acc3_pos (c : Dev nD) (t : Fin cfg3.N) (hz : t.val ≠ 0) :
    acc3 V c t.val t.isLt = k3_pay2 (iblk3 V c 0 t) (iblk3 V c 1 t) (acc3 V c (t.val - 1) (Nat.lt_of_le_of_lt (Nat.sub_le _ _) t.isLt)) := by
  obtain ⟨n, hn⟩ := t
  cases n with
  | zero => exact absurd rfl hz
  | succ n => rfl

/-! ## The region invariant -/

/-- Before point `n`: at the region's entry the class's invariant (the scratch at anything); afterwards the scratch at the
    sums the point before left, the other scoped buffers unopened, the generator register at some state. -/
def PhiS3 (c : Dev nD) : (n : ℕ) → n ≤ cfg3.N → sProp 𝕄
  | 0, _ => Pipeline.ΦA spec3 c
  | n + 1, hn => iprop(owns (c : Thread nD τ) scM3 fullShare (acc3 V c n hn) ∗ Pipeline.scopedRestBut spec3 c [cc3_scratch0] ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(owns (c : Thread nD τ) scM3 fullShare (acc3 V c n hn) ∗ Pipeline.scopedRestBut spec3 c [cc3_scratch0] ∗ (∃ r, prngReg c r)) := rfl

theorem PhiS3_pos (c : Dev nD) (n : ℕ) (h : n ≤ cfg3.N) (hz : n ≠ 0) :
    PhiS3 V c n h = iprop(owns (c : Thread nD τ) scM3 fullShare (acc3 V c (n - 1) (by omega)) ∗ Pipeline.scopedRestBut spec3 c [cc3_scratch0] ∗ (∃ r, prngReg c r)) := by
  cases n with
  | zero => exact absurd rfl hz
  | succ n => rfl

/-! ## The pipeline's proof data -/

/-- The proof data of the pooling pipeline on core `c`: the arrays as the region finds them; after the body at point `t`
    each input's buffer at its block and the output's at the head of the sums so far (kept only where the pipeline writes
    it back: the last point); the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 V c t := by dsimp only [dat3]

/-- Input window 0's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
/-- Input window 1's current staging buffer holds its block at every point, fetched there or not. -/
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
/-- Input window 2's current staging buffer holds its block at every point, fetched there or not. -/
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
/-- Input window 3's current staging buffer holds its block at every point, fetched there or not. -/
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
/-- Input window 4's current staging buffer holds its block at every point, fetched there or not. -/
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns: each window's buffer as the pipeline wants it left (an idle window's as found). -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4000000 in
/-- The body at any point. The inputs' memrefs hold their blocks; the closed forms say whether the point is the first, the
    last or one between, and the matching triple applies: the invariant hands the scratch over at what the point before left
    (at anything at the first point) and takes it back at this point's sums; the output block is handed back untouched where
    the window is idle and at the head of the final sums at the last point; the other scoped buffers, the generator register
    and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [show (dat3 V c).leavesExact 4 t = owns (c : Thread nD τ) (st3_4 t) fullShare ((dat3 V c).after 4 t) from by
    unfold Dat.leavesExact; rw [liveAt3_4 t], after3_4]
  have hN : t.val < 10 := lt_of_lt_of_eq t.isLt (show cfg3.N = 10 from N_3)
  by_cases h0 : t.val = 0
  · have hc0 : cond3_0 (grid3.coords t) := (hcond3_0 t).mpr h0
    have hc1 : ¬cond3_1 (grid3.coords t) := fun h => by have := (hcond3_1 t).mp h; omega
    rw [Dat.leavesExact_idle (dat3 V c) 5 t (idleAt3_5 t hc1) (noFlush3_5 t hc1)]
    rw [acc3_zero V c t h0]
    rw [PhiS3_castSucc V c t, PhiS3_zero V c _ _ h0, PhiA3_eq]
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (sound_kernel3_A c Set.univ (grid3.coords t) hc0 hc1 _ _ _ _ _ _ _ _ _ _ _ _ _ _
      (iblk3 V c 0 t) (iblk3 V c 1 t) (iblk3 V c 2 t) (iblk3 V c 3 t) (iblk3 V c 4 t) ((dat3 V c).before 5 t d5) _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    iexists d5; iexact H5
  · have hc0 : ¬cond3_0 (grid3.coords t) := fun h => h0 ((hcond3_0 t).mp h)
    by_cases h9 : t.val = 9
    · have hc1 : cond3_1 (grid3.coords t) := (hcond3_1 t).mpr h9
      rw [show (dat3 V c).leavesExact 5 t = owns (c : Thread nD τ) (st3_5 t) fullShare ((dat3 V c).after 5 t) from by
        unfold Dat.leavesExact; rw [liveAt3_5 t hc1], after3_5]
      unfold out3_5
      rw [acc3_pos V c t h0]
      rw [PhiS3_castSucc V c t, PhiS3_pos V c _ _ h0]
      iintro ⟨⟨HS, Hr, Hg⟩, Ho, ⟨%d0, H0⟩, ⟨%d1, H1⟩, ⟨%d2, H2⟩, ⟨%d3, H3⟩, ⟨%d4, H4⟩, ⟨%d5, H5⟩⟩
      iapply (sound_kernel3_C c Set.univ (grid3.coords t) hc0 hc1 _ _ _ _ _ _ _ _ _ _ _ _ _ _
        (iblk3 V c 0 t) (iblk3 V c 1 t) (iblk3 V c 2 t) (iblk3 V c 3 t) (iblk3 V c 4 t) ((dat3 V c).before 5 t d5)
        (acc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond3_1 (grid3.coords t) := fun h => h9 ((hcond3_1 t).mp h)
      rw [Dat.leavesExact_idle (dat3 V c) 5 t (idleAt3_5 t hc1) (noFlush3_5 t hc1)]
      rw [acc3_pos V c t h0]
      rw [PhiS3_castSucc V c t, PhiS3_pos V c _ _ h0]
      iintro ⟨⟨HS, Hr, Hg⟩, Ho, ⟨%d0, H0⟩, ⟨%d1, H1⟩, ⟨%d2, H2⟩, ⟨%d3, H3⟩, ⟨%d4, H4⟩, ⟨%d5, H5⟩⟩
      iapply (sound_kernel3_B c Set.univ (grid3.coords t) hc0 hc1 _ _ _ _ _ _ _ _ _ _ _ _ _ _
        (iblk3 V c 0 t) (iblk3 V c 1 t) (iblk3 V c 2 t) (iblk3 V c 3 t) (iblk3 V c 4 t) ((dat3 V c).before 5 t d5)
        (acc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Entering and leaving the region -/

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class's back: the scratch's named contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 10 := N_3; omega), PhiA3_eq]
  iintro ⟨HS, Hr, Hg⟩
  isplitl [HS Hr]
  · isplitl [HS]
    · iexists _; iexact HS
    iexact Hr
  iexact Hg

end Cert.KernelIdeal.Hand

end
-- ==== Proof.KISegs.lean ====
/-
  The whole program as eight items in order — four stretches of host operations and the four pipelined regions — and its
  run: from any memory, every weakly fair execution ends, the arguments hold what they held at launch, and the result
  array holds what the last region's write-back leaves. Between two items a core holds every unscoped buffer at a named
  valuation: the launch memory, then each host stretch applied, then each region's output array replaced by what that
  region leaves in it (the fold of its points' write-backs, `Dat.arrAt`).
-/
import proofs.«425379_j2551210574350_1_alg».proof.Proof.KernelIdealRegions
import proofs.«425379_j2551210574350_1_alg».proof.Proof.KIRegion0
import proofs.«425379_j2551210574350_1_alg».proof.Proof.KIRegion1
import proofs.«425379_j2551210574350_1_alg».proof.Proof.KIRegion2
import proofs.«425379_j2551210574350_1_alg».proof.Proof.KIRegion3

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The valuations between the items -/

/-- A valuation read at the TensorCore's references: what a region's proof data take. -/
abbrev rd (W : Dev nD → Valuation τ sig (Elt F)) : (c : Dev nD) → (b : Ref sig .tc) → Buf (Elt F) ((c : Thread nD τ).loc b) :=
  fun c b => W c b

/-- What region 0 leaves in the buffers: its arrays at the fold of its write-backs, every other buffer as entered. -/
def o2 : (r : Ref sig .tc) → (c : Dev nD) → Buf (Elt F) ((c : Thread nD τ).loc r) := fun r c =>
  Pipeline.withArrays spec0 c (GenP.V1 m c) (fun w => (dat0 (rd (GenP.V1 m)) c).arrAt w cfg0.N) (Proc.devRef .tc r)
abbrev O2 : GenP.Outs (F := F) := fun _ => o2 m
/-- What region 1 leaves, entered after the second host stretch run from region 0's exit. -/
def o4 : (r : Ref sig .tc) → (c : Dev nD) → Buf (Elt F) ((c : Thread nD τ).loc r) := fun r c =>
  Pipeline.withArrays spec1 c (GenP.V3 m (O2 m) c) (fun w => (dat1 (rd (GenP.V3 m (O2 m))) c).arrAt w cfg1.N) (Proc.devRef .tc r)
abbrev O4 : GenP.Outs (F := F) := fun n => if n = 2 then o2 m else o4 m
/-- What region 2 leaves. -/
def o6 : (r : Ref sig .tc) → (c : Dev nD) → Buf (Elt F) ((c : Thread nD τ).loc r) := fun r c =>
  Pipeline.withArrays spec2 c (GenP.V5 m (O4 m) c) (fun w => (dat2 (rd (GenP.V5 m (O4 m))) c).arrAt w cfg2.N) (Proc.devRef .tc r)
abbrev O6 : GenP.Outs (F := F) := fun n => if n = 2 then o2 m else if n = 4 then o4 m else o6 m
/-- What region 3 leaves. -/
def o8 : (r : Ref sig .tc) → (c : Dev nD) → Buf (Elt F) ((c : Thread nD τ).loc r) := fun r c =>
  Pipeline.withArrays spec3 c (GenP.V7 m (O6 m) c) (fun w => (dat3 (rd (GenP.V7 m (O6 m))) c).arrAt w cfg3.N) (Proc.devRef .tc r)
/-- The regions' results, by the item after which they are read. -/
abbrev outs : GenP.Outs (F := F) := fun n => if n = 2 then o2 m else if n = 4 then o4 m else if n = 6 then o6 m else o8 m

theorem V3_outs : GenP.V3 m (outs m) = GenP.V3 m (O2 m) := rfl
theorem V5_outs : GenP.V5 m (outs m) = GenP.V5 m (O4 m) := rfl
theorem V7_outs : GenP.V7 m (outs m) = GenP.V7 m (O6 m) := rfl

/-! ## The proof data family and what rides beside the buffers -/

/-- Every pipeline's proof data, each at its region's entry contents. -/
def pdats : (p : Fin 4) → (c : Dev nD) → Dat τ (Elt F) Unit ℕ (UR sig nD τ) ℕ (cfgs p) c
  | ⟨0, _⟩ => fun c => dat0 (rd (GenP.V1 m)) c
  | ⟨1, _⟩ => fun c => dat1 (rd (GenP.V3 m (outs m))) c
  | ⟨2, _⟩ => fun c => dat2 (rd (GenP.V5 m (outs m))) c
  | ⟨3, _⟩ => fun c => dat3 (rd (GenP.V7 m (outs m))) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the core's generator register at some state and its dues, none. -/
abbrev Rst (c : Dev nD) : sProp 𝕄 := iprop((∃ r, prngReg c r) ∗ ∃ W, owes (c : Thread nD τ) (0 : CellTallies nD τ sig Unit) W)

theorem hinP0 (c : Dev nD) : Pipeline.ΦA spec0 c ⊢ (pdats m 0 c).Φ 0 := by
  rw [show (pdats m 0 c).Φ 0 = Pipeline.ΦA spec0 c from rfl]
theorem houtP0 (c : Dev nD) : (pdats m 0 c).Φ (Fin.last _) ⊢ Pipeline.ΦA spec0 c := by
  rw [show (pdats m 0 c).Φ (Fin.last _) = Pipeline.ΦA spec0 c from rfl]

theorem hinP1 (c : Dev nD) : Pipeline.ΦA spec1 c ⊢ (pdats m 1 c).Φ 0 := by
  rw [show (pdats m 1 c).Φ 0 = Pipeline.ΦA spec1 c from rfl]
theorem houtP1 (c : Dev nD) : (pdats m 1 c).Φ (Fin.last _) ⊢ Pipeline.ΦA spec1 c := by
  rw [show (pdats m 1 c).Φ (Fin.last _) = Pipeline.ΦA spec1 c from rfl]

theorem hinP2 (c : Dev nD) : Pipeline.ΦA spec2 c ⊢ (pdats m 2 c).Φ 0 := by
  rw [show (pdats m 2 c).Φ 0 = Pipeline.ΦA spec2 c from rfl]
theorem houtP2 (c : Dev nD) : (pdats m 2 c).Φ (Fin.last _) ⊢ Pipeline.ΦA spec2 c := by
  rw [show (pdats m 2 c).Φ (Fin.last _) = Pipeline.ΦA spec2 c from rfl]

theorem hinP3 (c : Dev nD) : Pipeline.ΦA spec3 c ⊢ (pdats m 3 c).Φ 0 := hin3 (rd (GenP.V7 m (outs m))) c
theorem houtP3 (c : Dev nD) : (pdats m 3 c).Φ (Fin.last _) ⊢ Pipeline.ΦA spec3 c := hout3 (rd (GenP.V7 m (outs m))) c

/-! ## The regions as segments -/

/-- Region 0's arrays after it, one by one, are what the next valuation holds: an input's array as entered, the
    output's at what the write-backs leave. -/
theorem hF0 (c : Dev nD) (w : Fin cfg0.W) :
    (pdats m 0 c).arrAt w cfg0.N = rd (GenP.V2 m (outs m)) c (Pipeline.arrRef spec0 w) := by
  have hin : ∀ w : Fin cfg0.W, (cfg0.win w).isOut = false → Pipeline.arrRef spec0 w ∉ ([main_v15] : List (Ref sig .tc)) →
      (pdats m 0 c).arrAt w cfg0.N = rd (GenP.V2 m (outs m)) c (Pipeline.arrRef spec0 w) := fun w hw hn =>
    ((pdats m 0 c).arrAt_in w hw _).trans ((A_eq0 (rd (GenP.V1 m)) c w).trans (GenP.V2_of m (outs m) c _ hn).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ =>
    refine (Pipeline.withArrays_arr spec0 launch0.win.arr_inj c (GenP.V1 m c)
      (fun w => (dat0 (rd (GenP.V1 m)) c).arrAt w cfg0.N) 5).symm.trans ?_
    exact (Function.update_self (f := GenP.V1 m c) (Proc.devRef (τ := τ) .tc main_v15) _).symm

/-- Every buffer that is no array of region 0 is held as entered. -/
theorem hrest0 (c : Dev nD) : ∀ b, b ∉ Finset.univ.image (Pipeline.arrRef spec0) →
    rd (GenP.V2 m (outs m)) c b = rd (GenP.V1 m) c b := fun b hb =>
  GenP.V2_of m (outs m) c b (by
    simp only [List.mem_singleton]
    rintro rfl
    exact hb (Finset.mem_image.mpr ⟨5, Finset.mem_univ _, rfl⟩))

set_option backward.isDefEq.respectTransparency.types false in
/-- Region 0 over the thread state: entered holding every unscoped buffer at the valuation before it, left holding them
    at the valuation after it; its arrays split out at entry and put back at exit; the generator register lent to the region's
    invariant and returned; nothing owed; the kernel has no semaphore of its own. -/
def reg0 : Pipeline.RegionSeg (pcfgs (F := F)) GenP.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (GenP.V1 m)) c).loose
  hwaits := Pipeline.hwaits_of_owed_zero _ _ _ _ L lv 0 fun _ _ => rfl
  pre c := iprop(StableHlo.held (c : Thread nD τ) (Pipeline.ucRefs τ sig) (GenP.V1 m c) ∗ Rst c)
  post c := iprop(StableHlo.held (c : Thread nD τ) (Pipeline.ucRefs τ sig) (GenP.V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (rd (GenP.V1 m) c)
  hentry c := by
    rw [Pipeline.ownSems0_none]
    have hsplit := Pipeline.arrays_of_unscopedBufs (p := 0) (pcfgs (F := F)) GenP.adm (pdats m) launch0.win launch0.arr_whole c
      ((pdats m 0 c).share_full fun _ => rfl) (rd (GenP.V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec0 c from by
    unfold Pipeline.ΦA
    iintro ⟨Hp, -, Hr⟩
    isplitl [Hr]; · iexact Hr
    iexact Hp).trans (hinP0 m c)
  hout c := (houtP0 m c).trans (by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 0) (pcfgs (F := F)) GenP.adm (Ix := Unit) (Name := ℕ) (U := UR sig nD τ) (Lvl := ℕ)
      launch0.win launch0.arr_whole c (pdats m) ((pdats m 0 c).share_full fun _ => rfl)
      (rd (GenP.V1 m) c) (rd (GenP.V2 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1's arrays after it, one by one, are what the next valuation holds: an input's array as entered, the
    output's at what the write-backs leave. -/
theorem hF1 (c : Dev nD) (w : Fin cfg1.W) :
    (pdats m 1 c).arrAt w cfg1.N = rd (GenP.V4 m (outs m)) c (Pipeline.arrRef spec1 w) := by
  have hin : ∀ w : Fin cfg1.W, (cfg1.win w).isOut = false → Pipeline.arrRef spec1 w ∉ ([main_v27] : List (Ref sig .tc)) →
      (pdats m 1 c).arrAt w cfg1.N = rd (GenP.V4 m (outs m)) c (Pipeline.arrRef spec1 w) := fun w hw hn =>
    ((pdats m 1 c).arrAt_in w hw _).trans ((A_eq1 (rd (GenP.V3 m (outs m))) c w).trans (GenP.V4_of m (outs m) c _ hn).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ =>
    refine (Pipeline.withArrays_arr spec1 launch1.win.arr_inj c (GenP.V3 m (outs m) c)
      (fun w => (dat1 (rd (GenP.V3 m (outs m))) c).arrAt w cfg1.N) 5).symm.trans ?_
    exact (Function.update_self (f := GenP.V3 m (outs m) c) (Proc.devRef (τ := τ) .tc main_v27) _).symm

/-- Every buffer that is no array of region 1 is held as entered. -/
theorem hrest1 (c : Dev nD) : ∀ b, b ∉ Finset.univ.image (Pipeline.arrRef spec1) →
    rd (GenP.V4 m (outs m)) c b = rd (GenP.V3 m (outs m)) c b := fun b hb =>
  GenP.V4_of m (outs m) c b (by
    simp only [List.mem_singleton]
    rintro rfl
    exact hb (Finset.mem_image.mpr ⟨5, Finset.mem_univ _, rfl⟩))

set_option backward.isDefEq.respectTransparency.types false in
/-- Region 1 over the thread state: entered holding every unscoped buffer at the valuation before it, left holding them
    at the valuation after it; its arrays split out at entry and put back at exit; the generator register lent to the region's
    invariant and returned; nothing owed; the kernel has no semaphore of its own. -/
def reg1 : Pipeline.RegionSeg (pcfgs (F := F)) GenP.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (GenP.V3 m (outs m))) c).loose
  hwaits := Pipeline.hwaits_of_owed_zero _ _ _ _ L lv 1 fun _ _ => rfl
  pre c := iprop(StableHlo.held (c : Thread nD τ) (Pipeline.ucRefs τ sig) (GenP.V3 m (outs m) c) ∗ Rst c)
  post c := iprop(StableHlo.held (c : Thread nD τ) (Pipeline.ucRefs τ sig) (GenP.V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (rd (GenP.V3 m (outs m)) c)
  hentry c := by
    rw [Pipeline.ownSems0_none]
    have hsplit := Pipeline.arrays_of_unscopedBufs (p := 1) (pcfgs (F := F)) GenP.adm (pdats m) launch1.win launch1.arr_whole c
      ((pdats m 1 c).share_full fun _ => rfl) (rd (GenP.V3 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec1 c from by
    unfold Pipeline.ΦA
    iintro ⟨Hp, -, Hr⟩
    isplitl [Hr]; · iexact Hr
    iexact Hp).trans (hinP1 m c)
  hout c := (houtP1 m c).trans (by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 1) (pcfgs (F := F)) GenP.adm (Ix := Unit) (Name := ℕ) (U := UR sig nD τ) (Lvl := ℕ)
      launch1.win launch1.arr_whole c (pdats m) ((pdats m 1 c).share_full fun _ => rfl)
      (rd (GenP.V3 m (outs m)) c) (rd (GenP.V4 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2's arrays after it, one by one, are what the next valuation holds: an input's array as entered, the
    output's at what the write-backs leave. -/
theorem hF2 (c : Dev nD) (w : Fin cfg2.W) :
    (pdats m 2 c).arrAt w cfg2.N = rd (GenP.V6 m (outs m)) c (Pipeline.arrRef spec2 w) := by
  have hin : ∀ w : Fin cfg2.W, (cfg2.win w).isOut = false → Pipeline.arrRef spec2 w ∉ ([main_v39] : List (Ref sig .tc)) →
      (pdats m 2 c).arrAt w cfg2.N = rd (GenP.V6 m (outs m)) c (Pipeline.arrRef spec2 w) := fun w hw hn =>
    ((pdats m 2 c).arrAt_in w hw _).trans ((A_eq2 (rd (GenP.V5 m (outs m))) c w).trans (GenP.V6_of m (outs m) c _ hn).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ =>
    refine (Pipeline.withArrays_arr spec2 launch2.win.arr_inj c (GenP.V5 m (outs m) c)
      (fun w => (dat2 (rd (GenP.V5 m (outs m))) c).arrAt w cfg2.N) 5).symm.trans ?_
    exact (Function.update_self (f := GenP.V5 m (outs m) c) (Proc.devRef (τ := τ) .tc main_v39) _).symm

/-- Every buffer that is no array of region 2 is held as entered. -/
theorem hrest2 (c : Dev nD) : ∀ b, b ∉ Finset.univ.image (Pipeline.arrRef spec2) →
    rd (GenP.V6 m (outs m)) c b = rd (GenP.V5 m (outs m)) c b := fun b hb =>
  GenP.V6_of m (outs m) c b (by
    simp only [List.mem_singleton]
    rintro rfl
    exact hb (Finset.mem_image.mpr ⟨5, Finset.mem_univ _, rfl⟩))

set_option backward.isDefEq.respectTransparency.types false in
/-- Region 2 over the thread state: entered holding every unscoped buffer at the valuation before it, left holding them
    at the valuation after it; its arrays split out at entry and put back at exit; the generator register lent to the region's
    invariant and returned; nothing owed; the kernel has no semaphore of its own. -/
def reg2 : Pipeline.RegionSeg (pcfgs (F := F)) GenP.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (GenP.V5 m (outs m))) c).loose
  hwaits := Pipeline.hwaits_of_owed_zero _ _ _ _ L lv 2 fun _ _ => rfl
  pre c := iprop(StableHlo.held (c : Thread nD τ) (Pipeline.ucRefs τ sig) (GenP.V5 m (outs m) c) ∗ Rst c)
  post c := iprop(StableHlo.held (c : Thread nD τ) (Pipeline.ucRefs τ sig) (GenP.V6 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (rd (GenP.V5 m (outs m)) c)
  hentry c := by
    rw [Pipeline.ownSems0_none]
    have hsplit := Pipeline.arrays_of_unscopedBufs (p := 2) (pcfgs (F := F)) GenP.adm (pdats m) launch2.win launch2.arr_whole c
      ((pdats m 2 c).share_full fun _ => rfl) (rd (GenP.V5 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec2 c from by
    unfold Pipeline.ΦA
    iintro ⟨Hp, -, Hr⟩
    isplitl [Hr]; · iexact Hr
    iexact Hp).trans (hinP2 m c)
  hout c := (houtP2 m c).trans (by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 2) (pcfgs (F := F)) GenP.adm (Ix := Unit) (Name := ℕ) (U := UR sig nD τ) (Lvl := ℕ)
      launch2.win launch2.arr_whole c (pdats m) ((pdats m 2 c).share_full fun _ => rfl)
      (rd (GenP.V5 m (outs m)) c) (rd (GenP.V6 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 3's arrays after it, one by one, are what the next valuation holds: an input's array as entered, the
    output's at what the write-backs leave. -/
theorem hF3 (c : Dev nD) (w : Fin cfg3.W) :
    (pdats m 3 c).arrAt w cfg3.N = rd (GenP.V8 m (outs m)) c (Pipeline.arrRef spec3 w) := by
  have hin : ∀ w : Fin cfg3.W, (cfg3.win w).isOut = false → Pipeline.arrRef spec3 w ∉ ([main_v51] : List (Ref sig .tc)) →
      (pdats m 3 c).arrAt w cfg3.N = rd (GenP.V8 m (outs m)) c (Pipeline.arrRef spec3 w) := fun w hw hn =>
    ((pdats m 3 c).arrAt_in w hw _).trans ((A_eq3 (rd (GenP.V7 m (outs m))) c w).trans (GenP.V8_of m (outs m) c _ hn).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ =>
    refine (Pipeline.withArrays_arr spec3 launch3.win.arr_inj c (GenP.V7 m (outs m) c)
      (fun w => (dat3 (rd (GenP.V7 m (outs m))) c).arrAt w cfg3.N) 5).symm.trans ?_
    exact (Function.update_self (f := GenP.V7 m (outs m) c) (Proc.devRef (τ := τ) .tc main_v51) _).symm

/-- Every buffer that is no array of region 3 is held as entered. -/
theorem hrest3 (c : Dev nD) : ∀ b, b ∉ Finset.univ.image (Pipeline.arrRef spec3) →
    rd (GenP.V8 m (outs m)) c b = rd (GenP.V7 m (outs m)) c b := fun b hb =>
  GenP.V8_of m (outs m) c b (by
    simp only [List.mem_singleton]
    rintro rfl
    exact hb (Finset.mem_image.mpr ⟨5, Finset.mem_univ _, rfl⟩))

set_option backward.isDefEq.respectTransparency.types false in
/-- Region 3 over the thread state: entered holding every unscoped buffer at the valuation before it, left holding them
    at the valuation after it; its arrays split out at entry and put back at exit; the generator register lent to the region's
    invariant and returned; nothing owed; the kernel has no semaphore of its own. -/
def reg3 : Pipeline.RegionSeg (pcfgs (F := F)) GenP.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (rd (GenP.V7 m (outs m))) c).loose
  hwaits := Pipeline.hwaits_of_owed_zero _ _ _ _ L lv 3 fun _ _ => rfl
  pre c := iprop(StableHlo.held (c : Thread nD τ) (Pipeline.ucRefs τ sig) (GenP.V7 m (outs m) c) ∗ Rst c)
  post c := iprop(StableHlo.held (c : Thread nD τ) (Pipeline.ucRefs τ sig) (GenP.V8 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (rd (GenP.V7 m (outs m)) c)
  hentry c := by
    rw [Pipeline.ownSems0_none]
    have hsplit := Pipeline.arrays_of_unscopedBufs (p := 3) (pcfgs (F := F)) GenP.adm (pdats m) launch3.win launch3.arr_whole c
      ((pdats m 3 c).share_full fun _ => rfl) (rd (GenP.V7 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec3 c from by
    unfold Pipeline.ΦA
    iintro ⟨Hp, -, Hr⟩
    isplitl [Hr]; · iexact Hr
    iexact Hp).trans (hinP3 m c)
  hout c := (houtP3 m c).trans (by
    rw [Pipeline.ownSems0_none]
    unfold Pipeline.ΦA
    iintro ⟨Hr, Hp⟩
    isplitl [Hp]; · iexact Hp
    isplitr; · iempintro
    iexact Hr)
  hexit c := by
    have hjoin := Pipeline.unscopedBufs_of_arrays (p := 3) (pcfgs (F := F)) GenP.adm (Ix := Unit) (Name := ℕ) (U := UR sig nD τ) (Lvl := ℕ)
      launch3.win launch3.arr_whole c (pdats m) ((pdats m 3 c).share_full fun _ => rfl)
      (rd (GenP.V7 m (outs m)) c) (rd (GenP.V8 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The result array at the end: what region 3's write-backs leave in it. -/
def result (c : Dev nD) : Buf (Elt F) ((c : Thread nD τ).loc main_v51) := (dat3 (rd (GenP.V7 m (outs m))) c).arrAt 5 cfg3.N

theorem V8_main_v51 (c : Dev nD) : GenP.V8 m (outs m) c main_v51 = result m c :=
  (Function.update_self (f := GenP.V7 m (outs m) c) (Proc.devRef (τ := τ) .tc main_v51) _).trans
    (Pipeline.withArrays_arr spec3 launch3.win.arr_inj c (GenP.V7 m (O6 m) c)
      (fun w => (dat3 (rd (GenP.V7 m (O6 m))) c).arrAt w cfg3.N) 5)

set_option backward.isDefEq.respectTransparency.types false in
/-- From any memory with zero counters every weakly fair execution of the program terminates, and every final memory holds
    the result array at `result` and each argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v51) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine Pipeline.θ_run_regions_kit_dev (pcfgs (F := F)) GenP.adm (pdats m) () GenP.cellOf_inj emb₁ defs₀ 𝒱₀ L lv m ρ main
    (GenP.segs m (outs m) 𝒱₀ L lv (fun _ => Rst) () (pdats m) (reg0 m) (reg1 m) (reg2 m) (reg3 m))
    (fun c Q => by
      rewrite [GenP.main_chain c, Seg.run_eq_chain,
        show (GenP.segs m (outs m) 𝒱₀ L lv (fun _ => Rst) () (pdats m) (reg0 m) (reg1 m) (reg2 m) (reg3 m) c).map Seg.prog = [
          StableHlo.seq GenP.hostOps0,
          Prog.lift (.customCall (Pipeline.entry 0) ()),
          StableHlo.seq GenP.hostOps1,
          Prog.lift (.customCall (Pipeline.entry 1) ()),
          StableHlo.seq GenP.hostOps2,
          Prog.lift (.customCall (Pipeline.entry 2) ()),
          StableHlo.seq GenP.hostOps3,
          Prog.lift (.customCall (Pipeline.entry 3) ()) ] from rfl]
      exact .rfl)
    (fun c => by simp only [GenP.segs, Seg.pipes_host, Seg.pipes_region, Seg.pipes_nil]; decide) (fun _ => 0) (fun _ _ => rfl)
    (fun _ => iprop(emp)) (initOf (Pipeline.cells cfgs GenP.cellOf_inj) (Pipeline.launchToks cfgs GenP.cellOf_inj))
    (by
      iintro Hu; imodintro
      isplitl [Hu]
      · iapply (show (ownU (initOf (Pipeline.cells cfgs GenP.cellOf_inj) (Pipeline.launchToks cfgs GenP.cellOf_inj)) : sProp 𝕄)
            ⊢ BI.own (emb₁ (initOf (Pipeline.cells cfgs GenP.cellOf_inj) (Pipeline.launchToks cfgs GenP.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (GenP.V0 m c) ∗ Rst c))
    (Tₙ := fun c => StableHlo.held (c : Thread nD τ) (Pipeline.ucRefs τ sig) (GenP.V8 m (outs m) c))
    (hch := fun c => ⟨.rfl, .rfl, .rfl, .rfl, .rfl, .rfl, .rfl, .rfl, sep_mono .rfl (show (Rst c : sProp 𝕄) ⊢ iprop(∃ W, owes (c : Thread nD τ) (0 : CellTallies nD τ sig Unit) W) from by
      iintro ⟨-, HO⟩
      iexact HO)⟩)
    (hinit := ?_) (QY := fun c s => s.mem ((c.tc : Thread nD τ).loc main_v51) = result m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13))
    (hfin := fun c s' => ?_) (hQ := fun _ h => h)
  · -- the launch: the unscoped buffers are held at the launch memory; the register and the dues ride along
    refine Pipeline.initEach L lv fun c => ?_
    rw [show unscopedBufs c (fun b => m ((c : Thread nD τ).loc b)) = StableHlo.held (c : Thread nD τ) (Pipeline.ucRefs τ sig) (GenP.V0 m c)
      from Pipeline.unscopedBufs_held c (GenP.V0 m c)]
    iintro ⟨⟨Hh, -, HO, -, Hp, -⟩, -⟩
    imodintro
    isplitl [Hh]; · iexact Hh
    isplitl [Hp]; · iexists _; iexact Hp
    iexists ∅; iexact HO
  · -- the end: the result and each argument read off the last valuation
    unfold StableHlo.held
    iintro ⟨Hh, HSI⟩
    ihave Hr := (pointsTo_read_all (Pipeline.ucRefs τ sig) (fun b => ((c : Thread nD τ).1, b)) (GenP.V8 m (outs m) c) s') $$ [Hh HSI]
    · isplitl [Hh] <;> iassumption
    icases Hr with ⟨%h, HSI⟩
    imodintro
    isplitr
    · ipureintro
      exact ⟨(h (Proc.devRef .tc main_v51) (Finset.mem_filter.mpr ⟨StableHlo.devRef_mem_tcRefs main_v51, by decide⟩)).trans (V8_main_v51 m c),
        (h (Proc.devRef .tc main_arg0) (Finset.mem_filter.mpr ⟨StableHlo.devRef_mem_tcRefs main_arg0, by decide⟩)).trans (GenP.V8_main_arg0 m (outs m) c),
        (h (Proc.devRef .tc main_arg1) (Finset.mem_filter.mpr ⟨StableHlo.devRef_mem_tcRefs main_arg1, by decide⟩)).trans (GenP.V8_main_arg1 m (outs m) c),
        (h (Proc.devRef .tc main_arg2) (Finset.mem_filter.mpr ⟨StableHlo.devRef_mem_tcRefs main_arg2, by decide⟩)).trans (GenP.V8_main_arg2 m (outs m) c),
        (h (Proc.devRef .tc main_arg3) (Finset.mem_filter.mpr ⟨StableHlo.devRef_mem_tcRefs main_arg3, by decide⟩)).trans (GenP.V8_main_arg3 m (outs m) c),
        (h (Proc.devRef .tc main_arg4) (Finset.mem_filter.mpr ⟨StableHlo.devRef_mem_tcRefs main_arg4, by decide⟩)).trans (GenP.V8_main_arg4 m (outs m) c),
        (h (Proc.devRef .tc main_arg5) (Finset.mem_filter.mpr ⟨StableHlo.devRef_mem_tcRefs main_arg5, by decide⟩)).trans (GenP.V8_main_arg5 m (outs m) c),
        (h (Proc.devRef .tc main_arg6) (Finset.mem_filter.mpr ⟨StableHlo.devRef_mem_tcRefs main_arg6, by decide⟩)).trans (GenP.V8_main_arg6 m (outs m) c),
        (h (Proc.devRef .tc main_arg7) (Finset.mem_filter.mpr ⟨StableHlo.devRef_mem_tcRefs main_arg7, by decide⟩)).trans (GenP.V8_main_arg7 m (outs m) c),
        (h (Proc.devRef .tc main_arg8) (Finset.mem_filter.mpr ⟨StableHlo.devRef_mem_tcRefs main_arg8, by decide⟩)).trans (GenP.V8_main_arg8 m (outs m) c),
        (h (Proc.devRef .tc main_arg9) (Finset.mem_filter.mpr ⟨StableHlo.devRef_mem_tcRefs main_arg9, by decide⟩)).trans (GenP.V8_main_arg9 m (outs m) c),
        (h (Proc.devRef .tc main_arg10) (Finset.mem_filter.mpr ⟨StableHlo.devRef_mem_tcRefs main_arg10, by decide⟩)).trans (GenP.V8_main_arg10 m (outs m) c),
        (h (Proc.devRef .tc main_arg11) (Finset.mem_filter.mpr ⟨StableHlo.devRef_mem_tcRefs main_arg11, by decide⟩)).trans (GenP.V8_main_arg11 m (outs m) c),
        (h (Proc.devRef .tc main_arg12) (Finset.mem_filter.mpr ⟨StableHlo.devRef_mem_tcRefs main_arg12, by decide⟩)).trans (GenP.V8_main_arg12 m (outs m) c),
        (h (Proc.devRef .tc main_arg13) (Finset.mem_filter.mpr ⟨StableHlo.devRef_mem_tcRefs main_arg13, by decide⟩)).trans (GenP.V8_main_arg13 m (outs m) c)⟩
    · iexact HSI

/-- The frame: the arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => (h c).2) (run_main m ρ)

end Cert.KernelIdeal.Hand

end
-- ==== Proof.KIHost.lean ====
/-
  What the host operations between the four pipelined regions leave in the buffers the regions read. Every layer's
  neighbour aggregate is one scatter-add, over the destination column of the edge list, of the rows gathered at the
  source column (negative source indices wrapped by the node count); the pooling head's per-graph reciprocal counts are
  one scatter-add of ones over the graph ids, clamped below by one and inverted. The remaining operands are reshapes of
  arguments. Each fact reads one buffer of the valuation a region is entered with.
-/
import proofs.«425379_j2551210574350_1_alg».proof.Proof.KernelIdealRegions
import Idealize.ShloMosaic.Lib.StableHlo.Run

set_option maxRecDepth 16384

noncomputable section

namespace Cert.KernelIdeal.Hand

open Cert.KernelIdeal Cert.KernelIdeal.Gen Cert.KernelIdeal.GenP
open Idealize.ShloMosaic Idealize.ShloMosaic.TcCoe
open Idealize.ShloMosaic.StableHlo (after_cons after_nil nullary_result unary_result binary_result ternary_result quaternary_result
  reshape_result binaryIndexed_result nary4_result nary_result unaryIndexed_result nullary_result_ne unary_result_ne binary_result_ne
  ternary_result_ne quaternary_result_ne reshape_result_ne binaryIndexed_result_ne nary_result_ne unaryIndexed_result_ne)

variable {F : FTy → Type} [FloatOps F]

/-! ## The columns of the edge list, the aggregates, the reciprocal counts -/

/-- The source column: row 0 of the edge list, a negative entry shifted up by the node count, as a column. -/
def srcCol (x1 : (⟨S2x800000, .i32⟩ : BufTy).Contents (Elt F)) : (⟨S800000x1, .i32⟩ : BufTy).Contents (Elt F) :=
  broadcastInDim S800000x1 ![0] bcast_S800000_S800000x1_0
    (select
      (cmpi .slt (shapeCast S800000 (extractStridedSlice S1x800000 ![0, 0] x1 slices_S2x800000_S1x800000_0_0) shapeCasts_S1x800000_S800000)
        (broadcastInDim S800000 ![] bcast_S_S800000 (constantI S_ 32 0#32)))
      (addi (shapeCast S800000 (extractStridedSlice S1x800000 ![0, 0] x1 slices_S2x800000_S1x800000_0_0) shapeCasts_S1x800000_S800000)
        (broadcastInDim S800000 ![] bcast_S_S800000 (constantI S_ 32 50000#32)))
      (shapeCast S800000 (extractStridedSlice S1x800000 ![0, 0] x1 slices_S2x800000_S1x800000_0_0) shapeCasts_S1x800000_S800000))

/-- The destination column: row 1 of the edge list, as a column. -/
def dstCol (x1 : (⟨S2x800000, .i32⟩ : BufTy).Contents (Elt F)) : (⟨S800000x1, .i32⟩ : BufTy).Contents (Elt F) :=
  broadcastInDim S800000x1 ![0] bcast_S800000_S800000x1_0
    (shapeCast S800000 (extractStridedSlice S1x800000 ![1, 0] x1 slices_S2x800000_S1x800000_1_0) shapeCasts_S1x800000_S800000)

/-- The neighbour aggregate of 128-wide rows: into zeros, at each edge's destination, the row at its source. -/
def aggK128 (x1 : (⟨S2x800000, .i32⟩ : BufTy).Contents (Elt F)) (h : (⟨S50000x128, .f32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant (F := F) S_ .f32 0x00000000#32)) (dstCol x1)
    (Host.gather gather_S50000x128_S800000x1_S800000x128_1_0_n_n_0_1_1128 h (srcCol x1))

/-- The neighbour aggregate of 256-wide rows. -/
def aggK256 (x1 : (⟨S2x800000, .i32⟩ : BufTy).Contents (Elt F)) (h : (⟨S50000x256, .f32⟩ : BufTy).Contents (Elt F)) :
    (⟨S50000x256, .f32⟩ : BufTy).Contents (Elt F) :=
  Host.scatterAdd scatter_S50000x256_S800000x1_S800000x256_1_0_0_1
    (broadcastInDim S50000x256 ![] bcast_S_S50000x256 (constant (F := F) S_ .f32 0x00000000#32)) (dstCol x1)
    (Host.gather gather_S50000x256_S800000x1_S800000x256_1_0_n_n_0_1_1256 h (srcCol x1))

/-- The per-graph node counts, clamped below by one. -/
def cntK (x2 : (⟨S50000, .i32⟩ : BufTy).Contents (Elt F)) : (⟨S64, .f32⟩ : BufTy).Contents (Elt F) :=
  maximumf
    (Host.scatterAdd scatter_S64_S50000x1_S50000_n_0_0_1
      (broadcastInDim S64 ![] bcast_S_S64 (constant (F := F) S_ .f32 0x00000000#32))
      (broadcastInDim S50000x1 ![0] bcast_S50000_S50000x1_0 x2)
      (broadcastInDim S50000 ![] bcast_S_S50000 (constant (F := F) S_ .f32 0x3F800000#32)))
    (broadcastInDim S64 ![] bcast_S_S64 (constant (F := F) S_ .f32 0x3F800000#32))

/-- The reciprocal of the clamped counts, as a column. -/
def cinvK (x2 : (⟨S50000, .i32⟩ : BufTy).Contents (Elt F)) : (⟨S64x1, .f32⟩ : BufTy).Contents (Elt F) :=
  shapeCast S64x1 (Host.divf (broadcastInDim S64 ![] bcast_S_S64 (constant (F := F) S_ .f32 0x3F800000#32)) (cntK x2)) shapeCasts_S64_S64x1

/-! ## Each host stretch at one buffer, from any contents `X` it starts at -/

section Stretch

variable (X : Valuation τ sig (Elt F))

/-- Row 0 of the edge list, flat. -/
theorem h0_v1 : (StableHlo.after hostOps0 X (Proc.devRef .tc main_v1) : (⟨S800000, .i32⟩ : BufTy).Contents (Elt F))
    = (shapeCast S800000 (extractStridedSlice S1x800000 ![0, 0] (X (Proc.devRef .tc main_arg1) : (⟨S2x800000, .i32⟩ : BufTy).Contents (Elt F)) slices_S2x800000_S1x800000_0_0) shapeCasts_S1x800000_S800000) := by
  after_results_simp <;> rfl

/-- Row 1 of the edge list, flat. -/
theorem h0_v3 : (StableHlo.after hostOps0 X (Proc.devRef .tc main_v3) : (⟨S800000, .i32⟩ : BufTy).Contents (Elt F))
    = (shapeCast S800000 (extractStridedSlice S1x800000 ![1, 0] (X (Proc.devRef .tc main_arg1) : (⟨S2x800000, .i32⟩ : BufTy).Contents (Elt F)) slices_S2x800000_S1x800000_1_0) shapeCasts_S1x800000_S800000) := by
  after_results_simp <;> rfl

set_option maxHeartbeats 1000000 in
/-- The first layer's neighbour aggregate, of the node features. -/
theorem h0_v13 : (StableHlo.after hostOps0 X (Proc.devRef .tc main_v13) : (⟨S50000x128, .f32⟩ : BufTy).Contents (Elt F))
    = aggK128 (X (Proc.devRef .tc main_arg1) : (⟨S2x800000, .i32⟩ : BufTy).Contents (Elt F)) (X (Proc.devRef .tc main_arg0) : (⟨S50000x128, .f32⟩ : BufTy).Contents (Elt F)) := by
  after_results_simp <;> rfl

/-- The first layer's bias as a row. -/
theorem h0_v14 : (StableHlo.after hostOps0 X (Proc.devRef .tc main_v14) : (⟨S1x256, .f32⟩ : BufTy).Contents (Elt F))
    = shapeCast S1x256 (X (Proc.devRef .tc main_arg5) : (⟨S256, .f32⟩ : BufTy).Contents (Elt F)) shapeCasts_S256_S1x256 := by
  after_results_simp <;> rfl

set_option maxHeartbeats 1000000 in
/-- The second stretch recomputes the source column from the flat rows and aggregates the first layer's output. -/
theorem h1_v25 : (StableHlo.after hostOps1 X (Proc.devRef .tc main_v25) : (⟨S50000x256, .f32⟩ : BufTy).Contents (Elt F))
    = Host.scatterAdd scatter_S50000x256_S800000x1_S800000x256_1_0_0_1
      (broadcastInDim S50000x256 ![] bcast_S_S50000x256 (constant (F := F) S_ .f32 0x00000000#32))
      (broadcastInDim S800000x1 ![0] bcast_S800000_S800000x1_0 (X (Proc.devRef .tc main_v3) : (⟨S800000, .i32⟩ : BufTy).Contents (Elt F)))
      (Host.gather gather_S50000x256_S800000x1_S800000x256_1_0_n_n_0_1_1256 (X (Proc.devRef .tc main_v15) : (⟨S50000x256, .f32⟩ : BufTy).Contents (Elt F))
        (broadcastInDim S800000x1 ![0] bcast_S800000_S800000x1_0
          (select (cmpi .slt (X (Proc.devRef .tc main_v1) : (⟨S800000, .i32⟩ : BufTy).Contents (Elt F)) (broadcastInDim S800000 ![] bcast_S_S800000 (constantI S_ 32 0#32)))
            (addi (X (Proc.devRef .tc main_v1) : (⟨S800000, .i32⟩ : BufTy).Contents (Elt F)) (broadcastInDim S800000 ![] bcast_S_S800000 (constantI S_ 32 50000#32))) (X (Proc.devRef .tc main_v1) : (⟨S800000, .i32⟩ : BufTy).Contents (Elt F))))) := by
  after_results_simp <;> rfl

theorem h1_v26 : (StableHlo.after hostOps1 X (Proc.devRef .tc main_v26) : (⟨S1x256, .f32⟩ : BufTy).Contents (Elt F))
    = shapeCast S1x256 (X (Proc.devRef .tc main_arg8) : (⟨S256, .f32⟩ : BufTy).Contents (Elt F)) shapeCasts_S256_S1x256 := by
  after_results_simp <;> rfl

set_option maxHeartbeats 1000000 in
/-- The third stretch: the same over the second layer's output. -/
theorem h2_v37 : (StableHlo.after hostOps2 X (Proc.devRef .tc main_v37) : (⟨S50000x256, .f32⟩ : BufTy).Contents (Elt F))
    = Host.scatterAdd scatter_S50000x256_S800000x1_S800000x256_1_0_0_1
      (broadcastInDim S50000x256 ![] bcast_S_S50000x256 (constant (F := F) S_ .f32 0x00000000#32))
      (broadcastInDim S800000x1 ![0] bcast_S800000_S800000x1_0 (X (Proc.devRef .tc main_v3) : (⟨S800000, .i32⟩ : BufTy).Contents (Elt F)))
      (Host.gather gather_S50000x256_S800000x1_S800000x256_1_0_n_n_0_1_1256 (X (Proc.devRef .tc main_v27) : (⟨S50000x256, .f32⟩ : BufTy).Contents (Elt F))
        (broadcastInDim S800000x1 ![0] bcast_S800000_S800000x1_0
          (select (cmpi .slt (X (Proc.devRef .tc main_v1) : (⟨S800000, .i32⟩ : BufTy).Contents (Elt F)) (broadcastInDim S800000 ![] bcast_S_S800000 (constantI S_ 32 0#32)))
            (addi (X (Proc.devRef .tc main_v1) : (⟨S800000, .i32⟩ : BufTy).Contents (Elt F)) (broadcastInDim S800000 ![] bcast_S_S800000 (constantI S_ 32 50000#32))) (X (Proc.devRef .tc main_v1) : (⟨S800000, .i32⟩ : BufTy).Contents (Elt F))))) := by
  after_results_simp <;> rfl

theorem h2_v38 : (StableHlo.after hostOps2 X (Proc.devRef .tc main_v38) : (⟨S1x256, .f32⟩ : BufTy).Contents (Elt F))
    = shapeCast S1x256 (X (Proc.devRef .tc main_arg11) : (⟨S256, .f32⟩ : BufTy).Contents (Elt F)) shapeCasts_S256_S1x256 := by
  after_results_simp <;> rfl

set_option maxHeartbeats 1000000 in
/-- The reciprocal clamped counts. -/
theorem h3_v48 : (StableHlo.after hostOps3 X (Proc.devRef .tc main_v48) : (⟨S64x1, .f32⟩ : BufTy).Contents (Elt F))
    = cinvK (X (Proc.devRef .tc main_arg2) : (⟨S50000, .i32⟩ : BufTy).Contents (Elt F)) := by
  after_results_simp <;> rfl

theorem h3_v49 : (StableHlo.after hostOps3 X (Proc.devRef .tc main_v49) : (⟨S50000x1, .i32⟩ : BufTy).Contents (Elt F))
    = shapeCast S50000x1 (X (Proc.devRef .tc main_arg2) : (⟨S50000, .i32⟩ : BufTy).Contents (Elt F)) shapeCasts_S50000_S50000x1 := by
  after_results_simp <;> rfl

theorem h3_v50 : (StableHlo.after hostOps3 X (Proc.devRef .tc main_v50) : (⟨S1x10, .f32⟩ : BufTy).Contents (Elt F))
    = shapeCast S1x10 (X (Proc.devRef .tc main_arg13) : (⟨S10, .f32⟩ : BufTy).Contents (Elt F)) shapeCasts_S10_S1x10 := by
  after_results_simp <;> rfl

end Stretch

variable (m : (ℓ : Loc nD τ sig) → Buf (Elt F) ℓ) (outs : GenP.Outs (F := F)) (c : Dev nD)

/-! ## A reference no item so far writes holds its launch contents -/

theorem V1_keep {r : Ref sig .tc} (h0 : r ∉ GenP.hostOps0_W) : GenP.V1 m c r = m ((c : Thread nD τ).loc r) :=
  (GenP.V1_of m c r h0).trans rfl
theorem V2_keep {r : Ref sig .tc} (h0 : r ∉ GenP.hostOps0_W) (g1 : r ∉ ([main_v15] : List (Ref sig .tc))) :
    GenP.V2 m outs c r = m ((c : Thread nD τ).loc r) := (GenP.V2_of m outs c r g1).trans (V1_keep m c h0)
theorem V3_keep {r : Ref sig .tc} (h0 : r ∉ GenP.hostOps0_W) (g1 : r ∉ ([main_v15] : List (Ref sig .tc))) (h1 : r ∉ GenP.hostOps1_W) :
    GenP.V3 m outs c r = m ((c : Thread nD τ).loc r) := (GenP.V3_of m outs c r h1).trans (V2_keep m outs c h0 g1)
theorem V4_keep {r : Ref sig .tc} (h0 : r ∉ GenP.hostOps0_W) (g1 : r ∉ ([main_v15] : List (Ref sig .tc))) (h1 : r ∉ GenP.hostOps1_W)
    (g2 : r ∉ ([main_v27] : List (Ref sig .tc))) : GenP.V4 m outs c r = m ((c : Thread nD τ).loc r) :=
  (GenP.V4_of m outs c r g2).trans (V3_keep m outs c h0 g1 h1)
theorem V5_keep {r : Ref sig .tc} (h0 : r ∉ GenP.hostOps0_W) (g1 : r ∉ ([main_v15] : List (Ref sig .tc))) (h1 : r ∉ GenP.hostOps1_W)
    (g2 : r ∉ ([main_v27] : List (Ref sig .tc))) (h2 : r ∉ GenP.hostOps2_W) : GenP.V5 m outs c r = m ((c : Thread nD τ).loc r) :=
  (GenP.V5_of m outs c r h2).trans (V4_keep m outs c h0 g1 h1 g2)
theorem V6_keep {r : Ref sig .tc} (h0 : r ∉ GenP.hostOps0_W) (g1 : r ∉ ([main_v15] : List (Ref sig .tc))) (h1 : r ∉ GenP.hostOps1_W)
    (g2 : r ∉ ([main_v27] : List (Ref sig .tc))) (h2 : r ∉ GenP.hostOps2_W) (g3 : r ∉ ([main_v39] : List (Ref sig .tc))) :
    GenP.V6 m outs c r = m ((c : Thread nD τ).loc r) := (GenP.V6_of m outs c r g3).trans (V5_keep m outs c h0 g1 h1 g2 h2)
theorem V7_keep {r : Ref sig .tc} (h0 : r ∉ GenP.hostOps0_W) (g1 : r ∉ ([main_v15] : List (Ref sig .tc))) (h1 : r ∉ GenP.hostOps1_W)
    (g2 : r ∉ ([main_v27] : List (Ref sig .tc))) (h2 : r ∉ GenP.hostOps2_W) (g3 : r ∉ ([main_v39] : List (Ref sig .tc)))
    (h3 : r ∉ GenP.hostOps3_W) : GenP.V7 m outs c r = m ((c : Thread nD τ).loc r) :=
  (GenP.V7_of m outs c r h3).trans (V6_keep m outs c h0 g1 h1 g2 h2 g3)

/-! ## Entering the first layer -/

theorem V1_arg0 : GenP.V1 m c main_arg0 = m ((c : Thread nD τ).loc main_arg0) := V1_keep m c (by decide)
theorem V1_arg3 : GenP.V1 m c main_arg3 = m ((c : Thread nD τ).loc main_arg3) := V1_keep m c (by decide)
theorem V1_arg4 : GenP.V1 m c main_arg4 = m ((c : Thread nD τ).loc main_arg4) := V1_keep m c (by decide)

/-- The neighbour sums the first layer reads: the aggregate of the node features. -/
theorem V1_v13 : (GenP.V1 m c main_v13 : (⟨S50000x128, .f32⟩ : BufTy).Contents (Elt F)) = aggK128 (m ((c : Thread nD τ).loc main_arg1) : (⟨S2x800000, .i32⟩ : BufTy).Contents (Elt F)) (m ((c : Thread nD τ).loc main_arg0) : (⟨S50000x128, .f32⟩ : BufTy).Contents (Elt F)) :=
  h0_v13 _
/-- The first layer's bias row. -/
theorem V1_v14 : (GenP.V1 m c main_v14 : (⟨S1x256, .f32⟩ : BufTy).Contents (Elt F)) = shapeCast S1x256 (m ((c : Thread nD τ).loc main_arg5) : (⟨S256, .f32⟩ : BufTy).Contents (Elt F)) shapeCasts_S256_S1x256 :=
  h0_v14 _
/-- The flat rows of the edge list, written by the first stretch and by nothing after it. -/
theorem V1_v1 : (GenP.V1 m c main_v1 : (⟨S800000, .i32⟩ : BufTy).Contents (Elt F)) = (shapeCast S800000 (extractStridedSlice S1x800000 ![0, 0] (m ((c : Thread nD τ).loc main_arg1) : (⟨S2x800000, .i32⟩ : BufTy).Contents (Elt F)) slices_S2x800000_S1x800000_0_0) shapeCasts_S1x800000_S800000) := h0_v1 _
theorem V1_v3 : (GenP.V1 m c main_v3 : (⟨S800000, .i32⟩ : BufTy).Contents (Elt F)) = (shapeCast S800000 (extractStridedSlice S1x800000 ![1, 0] (m ((c : Thread nD τ).loc main_arg1) : (⟨S2x800000, .i32⟩ : BufTy).Contents (Elt F)) slices_S2x800000_S1x800000_1_0) shapeCasts_S1x800000_S800000) := h0_v3 _

/-! ## Entering the second layer -/

theorem V2_v1 : (GenP.V2 m outs c main_v1 : (⟨S800000, .i32⟩ : BufTy).Contents (Elt F)) = (shapeCast S800000 (extractStridedSlice S1x800000 ![0, 0] (m ((c : Thread nD τ).loc main_arg1) : (⟨S2x800000, .i32⟩ : BufTy).Contents (Elt F)) slices_S2x800000_S1x800000_0_0) shapeCasts_S1x800000_S800000) :=
  (GenP.V2_of m outs c main_v1 (by decide)).trans (V1_v1 m c)
theorem V2_v3 : (GenP.V2 m outs c main_v3 : (⟨S800000, .i32⟩ : BufTy).Contents (Elt F)) = (shapeCast S800000 (extractStridedSlice S1x800000 ![1, 0] (m ((c : Thread nD τ).loc main_arg1) : (⟨S2x800000, .i32⟩ : BufTy).Contents (Elt F)) slices_S2x800000_S1x800000_1_0) shapeCasts_S1x800000_S800000) :=
  (GenP.V2_of m outs c main_v3 (by decide)).trans (V1_v3 m c)
theorem V2_v15 : GenP.V2 m outs c main_v15 = outs 2 main_v15 c := Function.update_self ..

theorem V3_v15 : GenP.V3 m outs c main_v15 = outs 2 main_v15 c := (GenP.V3_of m outs c main_v15 (by decide)).trans (V2_v15 m outs c)
theorem V3_arg6 : GenP.V3 m outs c main_arg6 = m ((c : Thread nD τ).loc main_arg6) := V3_keep m outs c (by decide) (by decide) (by decide)
theorem V3_arg7 : GenP.V3 m outs c main_arg7 = m ((c : Thread nD τ).loc main_arg7) := V3_keep m outs c (by decide) (by decide) (by decide)

/-- The neighbour sums the second layer reads: the aggregate of the first layer's output. -/
theorem V3_v25 : (GenP.V3 m outs c main_v25 : (⟨S50000x256, .f32⟩ : BufTy).Contents (Elt F))
    = aggK256 (m ((c : Thread nD τ).loc main_arg1) : (⟨S2x800000, .i32⟩ : BufTy).Contents (Elt F)) (outs 2 main_v15 c : (⟨S50000x256, .f32⟩ : BufTy).Contents (Elt F)) := by
  refine (h1_v25 (GenP.V2 m outs c)).trans ?_
  rw [V2_v1, V2_v3, V2_v15]; rfl
theorem V3_v26 : (GenP.V3 m outs c main_v26 : (⟨S1x256, .f32⟩ : BufTy).Contents (Elt F)) = shapeCast S1x256 (m ((c : Thread nD τ).loc main_arg8) : (⟨S256, .f32⟩ : BufTy).Contents (Elt F)) shapeCasts_S256_S1x256 := by
  refine (h1_v26 (GenP.V2 m outs c)).trans ?_
  rw [V2_keep m outs c (r := main_arg8) (by decide) (by decide)]

/-! ## Entering the third layer -/

theorem V4_v1 : (GenP.V4 m outs c main_v1 : (⟨S800000, .i32⟩ : BufTy).Contents (Elt F)) = (shapeCast S800000 (extractStridedSlice S1x800000 ![0, 0] (m ((c : Thread nD τ).loc main_arg1) : (⟨S2x800000, .i32⟩ : BufTy).Contents (Elt F)) slices_S2x800000_S1x800000_0_0) shapeCasts_S1x800000_S800000) :=
  (GenP.V4_of m outs c main_v1 (by decide)).trans ((GenP.V3_of m outs c main_v1 (by decide)).trans (V2_v1 m outs c))
theorem V4_v3 : (GenP.V4 m outs c main_v3 : (⟨S800000, .i32⟩ : BufTy).Contents (Elt F)) = (shapeCast S800000 (extractStridedSlice S1x800000 ![1, 0] (m ((c : Thread nD τ).loc main_arg1) : (⟨S2x800000, .i32⟩ : BufTy).Contents (Elt F)) slices_S2x800000_S1x800000_1_0) shapeCasts_S1x800000_S800000) :=
  (GenP.V4_of m outs c main_v3 (by decide)).trans ((GenP.V3_of m outs c main_v3 (by decide)).trans (V2_v3 m outs c))
theorem V4_v27 : GenP.V4 m outs c main_v27 = outs 4 main_v27 c := Function.update_self ..

theorem V5_v27 : GenP.V5 m outs c main_v27 = outs 4 main_v27 c := (GenP.V5_of m outs c main_v27 (by decide)).trans (V4_v27 m outs c)
theorem V5_arg9 : GenP.V5 m outs c main_arg9 = m ((c : Thread nD τ).loc main_arg9) :=
  V5_keep m outs c (by decide) (by decide) (by decide) (by decide) (by decide)
theorem V5_arg10 : GenP.V5 m outs c main_arg10 = m ((c : Thread nD τ).loc main_arg10) :=
  V5_keep m outs c (by decide) (by decide) (by decide) (by decide) (by decide)

/-- The neighbour sums the third layer reads: the aggregate of the second layer's output. -/
theorem V5_v37 : (GenP.V5 m outs c main_v37 : (⟨S50000x256, .f32⟩ : BufTy).Contents (Elt F)) = aggK256 (m ((c : Thread nD τ).loc main_arg1) : (⟨S2x800000, .i32⟩ : BufTy).Contents (Elt F)) (outs 4 main_v27 c : (⟨S50000x256, .f32⟩ : BufTy).Contents (Elt F)) := by
  refine (h2_v37 (GenP.V4 m outs c)).trans ?_
  rw [V4_v1, V4_v3, V4_v27]; rfl
theorem V5_v38 : (GenP.V5 m outs c main_v38 : (⟨S1x256, .f32⟩ : BufTy).Contents (Elt F)) = shapeCast S1x256 (m ((c : Thread nD τ).loc main_arg11) : (⟨S256, .f32⟩ : BufTy).Contents (Elt F)) shapeCasts_S256_S1x256 := by
  refine (h2_v38 (GenP.V4 m outs c)).trans ?_
  rw [V4_keep m outs c (r := main_arg11) (by decide) (by decide) (by decide) (by decide)]

/-! ## Entering the pooling head -/

theorem V6_v39 : GenP.V6 m outs c main_v39 = outs 6 main_v39 c := Function.update_self ..

theorem V7_v39 : GenP.V7 m outs c main_v39 = outs 6 main_v39 c := (GenP.V7_of m outs c main_v39 (by decide)).trans (V6_v39 m outs c)
theorem V7_arg12 : GenP.V7 m outs c main_arg12 = m ((c : Thread nD τ).loc main_arg12) :=
  V7_keep m outs c (by decide) (by decide) (by decide) (by decide) (by decide) (by decide) (by decide)

/-- The reciprocal clamped node counts of the graphs, as a column. -/
theorem V7_v48 : (GenP.V7 m outs c main_v48 : (⟨S64x1, .f32⟩ : BufTy).Contents (Elt F)) = cinvK (m ((c : Thread nD τ).loc main_arg2) : (⟨S50000, .i32⟩ : BufTy).Contents (Elt F)) := by
  refine (h3_v48 (GenP.V6 m outs c)).trans ?_
  rw [V6_keep m outs c (r := main_arg2) (by decide) (by decide) (by decide) (by decide) (by decide) (by decide)]
/-- The graph ids as a column. -/
theorem V7_v49 : (GenP.V7 m outs c main_v49 : (⟨S50000x1, .i32⟩ : BufTy).Contents (Elt F)) = shapeCast S50000x1 (m ((c : Thread nD τ).loc main_arg2) : (⟨S50000, .i32⟩ : BufTy).Contents (Elt F)) shapeCasts_S50000_S50000x1 := by
  refine (h3_v49 (GenP.V6 m outs c)).trans ?_
  rw [V6_keep m outs c (r := main_arg2) (by decide) (by decide) (by decide) (by decide) (by decide) (by decide)]
/-- The head's bias as a row. -/
theorem V7_v50 : (GenP.V7 m outs c main_v50 : (⟨S1x10, .f32⟩ : BufTy).Contents (Elt F)) = shapeCast S1x10 (m ((c : Thread nD τ).loc main_arg13) : (⟨S10, .f32⟩ : BufTy).Contents (Elt F)) shapeCasts_S10_S1x10 := by
  refine (h3_v50 (GenP.V6 m outs c)).trans ?_
  rw [V6_keep m outs c (r := main_arg13) (by decide) (by decide) (by decide) (by decide) (by decide) (by decide)]

end Cert.KernelIdeal.Hand
-- ==== Proof.Spec.lean ====
/-
  The mathematics both programs compute, index by index, over the extended reals.

  A graph-convolution layer's dense half: entry (p, q) of the result is
      Σ_k h[p,k]·wr[k,q] + Σ_k a[p,k]·wn[k,q] + b[q],
  clamped below at 0 when the layer has a ReLU; `h` the node features, `a` the neighbour sums.
  The pooling head: per graph g the sum of the rows r of `h` whose graph id is g (an id outside 0 … 63 belongs to no
  graph), each entry scaled by the graph's factor `cinv g`, then one more matrix product and a bias.
  No program is imported: these are functions of arrays.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals of the literal extents, and a rank-1 one. -/
abbrev A2 (n0 n1 : ℕ) : Type := (⟨2, ![n0, n1]⟩ : Shape).Idx → EReal
abbrev A1 (n : ℕ) : Type := (⟨1, ![n]⟩ : Shape).Idx → EReal

/-- Entry (p, q) of a layer over features of width 128. -/
def layerC128 (relu : Bool) (h a : A2 50000 128) (wr wn : A2 128 256) (b : Fin 256 → EReal) (p : Fin 50000) (q : Fin 256) : EReal :=
  let s := (∑ k : Fin 128, h (ix2 p k) * wr (ix2 k q)) + (∑ k : Fin 128, a (ix2 p k) * wn (ix2 k q)) + b q
  if relu then max s 0 else s

/-- The layer over features of width 128 as an array. -/
def layer128 (relu : Bool) (h a : A2 50000 128) (wr wn : A2 128 256) (b : Fin 256 → EReal) : A2 50000 256 :=
  fun i => layerC128 relu h a wr wn b (i 0) (i 1)

theorem layer128_ix2 (relu : Bool) (h a : A2 50000 128) (wr wn : A2 128 256) (b : Fin 256 → EReal) (p : Fin 50000) (q : Fin 256) :
    layer128 relu h a wr wn b (ix2 p q) = layerC128 relu h a wr wn b p q := rfl

/-- Entry (p, q) of a layer over features of width 256. -/
def layerC256 (relu : Bool) (h a : A2 50000 256) (wr wn : A2 256 256) (b : Fin 256 → EReal) (p : Fin 50000) (q : Fin 256) : EReal :=
  let s := (∑ k : Fin 256, h (ix2 p k) * wr (ix2 k q)) + (∑ k : Fin 256, a (ix2 p k) * wn (ix2 k q)) + b q
  if relu then max s 0 else s

/-- The layer over features of width 256 as an array. -/
def layer256 (relu : Bool) (h a : A2 50000 256) (wr wn : A2 256 256) (b : Fin 256 → EReal) : A2 50000 256 :=
  fun i => layerC256 relu h a wr wn b (i 0) (i 1)

theorem layer256_ix2 (relu : Bool) (h a : A2 50000 256) (wr wn : A2 256 256) (b : Fin 256 → EReal) (p : Fin 50000) (q : Fin 256) :
    layer256 relu h a wr wn b (ix2 p q) = layerC256 relu h a wr wn b p q := rfl

/-- Graph g's pooled sum at column q: the rows whose graph id is the word `g`. -/
def poolC (h : A2 50000 256) (batch : Fin 50000 → BitVec 32) (g : Fin 64) (q : Fin 256) : EReal :=
  ∑ r : Fin 50000, if batch r = BitVec.ofNat 32 g.val then h (ix2 r q) else 0

/-- The head at (g, o): the scaled pooled row against the last weight matrix, plus the bias. -/
def headC (sums : Fin 64 → Fin 256 → EReal) (cinv : Fin 64 → EReal) (wl : A2 256 10) (bl : Fin 10 → EReal) (g : Fin 64) (o : Fin 10) : EReal :=
  (∑ k : Fin 256, (sums g k * cinv g) * wl (ix2 k o)) + bl o

/-- The whole head as an array. -/
def head (h : A2 50000 256) (batch : Fin 50000 → BitVec 32) (cinv : Fin 64 → EReal) (wl : A2 256 10) (bl : Fin 10 → EReal) : A2 64 10 :=
  fun i => headC (poolC h batch) cinv wl bl (i 0) (i 1)

theorem head_ix2 (h : A2 50000 256) (batch : Fin 50000 → BitVec 32) (cinv : Fin 64 → EReal) (wl : A2 256 10) (bl : Fin 10 → EReal)
    (g : Fin 64) (o : Fin 10) : head h batch cinv wl bl (ix2 g o) = headC (poolC h batch) cinv wl bl g o := rfl

/-- The whole network: three layers, each fed the layer before it and that layer's neighbour sums (`agg128`, `agg256`: the
    gather-and-scatter-add of the edge list, the same function on both programs' sides), then the pooling head. -/
def net (agg128 : A2 50000 128 → A2 50000 128) (agg256 : A2 50000 256 → A2 50000 256) (cinv : Fin 64 → EReal)
    (x0 : A2 50000 128) (w1r w1n : A2 128 256) (b1 : Fin 256 → EReal) (w2r w2n : A2 256 256) (b2 : Fin 256 → EReal)
    (w3r w3n : A2 256 256) (b3 : Fin 256 → EReal) (batch : Fin 50000 → BitVec 32) (wl : A2 256 10) (bl : Fin 10 → EReal) : A2 64 10 :=
  let h1 := layer128 true x0 (agg128 x0) w1r w1n b1
  let h2 := layer256 true h1 (agg256 h1) w2r w2n b2
  let h3 := layer256 false h2 (agg256 h2) w3r w3n b3
  head h3 batch cinv wl bl

end Cert.Spec

end
-- ==== Proof.KIValue0.lean ====
/-
  The first graph-convolution layer's dense half, its value at the ideal instance: a float is an extended real, the format
  changes are the identity and a matrix product is the textbook sum.

  Entry (p, q) of what the body stores is, of the five blocks it loads,
      Σ_k x0[p,k]·x2[k,q] + Σ_k x1[p,k]·x3[k,q] + x4[0,q]
  — the two products into the zero block, read through the contraction's one axis, and the bias row spread over the rows —
  clamped below at 0 (the zero word is the real 0).
  At grid point `t` the two row-blocked inputs hold rows 5000·t … 5000·t+4999 of their arrays, the weights and the bias row
  their arrays whole, and the output block is written back to rows 5000·t … of the output array; the ten blocks tile it.
  So the output array after the region is the layer of the specification applied to the five arrays the region reads.
-/
import proofs.«425379_j2551210574350_1_alg».proof.Proof.KIRegion0
import proofs.«425379_j2551210574350_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

/-! ## The contraction of the layer's two matrix products, axis by axis -/

theorem pay0_lhs_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem pay0_lhs_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem pay0_rhs_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem pay0_rhs_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The contraction's index is its one coordinate. -/
abbrev pay0_contr : dot_S5000x128_S128x256_S5000x256_1_0_0_1_n_n.contr.Idx ≃ Fin 128 :=
  ValueIdx.contrEquiv1 dot_S5000x128_S128x256_S5000x256_1_0_0_1_n_n _ rfl rfl

/-- A block product into the zero block, read at row `p`, column `q`: the sum over the shared axis. -/
theorem pay0_mm (l : S5000x128.Idx → EReal) (r : S128x256.Idx → EReal) (p : Fin 5000) (q : Fin 256) :
    (matmul (F := Ideal) (φ₁ := .bf16) (φ₂ := .bf16) dot_S5000x128_S128x256_S5000x256_1_0_0_1_n_n none l r (constant S5000x256 .f32 0x00000000#32) : S5000x256.Idx → EReal) (ix2 p q)
      = ∑ k : Fin 128, l (ix2 p k) * r (ix2 k q) := by
  simp only [matmul]
  rw [Ideal.matmul_constant_zero_apply, ← Equiv.sum_comp pay0_contr.symm]
  refine Finset.sum_congr rfl fun k _ => ?_
  have hk := ValueIdx.contrEquiv1_symm_val dot_S5000x128_S128x256_S5000x256_1_0_0_1_n_n _ rfl rfl k
  have el : dot_S5000x128_S128x256_S5000x256_1_0_0_1_n_n.lhsIdx (ix2 p q) (pay0_contr.symm k) = ix2 p k := funext fun a => Fin.ext (by
    match a with
    | ⟨0, _⟩ => exact pay0_lhs_0 _ _
    | ⟨1, _⟩ => exact (pay0_lhs_1 _ _).trans hk)
  have er : dot_S5000x128_S128x256_S5000x256_1_0_0_1_n_n.rhsIdx (ix2 p q) (pay0_contr.symm k) = ix2 k q := funext fun a => Fin.ext (by
    match a with
    | ⟨0, _⟩ => exact (pay0_rhs_0 _ _).trans hk
    | ⟨1, _⟩ => exact pay0_rhs_1 _ _)
  rw [el, er]

/-- The bias row spread over the block's rows, read at row `p`, column `q`. -/
theorem pay0_bias (b : S1x256.Idx → EReal) (p : Fin 5000) (q : Fin 256) :
    broadcastTo S5000x256 b broadcasts_S1x256_S5000x256 (ix2 p q) = b (ix2 0 q) := by
  refine broadcastTo_apply b broadcasts_S1x256_S5000x256 (ix2 p q) (ix2 0 q) fun a => ?_
  match a with
  | ⟨0, _⟩ => rfl
  | ⟨1, _⟩ => rfl

/-! ## The payload at an entry -/

/-- Entry `(p, q)` of what the body stores, from the five blocks it loads. -/
theorem pay0_apply (x0 x1 : Vec Ideal S5000x128 .f32) (x2 x3 : Vec Ideal S128x256 .f32) (x4 : Vec Ideal S1x256 .f32) (p : Fin 5000) (q : Fin 256) :
    k0_pay1 x0 x1 x2 x3 x4 (ix2 p q)
      = max ((∑ k : Fin 128, x0 (ix2 p k) * x2 (ix2 k q)) + (∑ k : Fin 128, x1 (ix2 p k) * x3 (ix2 k q)) + x4 (ix2 0 q)) 0 := by
  unfold k0_pay1
  simp only [shapeCast_self, maximumf_apply, addf_apply, broadcast_apply]
  refine congrArg₂ max ?_ Ideal.ofBits_zero_f32
  rw [pay0_mm, pay0_mm, pay0_bias]
  simp only [truncf_apply]

/-! ## From the blocks to the array -/

variable (V : (c : Dev nD) → (b : Ref sig .tc) → Buf (Elt Ideal) ((c : Thread nD τ).loc b))

theorem hz0 : (![0, 0] : Fin 2 → Nat) = fun _ => 0 := funext fun a => by fin_cases a <;> rfl

/-- The layer applied to the five arrays as the region finds them. -/
abbrev final0_G (c : Dev nD) : S50000x256.Idx → EReal :=
  Cert.Spec.layer128 true (V c (Pipeline.arrRef spec0 0)) (V c (Pipeline.arrRef spec0 1)) (V c (Pipeline.arrRef spec0 2)) (V c (Pipeline.arrRef spec0 3))
    (fun q => (V c (Pipeline.arrRef spec0 4) : S1x256.Idx → EReal) (ix2 0 q))

/-- The index maps over the grid: at point `t` the two row-blocked inputs and the output sit at block row `t`, block column 0;
    the weights and the bias are their arrays whole; the output is written back at every point. -/
theorem idxf0 : ∀ t : Fin cfg0.N,
    (cfg0.win 0).index t (0 : Fin 2) = t.val ∧ (cfg0.win 0).index t (1 : Fin 2) = 0
    ∧ (cfg0.win 1).index t (0 : Fin 2) = t.val ∧ (cfg0.win 1).index t (1 : Fin 2) = 0
    ∧ (cfg0.win 2).index t (0 : Fin 2) = 0 ∧ (cfg0.win 2).index t (1 : Fin 2) = 0
    ∧ (cfg0.win 3).index t (0 : Fin 2) = 0 ∧ (cfg0.win 3).index t (1 : Fin 2) = 0
    ∧ (cfg0.win 4).index t (0 : Fin 2) = 0 ∧ (cfg0.win 4).index t (1 : Fin 2) = 0
    ∧ (cfg0.win 5).index t (0 : Fin 2) = t.val ∧ (cfg0.win 5).index t (1 : Fin 2) = 0
    ∧ (cfg0.win 5).flush t = true :=
  (by decide +kernel : ∀ t : Fin grid0.N, _)

/-- Row `p` of the feature block at point `t` is row `5000·t + p` of the feature array. -/
theorem blk0_0_apply (c : Dev nD) (t : Fin cfg0.N) (p : Fin 5000) (k : Fin 128) (r : Fin 50000) (hr : r.val = 5000 * t.val + p.val) :
    (iblk0 V c 0 t : S5000x128.Idx → EReal) (ix2 p k) = (V c (Pipeline.arrRef spec0 0) : Cert.Spec.A2 50000 128) (ix2 r k) := by
  obtain ⟨e0, e1, -⟩ := idxf0 t
  unfold iblk0
  rw [View.read_apply]
  show (V c (Pipeline.arrRef spec0 0) : Cert.Spec.A2 50000 128) _ = _
  congr 1
  funext a
  apply Fin.ext
  match a with
  | ⟨0, _⟩ => show (cfg0.win 0).index t (0 : Fin 2) * 5000 + 1 * p.val = r.val; omega
  | ⟨1, _⟩ => show (cfg0.win 0).index t (1 : Fin 2) * _ + 1 * k.val = k.val; rw [e1]; omega

/-- Row `p` of the neighbour-sum block at point `t` is row `5000·t + p` of the neighbour-sum array. -/
theorem blk0_1_apply (c : Dev nD) (t : Fin cfg0.N) (p : Fin 5000) (k : Fin 128) (r : Fin 50000) (hr : r.val = 5000 * t.val + p.val) :
    (iblk0 V c 1 t : S5000x128.Idx → EReal) (ix2 p k) = (V c (Pipeline.arrRef spec0 1) : Cert.Spec.A2 50000 128) (ix2 r k) := by
  obtain ⟨-, -, e0, e1, -⟩ := idxf0 t
  unfold iblk0
  rw [View.read_apply]
  show (V c (Pipeline.arrRef spec0 1) : Cert.Spec.A2 50000 128) _ = _
  congr 1
  funext a
  apply Fin.ext
  match a with
  | ⟨0, _⟩ => show (cfg0.win 1).index t (0 : Fin 2) * 5000 + 1 * p.val = r.val; omega
  | ⟨1, _⟩ => show (cfg0.win 1).index t (1 : Fin 2) * _ + 1 * k.val = k.val; rw [e1]; omega

/-- The first weight block is the first weight matrix, at every point. -/
theorem blk0_2_apply (c : Dev nD) (t : Fin cfg0.N) (k : Fin 128) (q : Fin 256) :
    (iblk0 V c 2 t : S128x256.Idx → EReal) (ix2 k q) = (V c (Pipeline.arrRef spec0 2) : Cert.Spec.A2 128 256) (ix2 k q) := by
  obtain ⟨-, -, -, -, e0, e1, -⟩ := idxf0 t
  unfold iblk0
  rw [View.read_apply]
  show (V c (Pipeline.arrRef spec0 2) : Cert.Spec.A2 128 256) _ = _
  congr 1
  funext a
  apply Fin.ext
  match a with
  | ⟨0, _⟩ => show (cfg0.win 2).index t (0 : Fin 2) * _ + 1 * k.val = k.val; rw [e0]; omega
  | ⟨1, _⟩ => show (cfg0.win 2).index t (1 : Fin 2) * _ + 1 * q.val = q.val; rw [e1]; omega

/-- The second weight block is the second weight matrix, at every point. -/
theorem blk0_3_apply (c : Dev nD) (t : Fin cfg0.N) (k : Fin 128) (q : Fin 256) :
    (iblk0 V c 3 t : S128x256.Idx → EReal) (ix2 k q) = (V c (Pipeline.arrRef spec0 3) : Cert.Spec.A2 128 256) (ix2 k q) := by
  obtain ⟨-, -, -, -, -, -, e0, e1, -⟩ := idxf0 t
  unfold iblk0
  rw [View.read_apply]
  show (V c (Pipeline.arrRef spec0 3) : Cert.Spec.A2 128 256) _ = _
  congr 1
  funext a
  apply Fin.ext
  match a with
  | ⟨0, _⟩ => show (cfg0.win 3).index t (0 : Fin 2) * _ + 1 * k.val = k.val; rw [e0]; omega
  | ⟨1, _⟩ => show (cfg0.win 3).index t (1 : Fin 2) * _ + 1 * q.val = q.val; rw [e1]; omega

/-- The bias block is the bias row, at every point. -/
theorem blk0_4_apply (c : Dev nD) (t : Fin cfg0.N) (q : Fin 256) :
    (iblk0 V c 4 t : S1x256.Idx → EReal) (ix2 0 q) = (V c (Pipeline.arrRef spec0 4) : S1x256.Idx → EReal) (ix2 0 q) := by
  obtain ⟨-, -, -, -, -, -, -, -, e0, e1, -⟩ := idxf0 t
  unfold iblk0
  rw [View.read_apply]
  show (V c (Pipeline.arrRef spec0 4) : S1x256.Idx → EReal) _ = _
  congr 1
  funext a
  apply Fin.ext
  match a with
  | ⟨0, _⟩ => show (cfg0.win 4).index t (0 : Fin 2) * _ + 1 * 0 = 0; rw [e0]; omega
  | ⟨1, _⟩ => show (cfg0.win 4).index t (1 : Fin 2) * _ + 1 * q.val = q.val; rw [e1]; omega

/-- Entry `(p, q)` of the output block at point `t` is entry `(5000·t + p, q)` of the output array. -/
theorem blk0_5_emb (t : Fin cfg0.N) (p : Fin 5000) (q : Fin 256) (r : Fin 50000) (hr : r.val = 5000 * t.val + p.val) :
    (((cfg0.win 5).blk t).view.emb (ix2 p q) : S50000x256.Idx) = ix2 r q := by
  obtain ⟨-, -, -, -, -, -, -, -, -, -, e0, e1, -⟩ := idxf0 t
  funext a
  apply Fin.ext
  match a with
  | ⟨0, _⟩ => show (cfg0.win 5).index t (0 : Fin 2) * 5000 + 1 * p.val = r.val; omega
  | ⟨1, _⟩ => show (cfg0.win 5).index t (1 : Fin 2) * _ + 1 * q.val = q.val; rw [e1]; omega

/-- What point `t` writes back is block `t` of the layer of the five arrays: the payload at an entry is the layer's formula over
    the blocks' rows, and each block's row is the array's row the output entry names. -/
theorem flushed0_eq (c : Dev nD) (t : Fin cfg0.N) :
    (dat0 V c).flushed 5 t = ((cfg0.win 5).blk t).view.read (Elt Ideal) (final0_G V c) := by
  show (cfg0.win 5).cut (grid0.coords t) ((dat0 V c).after 5 t) = _
  rw [after0_5]
  unfold out0_5
  rw [View.canon_unit_zero hz0]
  simp only [View.ld_unit_zero (S := S5000x128) hz0, View.ld_unit_zero (S := S128x256) hz0, View.ld_unit_zero (S := S1x256) hz0]
  funext j
  obtain ⟨p, q, rfl⟩ : ∃ (p : Fin 5000) (q : Fin 256), j = ix2 p q := ⟨j 0, j 1, eq_ix2 (n0 := 5000) (n1 := 256) j⟩
  have hN : grid0.N = 10 := by decide
  have ht : t.val < 10 := hN ▸ t.isLt
  obtain ⟨r, hr⟩ : ∃ r : Fin 50000, r.val = 5000 * t.val + p.val := ⟨⟨5000 * t.val + p.val, by have := p.isLt; omega⟩, rfl⟩
  rw [View.read_apply]
  show k0_pay1 (iblk0 V c 0 t) (iblk0 V c 1 t) (iblk0 V c 2 t) (iblk0 V c 3 t) (iblk0 V c 4 t) (ix2 p q) = final0_G V c (((cfg0.win 5).blk t).view.emb (ix2 p q))
  rw [blk0_5_emb t p q r hr]
  refine (pay0_apply _ _ _ _ _ p q).trans ?_
  simp only [blk0_0_apply V c t p _ r hr, blk0_1_apply V c t p _ r hr, blk0_2_apply V c t, blk0_3_apply V c t, blk0_4_apply V c t]
  rfl

/-- An index of the output array is in point `t`'s block iff each coordinate is in the block's range on its axis. -/
theorem mem_blk0 (t : Fin cfg0.N) (i : S50000x256.Idx) :
    i ∈ ((cfg0.win 5).blk t).view.set ↔ ∀ a : Fin 2, (cfg0.win 5).index t a * S5000x256.size a ≤ (i a).val ∧ (i a).val < (cfg0.win 5).index t a * S5000x256.size a + S5000x256.size a := by
  show i ∈ ((View.whole (Pipeline.arrRef spec0 5)).slice ((cfg0.win 5).rect t)).set ↔ _
  rw [View.set_slice_whole, Rect.mem_set_unit]
  exact Iff.rfl

/-- Every row of the output array is in the block of the point its row number divided by 5000 names. -/
theorem cover_arr0 (i : S50000x256.Idx) : ∃ t : Fin cfg0.N, (cfg0.win 5).flush t = true ∧ i ∈ ((cfg0.win 5).blk t).view.set := by
  have hN : grid0.N = 10 := by decide
  have hi0 : (i 0).val < 50000 := (i 0).isLt
  have hi1 : (i 1).val < 256 := (i 1).isLt
  let t : Fin cfg0.N := ⟨(i 0).val / 5000, by show (i 0).val / 5000 < grid0.N; omega⟩
  have htv : t.val = (i 0).val / 5000 := rfl
  obtain ⟨-, -, -, -, -, -, -, -, -, -, e0, e1, ef⟩ := idxf0 t
  refine ⟨t, ef, ?_⟩
  rw [mem_blk0]
  intro a
  match a with
  | ⟨0, _⟩ => show (cfg0.win 5).index t (0 : Fin 2) * 5000 ≤ (i 0).val ∧ (i 0).val < (cfg0.win 5).index t (0 : Fin 2) * 5000 + 5000; omega
  | ⟨1, _⟩ => show (cfg0.win 5).index t (1 : Fin 2) * 256 ≤ (i 1).val ∧ (i 1).val < (cfg0.win 5).index t (1 : Fin 2) * 256 + 256; omega

/-- The output array after the region is the layer of the five arrays the region reads (the windows' arrays, in window order). -/
theorem final0_ref (c : Dev nD) : (dat0 V c).arrAt 5 cfg0.N = final0_G V c :=
  (dat0 V c).arrAt_eq_of_cover 5 (final0_G V c) (fun t _ => flushed0_eq V c t) cover_arr0

/-- The same with the five arrays by name. -/
theorem final0 (c : Dev nD) : ((dat0 V c).arrAt 5 cfg0.N : S50000x256.Idx → EReal)
    = Cert.Spec.layer128 true (V c main_arg0) (V c main_v13) (V c main_arg3) (V c main_arg4)
        (fun q => (V c main_v14 : S1x256.Idx → EReal) (ix2 0 q)) :=
  final0_ref V c

end Cert.KernelIdeal.Hand

end
-- ==== Proof.KIValue1.lean ====
/-
  The second graph-convolution layer's dense half, its value at the ideal instance: a float is an extended real, the format
  changes are the identity and a matrix product is the textbook sum.

  Entry (p, q) of what the body stores is, of the five blocks it loads,
      Σ_k x0[p,k]·x2[k,q] + Σ_k x1[p,k]·x3[k,q] + x4[0,q]
  — the two products into the zero block, read through the contraction's one axis, and the bias row spread over the rows —
  clamped below at 0 (the zero word is the real 0).
  At grid point `t` the two row-blocked inputs hold rows 5000·t … 5000·t+4999 of their arrays, the weights and the bias row
  their arrays whole, and the output block is written back to rows 5000·t … of the output array; the ten blocks tile it.
  So the output array after the region is the layer of the specification applied to the five arrays the region reads.
-/
import proofs.«425379_j2551210574350_1_alg».proof.Proof.KIRegion1
import proofs.«425379_j2551210574350_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

/-! ## The contraction of the layer's two matrix products, axis by axis -/

theorem pay1_lhs_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem pay1_lhs_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem pay1_rhs_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem pay1_rhs_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The contraction's index is its one coordinate. -/
abbrev pay1_contr : dot_S5000x256_S256x256_S5000x256_1_0_0_1_n_n.contr.Idx ≃ Fin 256 :=
  ValueIdx.contrEquiv1 dot_S5000x256_S256x256_S5000x256_1_0_0_1_n_n _ rfl rfl

/-- A block product into the zero block, read at row `p`, column `q`: the sum over the shared axis. -/
theorem pay1_mm (l : S5000x256.Idx → EReal) (r : S256x256.Idx → EReal) (p : Fin 5000) (q : Fin 256) :
    (matmul (F := Ideal) (φ₁ := .bf16) (φ₂ := .bf16) dot_S5000x256_S256x256_S5000x256_1_0_0_1_n_n none l r (constant S5000x256 .f32 0x00000000#32) : S5000x256.Idx → EReal) (ix2 p q)
      = ∑ k : Fin 256, l (ix2 p k) * r (ix2 k q) := by
  simp only [matmul]
  rw [Ideal.matmul_constant_zero_apply, ← Equiv.sum_comp pay1_contr.symm]
  refine Finset.sum_congr rfl fun k _ => ?_
  have hk := ValueIdx.contrEquiv1_symm_val dot_S5000x256_S256x256_S5000x256_1_0_0_1_n_n _ rfl rfl k
  have el : dot_S5000x256_S256x256_S5000x256_1_0_0_1_n_n.lhsIdx (ix2 p q) (pay1_contr.symm k) = ix2 p k := funext fun a => Fin.ext (by
    match a with
    | ⟨0, _⟩ => exact pay1_lhs_0 _ _
    | ⟨1, _⟩ => exact (pay1_lhs_1 _ _).trans hk)
  have er : dot_S5000x256_S256x256_S5000x256_1_0_0_1_n_n.rhsIdx (ix2 p q) (pay1_contr.symm k) = ix2 k q := funext fun a => Fin.ext (by
    match a with
    | ⟨0, _⟩ => exact (pay1_rhs_0 _ _).trans hk
    | ⟨1, _⟩ => exact pay1_rhs_1 _ _)
  rw [el, er]

/-- The bias row spread over the block's rows, read at row `p`, column `q`. -/
theorem pay1_bias (b : S1x256.Idx → EReal) (p : Fin 5000) (q : Fin 256) :
    broadcastTo S5000x256 b broadcasts_S1x256_S5000x256 (ix2 p q) = b (ix2 0 q) := by
  refine broadcastTo_apply b broadcasts_S1x256_S5000x256 (ix2 p q) (ix2 0 q) fun a => ?_
  match a with
  | ⟨0, _⟩ => rfl
  | ⟨1, _⟩ => rfl

/-! ## The payload at an entry -/

/-- Entry `(p, q)` of what the body stores, from the five blocks it loads. -/
theorem pay1_apply (x0 x1 : Vec Ideal S5000x256 .f32) (x2 x3 : Vec Ideal S256x256 .f32) (x4 : Vec Ideal S1x256 .f32) (p : Fin 5000) (q : Fin 256) :
    k1_pay1 x0 x1 x2 x3 x4 (ix2 p q)
      = max ((∑ k : Fin 256, x0 (ix2 p k) * x2 (ix2 k q)) + (∑ k : Fin 256, x1 (ix2 p k) * x3 (ix2 k q)) + x4 (ix2 0 q)) 0 := by
  unfold k1_pay1
  simp only [shapeCast_self, maximumf_apply, addf_apply, broadcast_apply]
  refine congrArg₂ max ?_ Ideal.ofBits_zero_f32
  rw [pay1_mm, pay1_mm, pay1_bias]
  simp only [truncf_apply]

/-! ## From the blocks to the array -/

variable (V : (c : Dev nD) → (b : Ref sig .tc) → Buf (Elt Ideal) ((c : Thread nD τ).loc b))

theorem hz1 : (![0, 0] : Fin 2 → Nat) = fun _ => 0 := funext fun a => by fin_cases a <;> rfl

/-- The layer applied to the five arrays as the region finds them. -/
abbrev final1_G (c : Dev nD) : S50000x256.Idx → EReal :=
  Cert.Spec.layer256 true (V c (Pipeline.arrRef spec1 0)) (V c (Pipeline.arrRef spec1 1)) (V c (Pipeline.arrRef spec1 2)) (V c (Pipeline.arrRef spec1 3))
    (fun q => (V c (Pipeline.arrRef spec1 4) : S1x256.Idx → EReal) (ix2 0 q))

/-- The index maps over the grid: at point `t` the two row-blocked inputs and the output sit at block row `t`, block column 0;
    the weights and the bias are their arrays whole; the output is written back at every point. -/
theorem idxf1 : ∀ t : Fin cfg1.N,
    (cfg1.win 0).index t (0 : Fin 2) = t.val ∧ (cfg1.win 0).index t (1 : Fin 2) = 0
    ∧ (cfg1.win 1).index t (0 : Fin 2) = t.val ∧ (cfg1.win 1).index t (1 : Fin 2) = 0
    ∧ (cfg1.win 2).index t (0 : Fin 2) = 0 ∧ (cfg1.win 2).index t (1 : Fin 2) = 0
    ∧ (cfg1.win 3).index t (0 : Fin 2) = 0 ∧ (cfg1.win 3).index t (1 : Fin 2) = 0
    ∧ (cfg1.win 4).index t (0 : Fin 2) = 0 ∧ (cfg1.win 4).index t (1 : Fin 2) = 0
    ∧ (cfg1.win 5).index t (0 : Fin 2) = t.val ∧ (cfg1.win 5).index t (1 : Fin 2) = 0
    ∧ (cfg1.win 5).flush t = true :=
  (by decide +kernel : ∀ t : Fin grid1.N, _)

/-- Row `p` of the feature block at point `t` is row `5000·t + p` of the feature array. -/
theorem blk1_0_apply (c : Dev nD) (t : Fin cfg1.N) (p : Fin 5000) (k : Fin 256) (r : Fin 50000) (hr : r.val = 5000 * t.val + p.val) :
    (iblk1 V c 0 t : S5000x256.Idx → EReal) (ix2 p k) = (V c (Pipeline.arrRef spec1 0) : Cert.Spec.A2 50000 256) (ix2 r k) := by
  obtain ⟨e0, e1, -⟩ := idxf1 t
  unfold iblk1
  rw [View.read_apply]
  show (V c (Pipeline.arrRef spec1 0) : Cert.Spec.A2 50000 256) _ = _
  congr 1
  funext a
  apply Fin.ext
  match a with
  | ⟨0, _⟩ => show (cfg1.win 0).index t (0 : Fin 2) * 5000 + 1 * p.val = r.val; omega
  | ⟨1, _⟩ => show (cfg1.win 0).index t (1 : Fin 2) * _ + 1 * k.val = k.val; rw [e1]; omega

/-- Row `p` of the neighbour-sum block at point `t` is row `5000·t + p` of the neighbour-sum array. -/
theorem blk1_1_apply (c : Dev nD) (t : Fin cfg1.N) (p : Fin 5000) (k : Fin 256) (r : Fin 50000) (hr : r.val = 5000 * t.val + p.val) :
    (iblk1 V c 1 t : S5000x256.Idx → EReal) (ix2 p k) = (V c (Pipeline.arrRef spec1 1) : Cert.Spec.A2 50000 256) (ix2 r k) := by
  obtain ⟨-, -, e0, e1, -⟩ := idxf1 t
  unfold iblk1
  rw [View.read_apply]
  show (V c (Pipeline.arrRef spec1 1) : Cert.Spec.A2 50000 256) _ = _
  congr 1
  funext a
  apply Fin.ext
  match a with
  | ⟨0, _⟩ => show (cfg1.win 1).index t (0 : Fin 2) * 5000 + 1 * p.val = r.val; omega
  | ⟨1, _⟩ => show (cfg1.win 1).index t (1 : Fin 2) * _ + 1 * k.val = k.val; rw [e1]; omega

/-- The first weight block is the first weight matrix, at every point. -/
theorem blk1_2_apply (c : Dev nD) (t : Fin cfg1.N) (k : Fin 256) (q : Fin 256) :
    (iblk1 V c 2 t : S256x256.Idx → EReal) (ix2 k q) = (V c (Pipeline.arrRef spec1 2) : Cert.Spec.A2 256 256) (ix2 k q) := by
  obtain ⟨-, -, -, -, e0, e1, -⟩ := idxf1 t
  unfold iblk1
  rw [View.read_apply]
  show (V c (Pipeline.arrRef spec1 2) : Cert.Spec.A2 256 256) _ = _
  congr 1
  funext a
  apply Fin.ext
  match a with
  | ⟨0, _⟩ => show (cfg1.win 2).index t (0 : Fin 2) * _ + 1 * k.val = k.val; rw [e0]; omega
  | ⟨1, _⟩ => show (cfg1.win 2).index t (1 : Fin 2) * _ + 1 * q.val = q.val; rw [e1]; omega

/-- The second weight block is the second weight matrix, at every point. -/
theorem blk1_3_apply (c : Dev nD) (t : Fin cfg1.N) (k : Fin 256) (q : Fin 256) :
    (iblk1 V c 3 t : S256x256.Idx → EReal) (ix2 k q) = (V c (Pipeline.arrRef spec1 3) : Cert.Spec.A2 256 256) (ix2 k q) := by
  obtain ⟨-, -, -, -, -, -, e0, e1, -⟩ := idxf1 t
  unfold iblk1
  rw [View.read_apply]
  show (V c (Pipeline.arrRef spec1 3) : Cert.Spec.A2 256 256) _ = _
  congr 1
  funext a
  apply Fin.ext
  match a with
  | ⟨0, _⟩ => show (cfg1.win 3).index t (0 : Fin 2) * _ + 1 * k.val = k.val; rw [e0]; omega
  | ⟨1, _⟩ => show (cfg1.win 3).index t (1 : Fin 2) * _ + 1 * q.val = q.val; rw [e1]; omega

/-- The bias block is the bias row, at every point. -/
theorem blk1_4_apply (c : Dev nD) (t : Fin cfg1.N) (q : Fin 256) :
    (iblk1 V c 4 t : S1x256.Idx → EReal) (ix2 0 q) = (V c (Pipeline.arrRef spec1 4) : S1x256.Idx → EReal) (ix2 0 q) := by
  obtain ⟨-, -, -, -, -, -, -, -, e0, e1, -⟩ := idxf1 t
  unfold iblk1
  rw [View.read_apply]
  show (V c (Pipeline.arrRef spec1 4) : S1x256.Idx → EReal) _ = _
  congr 1
  funext a
  apply Fin.ext
  match a with
  | ⟨0, _⟩ => show (cfg1.win 4).index t (0 : Fin 2) * _ + 1 * 0 = 0; rw [e0]; omega
  | ⟨1, _⟩ => show (cfg1.win 4).index t (1 : Fin 2) * _ + 1 * q.val = q.val; rw [e1]; omega

/-- Entry `(p, q)` of the output block at point `t` is entry `(5000·t + p, q)` of the output array. -/
theorem blk1_5_emb (t : Fin cfg1.N) (p : Fin 5000) (q : Fin 256) (r : Fin 50000) (hr : r.val = 5000 * t.val + p.val) :
    (((cfg1.win 5).blk t).view.emb (ix2 p q) : S50000x256.Idx) = ix2 r q := by
  obtain ⟨-, -, -, -, -, -, -, -, -, -, e0, e1, -⟩ := idxf1 t
  funext a
  apply Fin.ext
  match a with
  | ⟨0, _⟩ => show (cfg1.win 5).index t (0 : Fin 2) * 5000 + 1 * p.val = r.val; omega
  | ⟨1, _⟩ => show (cfg1.win 5).index t (1 : Fin 2) * _ + 1 * q.val = q.val; rw [e1]; omega

/-- What point `t` writes back is block `t` of the layer of the five arrays: the payload at an entry is the layer's formula over
    the blocks' rows, and each block's row is the array's row the output entry names. -/
theorem flushed1_eq (c : Dev nD) (t : Fin cfg1.N) :
    (dat1 V c).flushed 5 t = ((cfg1.win 5).blk t).view.read (Elt Ideal) (final1_G V c) := by
  show (cfg1.win 5).cut (grid1.coords t) ((dat1 V c).after 5 t) = _
  rw [after1_5]
  unfold out1_5
  rw [View.canon_unit_zero hz1]
  simp only [View.ld_unit_zero (S := S5000x256) hz1, View.ld_unit_zero (S := S256x256) hz1, View.ld_unit_zero (S := S1x256) hz1]
  funext j
  obtain ⟨p, q, rfl⟩ : ∃ (p : Fin 5000) (q : Fin 256), j = ix2 p q := ⟨j 0, j 1, eq_ix2 (n0 := 5000) (n1 := 256) j⟩
  have hN : grid1.N = 10 := by decide
  have ht : t.val < 10 := hN ▸ t.isLt
  obtain ⟨r, hr⟩ : ∃ r : Fin 50000, r.val = 5000 * t.val + p.val := ⟨⟨5000 * t.val + p.val, by have := p.isLt; omega⟩, rfl⟩
  rw [View.read_apply]
  show k1_pay1 (iblk1 V c 0 t) (iblk1 V c 1 t) (iblk1 V c 2 t) (iblk1 V c 3 t) (iblk1 V c 4 t) (ix2 p q) = final1_G V c (((cfg1.win 5).blk t).view.emb (ix2 p q))
  rw [blk1_5_emb t p q r hr]
  refine (pay1_apply _ _ _ _ _ p q).trans ?_
  simp only [blk1_0_apply V c t p _ r hr, blk1_1_apply V c t p _ r hr, blk1_2_apply V c t, blk1_3_apply V c t, blk1_4_apply V c t]
  rfl

/-- An index of the output array is in point `t`'s block iff each coordinate is in the block's range on its axis. -/
theorem mem_blk1 (t : Fin cfg1.N) (i : S50000x256.Idx) :
    i ∈ ((cfg1.win 5).blk t).view.set ↔ ∀ a : Fin 2, (cfg1.win 5).index t a * S5000x256.size a ≤ (i a).val ∧ (i a).val < (cfg1.win 5).index t a * S5000x256.size a + S5000x256.size a := by
  show i ∈ ((View.whole (Pipeline.arrRef spec1 5)).slice ((cfg1.win 5).rect t)).set ↔ _
  rw [View.set_slice_whole, Rect.mem_set_unit]
  exact Iff.rfl

/-- Every row of the output array is in the block of the point its row number divided by 5000 names. -/
theorem cover_arr1 (i : S50000x256.Idx) : ∃ t : Fin cfg1.N, (cfg1.win 5).flush t = true ∧ i ∈ ((cfg1.win 5).blk t).view.set := by
  have hN : grid1.N = 10 := by decide
  have hi0 : (i 0).val < 50000 := (i 0).isLt
  have hi1 : (i 1).val < 256 := (i 1).isLt
  let t : Fin cfg1.N := ⟨(i 0).val / 5000, by show (i 0).val / 5000 < grid1.N; omega⟩
  have htv : t.val = (i 0).val / 5000 := rfl
  obtain ⟨-, -, -, -, -, -, -, -, -, -, e0, e1, ef⟩ := idxf1 t
  refine ⟨t, ef, ?_⟩
  rw [mem_blk1]
  intro a
  match a with
  | ⟨0, _⟩ => show (cfg1.win 5).index t (0 : Fin 2) * 5000 ≤ (i 0).val ∧ (i 0).val < (cfg1.win 5).index t (0 : Fin 2) * 5000 + 5000; omega
  | ⟨1, _⟩ => show (cfg1.win 5).index t (1 : Fin 2) * 256 ≤ (i 1).val ∧ (i 1).val < (cfg1.win 5).index t (1 : Fin 2) * 256 + 256; omega

/-- The output array after the region is the layer of the five arrays the region reads (the windows' arrays, in window order). -/
theorem final1_ref (c : Dev nD) : (dat1 V c).arrAt 5 cfg1.N = final1_G V c :=
  (dat1 V c).arrAt_eq_of_cover 5 (final1_G V c) (fun t _ => flushed1_eq V c t) cover_arr1

/-- The same with the five arrays by name. -/
theorem final1 (c : Dev nD) : ((dat1 V c).arrAt 5 cfg1.N : S50000x256.Idx → EReal)
    = Cert.Spec.layer256 true (V c main_v15) (V c main_v25) (V c main_arg6) (V c main_arg7)
        (fun q => (V c main_v26 : S1x256.Idx → EReal) (ix2 0 q)) :=
  final1_ref V c

end Cert.KernelIdeal.Hand

end
-- ==== Proof.KIValue2.lean ====
/-
  The third graph-convolution layer's dense half, its value at the ideal instance: a float is an extended real, the format
  changes are the identity and a matrix product is the textbook sum.

  Entry (p, q) of what the body stores is, of the five blocks it loads,
      Σ_k x0[p,k]·x2[k,q] + Σ_k x1[p,k]·x3[k,q] + x4[0,q]
  — the two products into the zero block, read through the contraction's one axis, and the bias row spread over the rows —
  with no clamp (the third layer has none).
  At grid point `t` the two row-blocked inputs hold rows 5000·t … 5000·t+4999 of their arrays, the weights and the bias row
  their arrays whole, and the output block is written back to rows 5000·t … of the output array; the ten blocks tile it.
  So the output array after the region is the layer of the specification applied to the five arrays the region reads.
-/
import proofs.«425379_j2551210574350_1_alg».proof.Proof.KIRegion2
import proofs.«425379_j2551210574350_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

/-! ## The contraction of the layer's two matrix products, axis by axis -/

theorem pay2_lhs_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem pay2_lhs_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem pay2_rhs_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem pay2_rhs_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The contraction's index is its one coordinate. -/
abbrev pay2_contr : dot_S5000x256_S256x256_S5000x256_1_0_0_1_n_n.contr.Idx ≃ Fin 256 :=
  ValueIdx.contrEquiv1 dot_S5000x256_S256x256_S5000x256_1_0_0_1_n_n _ rfl rfl

/-- A block product into the zero block, read at row `p`, column `q`: the sum over the shared axis. -/
theorem pay2_mm (l : S5000x256.Idx → EReal) (r : S256x256.Idx → EReal) (p : Fin 5000) (q : Fin 256) :
    (matmul (F := Ideal) (φ₁ := .bf16) (φ₂ := .bf16) dot_S5000x256_S256x256_S5000x256_1_0_0_1_n_n none l r (constant S5000x256 .f32 0x00000000#32) : S5000x256.Idx → EReal) (ix2 p q)
      = ∑ k : Fin 256, l (ix2 p k) * r (ix2 k q) := by
  simp only [matmul]
  rw [Ideal.matmul_constant_zero_apply, ← Equiv.sum_comp pay2_contr.symm]
  refine Finset.sum_congr rfl fun k _ => ?_
  have hk := ValueIdx.contrEquiv1_symm_val dot_S5000x256_S256x256_S5000x256_1_0_0_1_n_n _ rfl rfl k
  have el : dot_S5000x256_S256x256_S5000x256_1_0_0_1_n_n.lhsIdx (ix2 p q) (pay2_contr.symm k) = ix2 p k := funext fun a => Fin.ext (by
    match a with
    | ⟨0, _⟩ => exact pay2_lhs_0 _ _
    | ⟨1, _⟩ => exact (pay2_lhs_1 _ _).trans hk)
  have er : dot_S5000x256_S256x256_S5000x256_1_0_0_1_n_n.rhsIdx (ix2 p q) (pay2_contr.symm k) = ix2 k q := funext fun a => Fin.ext (by
    match a with
    | ⟨0, _⟩ => exact (pay2_rhs_0 _ _).trans hk
    | ⟨1, _⟩ => exact pay2_rhs_1 _ _)
  rw [el, er]

/-- The bias row spread over the block's rows, read at row `p`, column `q`. -/
theorem pay2_bias (b : S1x256.Idx → EReal) (p : Fin 5000) (q : Fin 256) :
    broadcastTo S5000x256 b broadcasts_S1x256_S5000x256 (ix2 p q) = b (ix2 0 q) := by
  refine broadcastTo_apply b broadcasts_S1x256_S5000x256 (ix2 p q) (ix2 0 q) fun a => ?_
  match a with
  | ⟨0, _⟩ => rfl
  | ⟨1, _⟩ => rfl

/-! ## The payload at an entry -/

/-- Entry `(p, q)` of what the body stores, from the five blocks it loads. -/
theorem pay2_apply (x0 x1 : Vec Ideal S5000x256 .f32) (x2 x3 : Vec Ideal S256x256 .f32) (x4 : Vec Ideal S1x256 .f32) (p : Fin 5000) (q : Fin 256) :
    k2_pay1 x0 x1 x2 x3 x4 (ix2 p q)
      = (∑ k : Fin 256, x0 (ix2 p k) * x2 (ix2 k q)) + (∑ k : Fin 256, x1 (ix2 p k) * x3 (ix2 k q)) + x4 (ix2 0 q) := by
  unfold k2_pay1
  simp only [shapeCast_self, maximumf_apply, addf_apply, broadcast_apply]
  rw [pay2_mm, pay2_mm, pay2_bias]
  simp only [truncf_apply]

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl

/-- The layer applied to the five arrays as the region finds them. -/
abbrev final2_G (c : Dev nD) : S50000x256.Idx → EReal :=
  Cert.Spec.layer256 false (V c (Pipeline.arrRef spec2 0)) (V c (Pipeline.arrRef spec2 1)) (V c (Pipeline.arrRef spec2 2)) (V c (Pipeline.arrRef spec2 3))
    (fun q => (V c (Pipeline.arrRef spec2 4) : S1x256.Idx → EReal) (ix2 0 q))

/-- The index maps over the grid: at point `t` the two row-blocked inputs and the output sit at block row `t`, block column 0;
    the weights and the bias are their arrays whole; the output is written back at every point. -/
theorem idxf2 : ∀ t : Fin cfg2.N,
    (cfg2.win 0).index t (0 : Fin 2) = t.val ∧ (cfg2.win 0).index t (1 : Fin 2) = 0
    ∧ (cfg2.win 1).index t (0 : Fin 2) = t.val ∧ (cfg2.win 1).index t (1 : Fin 2) = 0
    ∧ (cfg2.win 2).index t (0 : Fin 2) = 0 ∧ (cfg2.win 2).index t (1 : Fin 2) = 0
    ∧ (cfg2.win 3).index t (0 : Fin 2) = 0 ∧ (cfg2.win 3).index t (1 : Fin 2) = 0
    ∧ (cfg2.win 4).index t (0 : Fin 2) = 0 ∧ (cfg2.win 4).index t (1 : Fin 2) = 0
    ∧ (cfg2.win 5).index t (0 : Fin 2) = t.val ∧ (cfg2.win 5).index t (1 : Fin 2) = 0
    ∧ (cfg2.win 5).flush t = true :=
  (by decide +kernel : ∀ t : Fin grid2.N, _)

/-- Row `p` of the feature block at point `t` is row `5000·t + p` of the feature array. -/
theorem blk2_0_apply (c : Dev nD) (t : Fin cfg2.N) (p : Fin 5000) (k : Fin 256) (r : Fin 50000) (hr : r.val = 5000 * t.val + p.val) :
    (iblk2 V c 0 t : S5000x256.Idx → EReal) (ix2 p k) = (V c (Pipeline.arrRef spec2 0) : Cert.Spec.A2 50000 256) (ix2 r k) := by
  obtain ⟨e0, e1, -⟩ := idxf2 t
  unfold iblk2
  rw [View.read_apply]
  show (V c (Pipeline.arrRef spec2 0) : Cert.Spec.A2 50000 256) _ = _
  congr 1
  funext a
  apply Fin.ext
  match a with
  | ⟨0, _⟩ => show (cfg2.win 0).index t (0 : Fin 2) * 5000 + 1 * p.val = r.val; omega
  | ⟨1, _⟩ => show (cfg2.win 0).index t (1 : Fin 2) * _ + 1 * k.val = k.val; rw [e1]; omega

/-- Row `p` of the neighbour-sum block at point `t` is row `5000·t + p` of the neighbour-sum array. -/
theorem blk2_1_apply (c : Dev nD) (t : Fin cfg2.N) (p : Fin 5000) (k : Fin 256) (r : Fin 50000) (hr : r.val = 5000 * t.val + p.val) :
    (iblk2 V c 1 t : S5000x256.Idx → EReal) (ix2 p k) = (V c (Pipeline.arrRef spec2 1) : Cert.Spec.A2 50000 256) (ix2 r k) := by
  obtain ⟨-, -, e0, e1, -⟩ := idxf2 t
  unfold iblk2
  rw [View.read_apply]
  show (V c (Pipeline.arrRef spec2 1) : Cert.Spec.A2 50000 256) _ = _
  congr 1
  funext a
  apply Fin.ext
  match a with
  | ⟨0, _⟩ => show (cfg2.win 1).index t (0 : Fin 2) * 5000 + 1 * p.val = r.val; omega
  | ⟨1, _⟩ => show (cfg2.win 1).index t (1 : Fin 2) * _ + 1 * k.val = k.val; rw [e1]; omega

/-- The first weight block is the first weight matrix, at every point. -/
theorem blk2_2_apply (c : Dev nD) (t : Fin cfg2.N) (k : Fin 256) (q : Fin 256) :
    (iblk2 V c 2 t : S256x256.Idx → EReal) (ix2 k q) = (V c (Pipeline.arrRef spec2 2) : Cert.Spec.A2 256 256) (ix2 k q) := by
  obtain ⟨-, -, -, -, e0, e1, -⟩ := idxf2 t
  unfold iblk2
  rw [View.read_apply]
  show (V c (Pipeline.arrRef spec2 2) : Cert.Spec.A2 256 256) _ = _
  congr 1
  funext a
  apply Fin.ext
  match a with
  | ⟨0, _⟩ => show (cfg2.win 2).index t (0 : Fin 2) * _ + 1 * k.val = k.val; rw [e0]; omega
  | ⟨1, _⟩ => show (cfg2.win 2).index t (1 : Fin 2) * _ + 1 * q.val = q.val; rw [e1]; omega

/-- The second weight block is the second weight matrix, at every point. -/
theorem blk2_3_apply (c : Dev nD) (t : Fin cfg2.N) (k : Fin 256) (q : Fin 256) :
    (iblk2 V c 3 t : S256x256.Idx → EReal) (ix2 k q) = (V c (Pipeline.arrRef spec2 3) : Cert.Spec.A2 256 256) (ix2 k q) := by
  obtain ⟨-, -, -, -, -, -, e0, e1, -⟩ := idxf2 t
  unfold iblk2
  rw [View.read_apply]
  show (V c (Pipeline.arrRef spec2 3) : Cert.Spec.A2 256 256) _ = _
  congr 1
  funext a
  apply Fin.ext
  match a with
  | ⟨0, _⟩ => show (cfg2.win 3).index t (0 : Fin 2) * _ + 1 * k.val = k.val; rw [e0]; omega
  | ⟨1, _⟩ => show (cfg2.win 3).index t (1 : Fin 2) * _ + 1 * q.val = q.val; rw [e1]; omega

/-- The bias block is the bias row, at every point. -/
theorem blk2_4_apply (c : Dev nD) (t : Fin cfg2.N) (q : Fin 256) :
    (iblk2 V c 4 t : S1x256.Idx → EReal) (ix2 0 q) = (V c (Pipeline.arrRef spec2 4) : S1x256.Idx → EReal) (ix2 0 q) := by
  obtain ⟨-, -, -, -, -, -, -, -, e0, e1, -⟩ := idxf2 t
  unfold iblk2
  rw [View.read_apply]
  show (V c (Pipeline.arrRef spec2 4) : S1x256.Idx → EReal) _ = _
  congr 1
  funext a
  apply Fin.ext
  match a with
  | ⟨0, _⟩ => show (cfg2.win 4).index t (0 : Fin 2) * _ + 1 * 0 = 0; rw [e0]; omega
  | ⟨1, _⟩ => show (cfg2.win 4).index t (1 : Fin 2) * _ + 1 * q.val = q.val; rw [e1]; omega

/-- Entry `(p, q)` of the output block at point `t` is entry `(5000·t + p, q)` of the output array. -/
theorem blk2_5_emb (t : Fin cfg2.N) (p : Fin 5000) (q : Fin 256) (r : Fin 50000) (hr : r.val = 5000 * t.val + p.val) :
    (((cfg2.win 5).blk t).view.emb (ix2 p q) : S50000x256.Idx) = ix2 r q := by
  obtain ⟨-, -, -, -, -, -, -, -, -, -, e0, e1, -⟩ := idxf2 t
  funext a
  apply Fin.ext
  match a with
  | ⟨0, _⟩ => show (cfg2.win 5).index t (0 : Fin 2) * 5000 + 1 * p.val = r.val; omega
  | ⟨1, _⟩ => show (cfg2.win 5).index t (1 : Fin 2) * _ + 1 * q.val = q.val; rw [e1]; omega

/-- What point `t` writes back is block `t` of the layer of the five arrays: the payload at an entry is the layer's formula over
    the blocks' rows, and each block's row is the array's row the output entry names. -/
theorem flushed2_eq (c : Dev nD) (t : Fin cfg2.N) :
    (dat2 V c).flushed 5 t = ((cfg2.win 5).blk t).view.read (Elt Ideal) (final2_G V c) := by
  show (cfg2.win 5).cut (grid2.coords t) ((dat2 V c).after 5 t) = _
  rw [after2_5]
  unfold out2_5
  rw [View.canon_unit_zero hz2]
  simp only [View.ld_unit_zero (S := S5000x256) hz2, View.ld_unit_zero (S := S256x256) hz2, View.ld_unit_zero (S := S1x256) hz2]
  funext j
  obtain ⟨p, q, rfl⟩ : ∃ (p : Fin 5000) (q : Fin 256), j = ix2 p q := ⟨j 0, j 1, eq_ix2 (n0 := 5000) (n1 := 256) j⟩
  have hN : grid2.N = 10 := by decide
  have ht : t.val < 10 := hN ▸ t.isLt
  obtain ⟨r, hr⟩ : ∃ r : Fin 50000, r.val = 5000 * t.val + p.val := ⟨⟨5000 * t.val + p.val, by have := p.isLt; omega⟩, rfl⟩
  rw [View.read_apply]
  show k2_pay1 (iblk2 V c 0 t) (iblk2 V c 1 t) (iblk2 V c 2 t) (iblk2 V c 3 t) (iblk2 V c 4 t) (ix2 p q) = final2_G V c (((cfg2.win 5).blk t).view.emb (ix2 p q))
  rw [blk2_5_emb t p q r hr]
  refine (pay2_apply _ _ _ _ _ p q).trans ?_
  simp only [blk2_0_apply V c t p _ r hr, blk2_1_apply V c t p _ r hr, blk2_2_apply V c t, blk2_3_apply V c t, blk2_4_apply V c t]
  rfl

/-- An index of the output array is in point `t`'s block iff each coordinate is in the block's range on its axis. -/
theorem mem_blk2 (t : Fin cfg2.N) (i : S50000x256.Idx) :
    i ∈ ((cfg2.win 5).blk t).view.set ↔ ∀ a : Fin 2, (cfg2.win 5).index t a * S5000x256.size a ≤ (i a).val ∧ (i a).val < (cfg2.win 5).index t a * S5000x256.size a + S5000x256.size a := by
  show i ∈ ((View.whole (Pipeline.arrRef spec2 5)).slice ((cfg2.win 5).rect t)).set ↔ _
  rw [View.set_slice_whole, Rect.mem_set_unit]
  exact Iff.rfl

/-- Every row of the output array is in the block of the point its row number divided by 5000 names. -/
theorem cover_arr2 (i : S50000x256.Idx) : ∃ t : Fin cfg2.N, (cfg2.win 5).flush t = true ∧ i ∈ ((cfg2.win 5).blk t).view.set := by
  have hN : grid2.N = 10 := by decide
  have hi0 : (i 0).val < 50000 := (i 0).isLt
  have hi1 : (i 1).val < 256 := (i 1).isLt
  let t : Fin cfg2.N := ⟨(i 0).val / 5000, by show (i 0).val / 5000 < grid2.N; omega⟩
  have htv : t.val = (i 0).val / 5000 := rfl
  obtain ⟨-, -, -, -, -, -, -, -, -, -, e0, e1, ef⟩ := idxf2 t
  refine ⟨t, ef, ?_⟩
  rw [mem_blk2]
  intro a
  match a with
  | ⟨0, _⟩ => show (cfg2.win 5).index t (0 : Fin 2) * 5000 ≤ (i 0).val ∧ (i 0).val < (cfg2.win 5).index t (0 : Fin 2) * 5000 + 5000; omega
  | ⟨1, _⟩ => show (cfg2.win 5).index t (1 : Fin 2) * 256 ≤ (i 1).val ∧ (i 1).val < (cfg2.win 5).index t (1 : Fin 2) * 256 + 256; omega

/-- The output array after the region is the layer of the five arrays the region reads (the windows' arrays, in window order). -/
theorem final2_ref (c : Dev nD) : (dat2 V c).arrAt 5 cfg2.N = final2_G V c :=
  (dat2 V c).arrAt_eq_of_cover 5 (final2_G V c) (fun t _ => flushed2_eq V c t) cover_arr2

/-- The same with the five arrays by name. -/
theorem final2 (c : Dev nD) : ((dat2 V c).arrAt 5 cfg2.N : S50000x256.Idx → EReal)
    = Cert.Spec.layer256 false (V c main_v27) (V c main_v37) (V c main_arg9) (V c main_arg10)
        (fun q => (V c main_v38 : S1x256.Idx → EReal) (ix2 0 q)) :=
  final2_ref V c

end Cert.KernelIdeal.Hand

end
-- ==== Proof.KIValue3.lean ====
/-
  The value of the pooling region at the ideal values.

  One grid point adds to the running per-graph sums, at entry (g, q), the sum over the point's 5000 rows r of the row's
  entry at column q when the row's graph id is the word of g, and nothing otherwise: the product with the one-hot matrix
  contracts the row axis of both operands, and a factor 1 or 0 of an extended real keeps or kills the other factor.
  Summed over the ten points this is the per-graph sum over all 50000 rows. The last point's output block at (g, o) is
  the sum over k of (sums g k · factor g) · weight (k, o), plus the bias at o.
-/
import proofs.«425379_j2551210574350_1_alg».proof.Proof.KIRegion3Defs
import proofs.«425379_j2551210574350_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx
open Idealize.ShloMosaic.Pipeline (Dat Cfg Window)

/-! ## The one-hot factor -/

/-- A one-bit word widened and converted is the real 1 or 0. -/
theorem onehot_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  rw [toInt_setWidth_bit]
  by_cases h : a = b
  · rw [if_pos h]
    have : IntOp.cmpi .eq a b = 1#1 := by simp [IntOp.cmpi, h]
    rw [this]; norm_num
  · rw [if_neg h]
    have hb : (a == b) = false := beq_eq_false_iff_ne.mpr h
    have : IntOp.cmpi .eq a b = 0#1 := by
      show BitVec.ofBool (a == b) = 0#1
      rw [hb]; rfl
    rw [this]; norm_num

/-- The one-hot matrix at (r, g): 1 when row r's graph id is the word of g. -/
theorem onehot_apply (x1 : Vec Ideal S5000x1 .i32) (r : Fin 5000) (g : Fin 64) :
    (sitofp .f32 (extui 32 (cmpi .eq (broadcastTo S5000x64 (shapeCast S5000x1 x1 shapeCasts_S5000x1_S5000x1) broadcasts_S5000x1_S5000x64)
        (iota .tc S5000x64 32 [1] iota_S5000x64_d1_w32)) natLt_1_32) : FVec Ideal S5000x64 .f32) (ix2 r g)
      = if x1 (ix2 r 0) = BitVec.ofNat 32 g.val then 1 else 0 := by
  rw [shapeCast_self]
  have hb : broadcastTo S5000x64 x1 broadcasts_S5000x1_S5000x64 (ix2 r g) = x1 (ix2 r 0) :=
    broadcastTo_apply x1 broadcasts_S5000x1_S5000x64 (ix2 r g) (ix2 r 0) (fun a => by
      match a with
      | ⟨0, _⟩ => show r.val = if (5000 : Nat) = 1 then 0 else r.val; rw [if_neg (by decide)]
      | ⟨1, _⟩ => show (0 : Nat) = if (1 : Nat) = 1 then 0 else g.val; rw [if_pos rfl])
  have hi : iota .tc S5000x64 32 [1] iota_S5000x64_d1_w32 (ix2 r g) = BitVec.ofNat 32 g.val :=
    iota_single_apply .tc S5000x64 32 1 iota_S5000x64_d1_w32 (ix2 r g)
  show FloatOps.sitofp (F := Ideal) .f32 ((IntOp.cmpi .eq (broadcastTo S5000x64 x1 broadcasts_S5000x1_S5000x64 (ix2 r g))
      (iota .tc S5000x64 32 [1] iota_S5000x64_d1_w32 (ix2 r g))).setWidth 32) = _
  rw [hb, hi]
  exact onehot_word _ _

/-- A factor 1 or 0 keeps or kills the other factor, for every extended real. -/
theorem ite_one_zero_mul (c : Prop) [Decidable c] (y : EReal) : (if c then (1 : EReal) else 0) * y = if c then y else 0 := by
  by_cases h : c
  · rw [if_pos h, if_pos h, one_mul]
  · rw [if_neg h, if_neg h, zero_mul]

/-! ## The two matrix products at an index -/

theorem lhs_pool_0 (i : S64x256.Idx) (q : dot_S5000x64_S5000x256_S64x256_0_0_1_1_n_n.contr.Idx) :
    (dot_S5000x64_S5000x256_S64x256_0_0_1_1_n_n.lhsIdx i q 0).val = (q ⟨0, by decide⟩).val :=
  dot_S5000x64_S5000x256_S64x256_0_0_1_1_n_n.lhsIdx_val_of_single rfl i q
theorem lhs_pool_1 (i : S64x256.Idx) (q : dot_S5000x64_S5000x256_S64x256_0_0_1_1_n_n.contr.Idx) :
    (dot_S5000x64_S5000x256_S64x256_0_0_1_1_n_n.lhsIdx i q 1).val = (i 0).val := by
  unfold DotDims.lhsIdx
  rw [dif_neg (show ¬(1 : Fin S5000x64.rank) ∈ dot_S5000x64_S5000x256_S64x256_0_0_1_1_n_n.lhsBatch by decide), dif_pos (show (1 : Fin S5000x64.rank) ∈ dot_S5000x64_S5000x256_S64x256_0_0_1_1_n_n.lhsNonContracting by decide)]
  rfl
theorem rhs_pool_0 (i : S64x256.Idx) (q : dot_S5000x64_S5000x256_S64x256_0_0_1_1_n_n.contr.Idx) :
    (dot_S5000x64_S5000x256_S64x256_0_0_1_1_n_n.rhsIdx i q 0).val = (q ⟨0, by decide⟩).val :=
  dot_S5000x64_S5000x256_S64x256_0_0_1_1_n_n.rhsIdx_val_of_single rfl i q
theorem rhs_pool_1 (i : S64x256.Idx) (q : dot_S5000x64_S5000x256_S64x256_0_0_1_1_n_n.contr.Idx) :
    (dot_S5000x64_S5000x256_S64x256_0_0_1_1_n_n.rhsIdx i q 1).val = (i 1).val := by
  unfold DotDims.rhsIdx
  rw [dif_neg (show ¬(1 : Fin S5000x256.rank) ∈ dot_S5000x64_S5000x256_S64x256_0_0_1_1_n_n.rhsBatch by decide), dif_pos (show (1 : Fin S5000x256.rank) ∈ dot_S5000x64_S5000x256_S64x256_0_0_1_1_n_n.rhsNonContracting by decide)]
  rfl

/-- The product that contracts the ROW axis of both operands: entry (g, q) sums l (r, g) · x (r, q) over the rows r. -/
theorem matmul_pool_apply (l : FVec Ideal S5000x64 .f32) (x : FVec Ideal S5000x256 .f32) (g : Fin 64) (q : Fin 256) :
    (matmul dot_S5000x64_S5000x256_S64x256_0_0_1_1_n_n none l x (constant S64x256 .f32 0x00000000#32) : FVec Ideal S64x256 .f32) (ix2 g q)
      = ∑ r : Fin 5000, l (ix2 r g) * x (ix2 r q) := by
  refine (Ideal.matmul_constant_zero_apply dot_S5000x64_S5000x256_S64x256_0_0_1_1_n_n none l x (ix2 g q)).trans ?_
  rw [← Equiv.sum_comp (contrEquiv1 dot_S5000x64_S5000x256_S64x256_0_0_1_1_n_n 5000 rfl rfl).symm]
  refine Finset.sum_congr rfl fun k _ => ?_
  have hk := contrEquiv1_symm_val dot_S5000x64_S5000x256_S64x256_0_0_1_1_n_n 5000 rfl rfl k
  have el : dot_S5000x64_S5000x256_S64x256_0_0_1_1_n_n.lhsIdx (ix2 g q) ((contrEquiv1 dot_S5000x64_S5000x256_S64x256_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x64_S5000x256_S64x256_0_0_1_1_n_n.rhsIdx (ix2 g q) ((contrEquiv1 dot_S5000x64_S5000x256_S64x256_0_0_1_1_n_n 5000 rfl rfl).symm k) = ix2 k q := funext fun a => Fin.ext (by
    match a with
    | ⟨0, _⟩ => exact (rhs_pool_0 _ _).trans hk
    | ⟨1, _⟩ => exact rhs_pool_1 _ _)
  rw [el, er]

theorem lhs_head_0 (i : S64x10.Idx) (q : dot_S64x256_S256x10_S64x10_1_0_0_1_n_n.contr.Idx) :
    (dot_S64x256_S256x10_S64x10_1_0_0_1_n_n.lhsIdx i q 0).val = (i 0).val := by
  unfold DotDims.lhsIdx
  rw [dif_neg (show ¬(0 : Fin S64x256.rank) ∈ dot_S64x256_S256x10_S64x10_1_0_0_1_n_n.lhsBatch by decide), dif_pos (show (0 : Fin S64x256.rank) ∈ dot_S64x256_S256x10_S64x10_1_0_0_1_n_n.lhsNonContracting by decide)]
  rfl
theorem lhs_head_1 (i : S64x10.Idx) (q : dot_S64x256_S256x10_S64x10_1_0_0_1_n_n.contr.Idx) :
    (dot_S64x256_S256x10_S64x10_1_0_0_1_n_n.lhsIdx i q 1).val = (q ⟨0, by decide⟩).val :=
  dot_S64x256_S256x10_S64x10_1_0_0_1_n_n.lhsIdx_val_of_single rfl i q
theorem rhs_head_0 (i : S64x10.Idx) (q : dot_S64x256_S256x10_S64x10_1_0_0_1_n_n.contr.Idx) :
    (dot_S64x256_S256x10_S64x10_1_0_0_1_n_n.rhsIdx i q 0).val = (q ⟨0, by decide⟩).val :=
  dot_S64x256_S256x10_S64x10_1_0_0_1_n_n.rhsIdx_val_of_single rfl i q
theorem rhs_head_1 (i : S64x10.Idx) (q : dot_S64x256_S256x10_S64x10_1_0_0_1_n_n.contr.Idx) :
    (dot_S64x256_S256x10_S64x10_1_0_0_1_n_n.rhsIdx i q 1).val = (i 1).val := by
  unfold DotDims.rhsIdx
  rw [dif_neg (show ¬(1 : Fin S256x10.rank) ∈ dot_S64x256_S256x10_S64x10_1_0_0_1_n_n.rhsBatch by decide), dif_pos (show (1 : Fin S256x10.rank) ∈ dot_S64x256_S256x10_S64x10_1_0_0_1_n_n.rhsNonContracting by decide)]
  rfl

/-- The head's product: entry (g, o) sums l (g, k) · w (k, o) over k. -/
theorem matmul_head_apply (l : FVec Ideal S64x256 .f32) (w : FVec Ideal S256x10 .f32) (g : Fin 64) (o : Fin 10) :
    (matmul dot_S64x256_S256x10_S64x10_1_0_0_1_n_n none l w (constant S64x10 .f32 0x00000000#32) : FVec Ideal S64x10 .f32) (ix2 g o)
      = ∑ k : Fin 256, l (ix2 g k) * w (ix2 k o) := by
  refine (Ideal.matmul_constant_zero_apply dot_S64x256_S256x10_S64x10_1_0_0_1_n_n none l w (ix2 g o)).trans ?_
  rw [← Equiv.sum_comp (contrEquiv1 dot_S64x256_S256x10_S64x10_1_0_0_1_n_n 256 rfl rfl).symm]
  refine Finset.sum_congr rfl fun k _ => ?_
  have hk := contrEquiv1_symm_val dot_S64x256_S256x10_S64x10_1_0_0_1_n_n 256 rfl rfl k
  have el : dot_S64x256_S256x10_S64x10_1_0_0_1_n_n.lhsIdx (ix2 g o) ((contrEquiv1 dot_S64x256_S256x10_S64x10_1_0_0_1_n_n 256 rfl rfl).symm k) = ix2 g k := funext fun a => Fin.ext (by
    match a with
    | ⟨0, _⟩ => exact lhs_head_0 _ _
    | ⟨1, _⟩ => exact (lhs_head_1 _ _).trans hk)
  have er : dot_S64x256_S256x10_S64x10_1_0_0_1_n_n.rhsIdx (ix2 g o) ((contrEquiv1 dot_S64x256_S256x10_S64x10_1_0_0_1_n_n 256 rfl rfl).symm k) = ix2 k o := funext fun a => Fin.ext (by
    match a with
    | ⟨0, _⟩ => exact (rhs_head_0 _ _).trans hk
    | ⟨1, _⟩ => exact rhs_head_1 _ _)
  rw [el, er]

/-! ## The payloads at an index -/

/-- The zero block. -/
theorem pool_pay1_apply (j : S64x256.Idx) : (k3_pay1 (F := Ideal)) j = 0 := by
  unfold k3_pay1
  rw [shapeCast_self]
  exact Ideal.ofBits_zero_f32

/-- One point's update at (g, q): the sums so far plus the rows of this block that belong to graph g. -/
theorem pool_pay2_apply (x0 : Vec Ideal S5000x256 .f32) (x1 : Vec Ideal S5000x1 .i32) (s : Vec Ideal S64x256 .f32) (g : Fin 64) (q : Fin 256) :
    k3_pay2 x0 x1 s (ix2 g q)
      = s (ix2 g q) + ∑ r : Fin 5000, (if x1 (ix2 r 0) = BitVec.ofNat 32 g.val then x0 (ix2 r q) else 0) := by
  unfold k3_pay2
  rw [shapeCast_self, shapeCast_self (s := S5000x256)]
  refine (addf_apply _ _ _).trans ?_
  refine congrArg (s (ix2 g q) + ·) ?_
  refine (matmul_pool_apply _ x0 g q).trans ?_
  refine Finset.sum_congr rfl fun r _ => ?_
  rw [onehot_apply x1 r g]
  exact ite_one_zero_mul _ _

/-- The head at (g, o). -/
theorem pool_pay3_apply (S : Vec Ideal S64x256 .f32) (x2 : Vec Ideal S64x1 .f32) (x3 : Vec Ideal S256x10 .f32) (x4 : Vec Ideal S1x10 .f32)
    (g : Fin 64) (o : Fin 10) :
    k3_pay3 S x2 x3 x4 (ix2 g o) = (∑ k : Fin 256, (S (ix2 g k) * x2 (ix2 g 0)) * x3 (ix2 k o)) + x4 (ix2 0 o) := by
  unfold k3_pay3
  rw [shapeCast_self (s := S64x1), shapeCast_self (s := S1x10)]
  refine (addf_apply _ _ _).trans ?_
  have hb : broadcastTo S64x10 x4 broadcasts_S1x10_S64x10 (ix2 g o) = x4 (ix2 0 o) :=
    broadcastTo_apply x4 broadcasts_S1x10_S64x10 (ix2 g o) (ix2 0 o) (fun a => by
      match a with
      | ⟨0, _⟩ => show (0 : Nat) = if (1 : Nat) = 1 then 0 else g.val; rw [if_pos rfl]
      | ⟨1, _⟩ => show o.val = if (10 : Nat) = 1 then 0 else o.val; rw [if_neg (by decide)])
  rw [hb]
  refine congrArg (· + x4 (ix2 0 o)) ?_
  refine (matmul_head_apply _ x3 g o).trans ?_
  refine Finset.sum_congr rfl fun k _ => ?_
  refine congrArg (· * x3 (ix2 k o)) ?_
  refine (mulf_apply _ _ _).trans ?_
  refine congrArg (S (ix2 g k) * ·) ?_
  exact broadcastTo_apply x2 broadcasts_S64x1_S64x256 (ix2 g k) (ix2 g 0) (fun a => by
      match a with
      | ⟨0, _⟩ => show g.val = if (64 : Nat) = 1 then 0 else g.val; rw [if_neg (by decide)]
      | ⟨1, _⟩ => show (0 : Nat) = if (1 : Nat) = 1 then 0 else k.val; rw [if_pos rfl])

/-! ## The running sums -/

/-- The rows of one block that belong to graph g, at column q. -/
def rowsum (x0 : Vec Ideal S5000x256 .f32) (x1 : Vec Ideal S5000x1 .i32) (g : Fin 64) (q : Fin 256) : EReal :=
  ∑ r : Fin 5000, if x1 (ix2 r 0) = BitVec.ofNat 32 g.val then x0 (ix2 r q) else 0

variable (V : (c : Dev nD) → (b : Ref sig .tc) → Buf (Elt Ideal) ((c : Thread nD τ).loc b)) (c : Dev nD)

/-- After point n the scratch holds, at (g, q), the sum over the points 0 … n of their blocks' rows of graph g. -/
theorem acc3_apply (g : Fin 64) (q : Fin 256) : ∀ (n : ℕ) (h : n < cfg3.N),
    acc3 V c n h (ix2 g q)
      = ∑ t : Fin (n + 1), rowsum (iblk3 V c 0 ⟨t.val, by have := t.isLt; omega⟩) (iblk3 V c 1 ⟨t.val, by have := t.isLt; omega⟩) g q
  | 0, h => by
    show k3_pay2 (iblk3 V c 0 ⟨0, h⟩) (iblk3 V c 1 ⟨0, h⟩) (k3_pay1 (F := Ideal)) (ix2 g q) = _
    refine (pool_pay2_apply (iblk3 V c 0 ⟨0, h⟩) (iblk3 V c 1 ⟨0, h⟩) (k3_pay1 (F := Ideal)) g q).trans ?_
    rw [pool_pay1_apply, zero_add, Fin.sum_univ_one]
    rfl
  | n + 1, h => by
    show k3_pay2 (iblk3 V c 0 ⟨n + 1, h⟩) (iblk3 V c 1 ⟨n + 1, h⟩) (acc3 V c n (Nat.lt_of_succ_lt h)) (ix2 g q) = _
    refine (pool_pay2_apply (iblk3 V c 0 ⟨n + 1, h⟩) (iblk3 V c 1 ⟨n + 1, h⟩) (acc3 V c n (Nat.lt_of_succ_lt h)) g q).trans ?_
    refine Eq.trans ?_ (Fin.sum_univ_castSucc (n := n + 1) _).symm
    rw [acc3_apply g q n (Nat.lt_of_succ_lt h)]
    rfl

/-! ## From blocks to the arrays -/

/-- The printed index maps over the grid: the feature and id windows move one block of rows per point; the other
    windows sit on their one block. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Row r of point t's feature block is row 5000·t + r of the array. -/
theorem iblk3_0_apply (t : Fin cfg3.N) (r : Fin 5000) (q : Fin 256) (hr : r.val + 5000 * t.val < 50000) :
    (iblk3 V c 0 t : Vec Ideal S5000x256 .f32) (ix2 r q)
      = (V c main_v39 : S50000x256.Idx → EReal) (ix2 ⟨r.val + 5000 * t.val, hr⟩ q) := by
  unfold iblk3
  rw [View.read_apply]
  show (V c main_v39 : S50000x256.Idx → EReal) _ = (V c main_v39 : S50000x256.Idx → EReal) _
  congr 1
  funext a
  apply Fin.ext
  obtain ⟨e0, e1, -⟩ := idx3 t
  match a with
  | ⟨0, _⟩ => show win3_0.index t (0 : Fin 2) * 5000 + 1 * r.val = r.val + 5000 * t.val; rw [e0]; omega
  | ⟨1, _⟩ => show win3_0.index t (1 : Fin 2) * 256 + 1 * q.val = q.val; rw [e1]; omega

/-- Row r of point t's id block is row 5000·t + r of the id column. -/
theorem iblk3_1_apply (t : Fin cfg3.N) (r : Fin 5000) (hr : r.val + 5000 * t.val < 50000) :
    (iblk3 V c 1 t : Vec Ideal S5000x1 .i32) (ix2 r 0)
      = (V c main_v49 : S50000x1.Idx → BitVec 32) (ix2 ⟨r.val + 5000 * t.val, hr⟩ 0) := by
  unfold iblk3
  rw [View.read_apply]
  show (V c main_v49 : S50000x1.Idx → BitVec 32) _ = (V c main_v49 : S50000x1.Idx → BitVec 32) _
  congr 1
  funext a
  apply Fin.ext
  obtain ⟨-, -, e0, e1, -⟩ := idx3 t
  match a with
  | ⟨0, _⟩ => show win3_1.index t (0 : Fin 2) * 5000 + 1 * r.val = r.val + 5000 * t.val; rw [e0]; omega
  | ⟨1, _⟩ => show win3_1.index t (1 : Fin 2) * 1 + 1 * 0 = 0; rw [e1]

/-- A sum over the 50000 rows is the sum over the ten points of the sums over each point's 5000 rows. -/
theorem sum_rows (f : Fin 50000 → EReal) :
    ∑ r : Fin 50000, f r = ∑ t : Fin 10, ∑ r : Fin 5000, f ⟨r.val + 5000 * t.val, by have := r.isLt; have := t.isLt; omega⟩ := by
  rw [← Equiv.sum_comp (finProdFinEquiv : Fin 10 × Fin 5000 ≃ Fin 50000) f, Fintype.sum_prod_type]
  rfl

/-- After the last point the scratch holds the per-graph sums over all the rows. -/
theorem acc3_last (h : 9 < cfg3.N) (g : Fin 64) (q : Fin 256) :
    acc3 V c 9 h (ix2 g q)
      = Cert.Spec.poolC (V c main_v39) (fun r => (V c main_v49 : S50000x1.Idx → BitVec 32) (ix2 r 0)) g q := by
  refine (acc3_apply V c g q 9 h).trans ?_
  unfold Cert.Spec.poolC
  rw [sum_rows]
  show ∑ t : Fin 10, _ = ∑ t : Fin 10, _
  refine Finset.sum_congr rfl fun t _ => ?_
  unfold rowsum
  refine Finset.sum_congr rfl fun r _ => ?_
  have hr : r.val + 5000 * t.val < 50000 := by have := r.isLt; have := t.isLt; omega
  have ht : t.val < cfg3.N := by have := t.isLt; omega
  rw [iblk3_0_apply V c ⟨t.val, ht⟩ r q hr, iblk3_1_apply V c ⟨t.val, ht⟩ r hr]

/-- The factor block is the factor column, at every point. -/
theorem iblk3_2_apply (t : Fin cfg3.N) (g : Fin 64) :
    (iblk3 V c 2 t : Vec Ideal S64x1 .f32) (ix2 g 0) = (V c main_v48 : S64x1.Idx → EReal) (ix2 g 0) := by
  unfold iblk3
  rw [View.read_apply]
  show (V c main_v48 : S64x1.Idx → EReal) _ = (V c main_v48 : S64x1.Idx → EReal) _
  congr 1
  funext a
  apply Fin.ext
  obtain ⟨-, -, -, -, e0, e1, -⟩ := idx3 t
  match a with
  | ⟨0, _⟩ => show win3_2.index t (0 : Fin 2) * 64 + 1 * g.val = g.val; rw [e0]; omega
  | ⟨1, _⟩ => show win3_2.index t (1 : Fin 2) * 1 + 1 * 0 = 0; rw [e1]

/-- The weight block is the weight matrix. -/
theorem iblk3_3_apply (t : Fin cfg3.N) (k : Fin 256) (o : Fin 10) :
    (iblk3 V c 3 t : Vec Ideal S256x10 .f32) (ix2 k o) = (V c main_arg12 : S256x10.Idx → EReal) (ix2 k o) := by
  unfold iblk3
  rw [View.read_apply]
  show (V c main_arg12 : S256x10.Idx → EReal) _ = (V c main_arg12 : S256x10.Idx → EReal) _
  congr 1
  funext a
  apply Fin.ext
  obtain ⟨-, -, -, -, -, -, e0, e1, -⟩ := idx3 t
  match a with
  | ⟨0, _⟩ => show win3_3.index t (0 : Fin 2) * 256 + 1 * k.val = k.val; rw [e0]; omega
  | ⟨1, _⟩ => show win3_3.index t (1 : Fin 2) * 10 + 1 * o.val = o.val; rw [e1]; omega

/-- The bias block is the bias row. -/
theorem iblk3_4_apply (t : Fin cfg3.N) (o : Fin 10) :
    (iblk3 V c 4 t : Vec Ideal S1x10 .f32) (ix2 0 o) = (V c main_v50 : S1x10.Idx → EReal) (ix2 0 o) := by
  unfold iblk3
  rw [View.read_apply]
  show (V c main_v50 : S1x10.Idx → EReal) _ = (V c main_v50 : S1x10.Idx → EReal) _
  congr 1
  funext a
  apply Fin.ext
  obtain ⟨-, -, -, -, -, -, -, -, e0, e1, -⟩ := idx3 t
  match a with
  | ⟨0, _⟩ => show win3_4.index t (0 : Fin 2) * 1 + 1 * 0 = 0; rw [e0]
  | ⟨1, _⟩ => show win3_4.index t (1 : Fin 2) * 10 + 1 * o.val = o.val; rw [e1]; omega

/-! ## The output block of the last point, and the array -/

/-- What the last point leaves in the output block is the head of the per-graph sums over all the rows. -/
theorem out3_5_apply (t : Fin cfg3.N) (h9 : t.val = 9) (g : Fin 64) (o : Fin 10) :
    out3_5 V c t (ix2 g o)
      = Cert.Spec.head (V c main_v39) (fun r => (V c main_v49 : S50000x1.Idx → BitVec 32) (ix2 r 0))
        (fun g => (V c main_v48 : S64x1.Idx → EReal) (ix2 g 0)) (V c main_arg12) (fun o => (V c main_v50 : S1x10.Idx → EReal) (ix2 0 o)) (ix2 g o) := by
  obtain ⟨tv, ht⟩ := t
  dsimp only at h9
  subst h9
  rw [Cert.Spec.head_ix2]
  unfold Cert.Spec.headC
  show k3_pay3 (acc3 V c 9 ht) (iblk3 V c 2 ⟨9, ht⟩) (iblk3 V c 3 ⟨9, ht⟩) (iblk3 V c 4 ⟨9, ht⟩) (ix2 g o) = _
  refine (pool_pay3_apply (acc3 V c 9 ht) (iblk3 V c 2 ⟨9, ht⟩) (iblk3 V c 3 ⟨9, ht⟩) (iblk3 V c 4 ⟨9, ht⟩) g o).trans ?_
  rw [iblk3_2_apply V c ⟨9, ht⟩ g, iblk3_4_apply V c ⟨9, ht⟩ o]
  refine congrArg (· + (V c main_v50 : S1x10.Idx → EReal) (ix2 0 o)) ?_
  refine Finset.sum_congr rfl fun k _ => ?_
  rw [acc3_last V c ht g k, iblk3_3_apply V c ⟨9, ht⟩ k o]

/-- THE ARRAY after the region: only the last point writes the output block back, the block is the whole [64,10]
    array, and what it holds is the head. Stated for any proof data of the region with these arrays and these
    output contents. -/
theorem final3_of {V : (c : Dev nD) → (b : Ref sig .tc) → Buf (Elt Ideal) ((c : Thread nD τ).loc b)} {c : Dev nD}
    (dat : Dat τ (Elt Ideal) Unit ℕ (UR sig nD τ) ℕ cfg3 c)
    (hA : ∀ w, dat.A w = V c (Pipeline.arrRef spec3 w)) (hafter : ∀ t, dat.after 5 t = out3_5 V c t) :
    (dat.arrAt 5 cfg3.N : S64x10.Idx → EReal)
      = Cert.Spec.head (V c main_v39) (fun r => (V c main_v49 : S50000x1.Idx → BitVec 32) (ix2 r 0))
        (fun g => (V c main_v48 : S64x1.Idx → EReal) (ix2 g 0)) (V c main_arg12) (fun o => (V c main_v50 : S1x10.Idx → EReal) (ix2 0 o)) := by
  have hN : cfg3.N = 10 := N_3
  refine dat.arrAt_eq_of_cover 5 (Cert.Spec.head (V c main_v39) (fun r => (V c main_v49 : S50000x1.Idx → BitVec 32) (ix2 r 0))
        (fun g => (V c main_v48 : S64x1.Idx → EReal) (ix2 g 0)) (V c main_arg12) (fun o => (V c main_v50 : S1x10.Idx → EReal) (ix2 0 o)))
    (fun t hf => ?_) (fun i => ⟨t3_9, (flush3_5 t3_9).mpr rfl, ?_⟩)
  · have h9 : t.val = 9 := by have := (flush3_5 t).mp hf; have := t.isLt; omega
    obtain rfl : t = t3_9 := Fin.ext h9
    show (cfg3.win 5).cut (grid3.coords t3_9) (dat.after 5 t3_9) = _
    rw [hafter t3_9]
    have hG : out3_5 V c t3_9 = Cert.Spec.head (V c main_v39) (fun r => (V c main_v49 : S50000x1.Idx → BitVec 32) (ix2 r 0))
        (fun g => (V c main_v48 : S64x1.Idx → EReal) (ix2 g 0)) (V c main_arg12) (fun o => (V c main_v50 : S1x10.Idx → EReal) (ix2 0 o)) :=
      funext fun j => by
        obtain ⟨g, o, rfl⟩ : ∃ (g : Fin 64) (o : Fin 10), j = ix2 g o := ⟨j 0, j 1, eq_ix2 j⟩
        exact out3_5_apply V c t3_9 rfl g o
    rw [hG]
    obtain ⟨-, -, -, -, -, -, -, -, -, -, e0, e1⟩ := idx3 t3_9
    have hz' : (fun a => win3_5.index t3_9 a * main_v51.ty.shape.size a) = fun _ => 0 := funext fun a => by
      match a with
      | ⟨0, _⟩ => show win3_5.index t3_9 (0 : Fin 2) * 64 = 0; rw [e0]
      | ⟨1, _⟩ => show win3_5.index t3_9 (1 : Fin 2) * 10 = 0; rw [e1]
    exact (Memref.read_access_unit_zero (Elt Ideal) main_v51 hz' (fun a => by rw [congrFun hz' a]; simp) _).symm
  · show i ∈ ((View.whole main_v51).slice (win3_5.rect t3_9)).set
    rw [View.set_slice_whole, Rect.mem_set_unit]
    intro a
    have h0 : (i 0 : Nat) < 64 := (i 0).isLt
    have h1 : (i 1 : Nat) < 10 := (i 1).isLt
    obtain ⟨-, -, -, -, -, -, -, -, -, -, e0, e1⟩ := idx3 t3_9
    match a with
    | ⟨0, _⟩ =>
      show win3_5.index t3_9 (0 : Fin 2) * 64 ≤ (i 0 : Nat) ∧ (i 0 : Nat) < win3_5.index t3_9 (0 : Fin 2) * 64 + 64
      rw [e0]; omega
    | ⟨1, _⟩ =>
      show win3_5.index t3_9 (1 : Fin 2) * 10 ≤ (i 1 : Nat) ∧ (i 1 : Nat) < win3_5.index t3_9 (1 : Fin 2) * 10 + 10
      rw [e1]; omega

end Cert.KernelIdeal.Hand

end
-- ==== Proof.KIValue.lean ====
/-
  The kernel program's result as the specification's network. Each layer region leaves in its output array the layer of
  the arrays it reads; the host stretch before it puts the neighbour sums of the layer before (or of the node features)
  and the bias row there; the pooling region leaves the head of the third layer's output. Composed along the program,
  the result array is the network of the arguments, with the kernel's own spellings of the neighbour sums, of the graph
  factors and of the reshaped rows.
-/
import proofs.«425379_j2551210574350_1_alg».proof.Proof.KISegs
import proofs.«425379_j2551210574350_1_alg».proof.Proof.KIHost
import proofs.«425379_j2551210574350_1_alg».proof.Proof.KIValue0
import proofs.«425379_j2551210574350_1_alg».proof.Proof.KIValue1
import proofs.«425379_j2551210574350_1_alg».proof.Proof.KIValue2
import proofs.«425379_j2551210574350_1_alg».proof.Proof.KIValue3

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem

variable (m : (ℓ : Loc nD τ sig) → Buf (Elt Ideal) ℓ) (c : Dev nD)

/-- The first layer's output array is the layer of the node features and their neighbour sums. -/
theorem K1_eq : (outs m 2 main_v15 c : S50000x256.Idx → EReal)
    = Cert.Spec.layer128 true (m ((c : Thread nD τ).loc main_arg0) : (⟨S50000x128, .f32⟩ : BufTy).Contents (Elt Ideal)) (aggK128 (m ((c : Thread nD τ).loc main_arg1) : (⟨S2x800000, .i32⟩ : BufTy).Contents (Elt Ideal)) (m ((c : Thread nD τ).loc main_arg0) : (⟨S50000x128, .f32⟩ : BufTy).Contents (Elt Ideal)))
        (m ((c : Thread nD τ).loc main_arg3) : (⟨S128x256, .f32⟩ : BufTy).Contents (Elt Ideal)) (m ((c : Thread nD τ).loc main_arg4) : (⟨S128x256, .f32⟩ : BufTy).Contents (Elt Ideal))
        (fun q => (shapeCast S1x256 (m ((c : Thread nD τ).loc main_arg5) : (⟨S256, .f32⟩ : BufTy).Contents (Elt Ideal)) shapeCasts_S256_S1x256 : S1x256.Idx → EReal) (ix2 0 q)) := by
  refine (Pipeline.withArrays_arr spec0 launch0.win.arr_inj c (GenP.V1 m c)
      (fun w => (dat0 (rd (GenP.V1 m)) c).arrAt w cfg0.N) 5).trans ?_
  refine (final0 (rd (GenP.V1 m)) c).trans ?_
  show Cert.Spec.layer128 true (GenP.V1 m c main_arg0) (GenP.V1 m c main_v13) (GenP.V1 m c main_arg3) (GenP.V1 m c main_arg4)
      (fun q => (GenP.V1 m c main_v14 : S1x256.Idx → EReal) (ix2 0 q)) = _
  rw [V1_arg0, V1_v13, V1_arg3, V1_arg4, V1_v14]

/-- The second layer's output array is the layer of the first layer's output and its neighbour sums. -/
theorem K2_eq : (outs m 4 main_v27 c : S50000x256.Idx → EReal)
    = Cert.Spec.layer256 true (outs m 2 main_v15 c) (aggK256 (m ((c : Thread nD τ).loc main_arg1) : (⟨S2x800000, .i32⟩ : BufTy).Contents (Elt Ideal)) (outs m 2 main_v15 c))
        (m ((c : Thread nD τ).loc main_arg6) : (⟨S256x256, .f32⟩ : BufTy).Contents (Elt Ideal)) (m ((c : Thread nD τ).loc main_arg7) : (⟨S256x256, .f32⟩ : BufTy).Contents (Elt Ideal))
        (fun q => (shapeCast S1x256 (m ((c : Thread nD τ).loc main_arg8) : (⟨S256, .f32⟩ : BufTy).Contents (Elt Ideal)) shapeCasts_S256_S1x256 : S1x256.Idx → EReal) (ix2 0 q)) := by
  refine (Pipeline.withArrays_arr spec1 launch1.win.arr_inj c (GenP.V3 m (O2 m) c)
      (fun w => (dat1 (rd (GenP.V3 m (O2 m))) c).arrAt w cfg1.N) 5).trans ?_
  refine (final1 (rd (GenP.V3 m (outs m))) c).trans ?_
  show Cert.Spec.layer256 true (GenP.V3 m (outs m) c main_v15) (GenP.V3 m (outs m) c main_v25) (GenP.V3 m (outs m) c main_arg6) (GenP.V3 m (outs m) c main_arg7)
      (fun q => (GenP.V3 m (outs m) c main_v26 : S1x256.Idx → EReal) (ix2 0 q)) = _
  rw [V3_v15, V3_v25, V3_arg6, V3_arg7, V3_v26]

/-- The third layer's output array is the layer (without a clamp) of the second layer's output and its neighbour sums. -/
theorem K3_eq : (outs m 6 main_v39 c : S50000x256.Idx → EReal)
    = Cert.Spec.layer256 false (outs m 4 main_v27 c) (aggK256 (m ((c : Thread nD τ).loc main_arg1) : (⟨S2x800000, .i32⟩ : BufTy).Contents (Elt Ideal)) (outs m 4 main_v27 c))
        (m ((c : Thread nD τ).loc main_arg9) : (⟨S256x256, .f32⟩ : BufTy).Contents (Elt Ideal)) (m ((c : Thread nD τ).loc main_arg10) : (⟨S256x256, .f32⟩ : BufTy).Contents (Elt Ideal))
        (fun q => (shapeCast S1x256 (m ((c : Thread nD τ).loc main_arg11) : (⟨S256, .f32⟩ : BufTy).Contents (Elt Ideal)) shapeCasts_S256_S1x256 : S1x256.Idx → EReal) (ix2 0 q)) := by
  refine (Pipeline.withArrays_arr spec2 launch2.win.arr_inj c (GenP.V5 m (O4 m) c)
      (fun w => (dat2 (rd (GenP.V5 m (O4 m))) c).arrAt w cfg2.N) 5).trans ?_
  refine (final2 (rd (GenP.V5 m (outs m))) c).trans ?_
  show Cert.Spec.layer256 false (GenP.V5 m (outs m) c main_v27) (GenP.V5 m (outs m) c main_v37) (GenP.V5 m (outs m) c main_arg9) (GenP.V5 m (outs m) c main_arg10)
      (fun q => (GenP.V5 m (outs m) c main_v38 : S1x256.Idx → EReal) (ix2 0 q)) = _
  rw [V5_v27, V5_v37, V5_arg9, V5_arg10, V5_v38]

/-- The result array is the head of the third layer's output. -/
theorem result_head : (result m c : S64x10.Idx → EReal)
    = Cert.Spec.head (outs m 6 main_v39 c)
        (fun r => (shapeCast S50000x1 (m ((c : Thread nD τ).loc main_arg2) : (⟨S50000, .i32⟩ : BufTy).Contents (Elt Ideal)) shapeCasts_S50000_S50000x1 : S50000x1.Idx → BitVec 32) (ix2 r 0))
        (fun g => (cinvK (m ((c : Thread nD τ).loc main_arg2) : (⟨S50000, .i32⟩ : BufTy).Contents (Elt Ideal)) : S64x1.Idx → EReal) (ix2 g 0))
        (m ((c : Thread nD τ).loc main_arg12) : (⟨S256x10, .f32⟩ : BufTy).Contents (Elt Ideal))
        (fun o => (shapeCast S1x10 (m ((c : Thread nD τ).loc main_arg13) : (⟨S10, .f32⟩ : BufTy).Contents (Elt Ideal)) shapeCasts_S10_S1x10 : S1x10.Idx → EReal) (ix2 0 o)) := by
  refine (final3_of (V := rd (GenP.V7 m (outs m))) (dat3 (rd (GenP.V7 m (outs m))) c) (A_eq3 _ c) (after3_5 _ c)).trans ?_
  show Cert.Spec.head (GenP.V7 m (outs m) c main_v39) (fun r => (GenP.V7 m (outs m) c main_v49 : S50000x1.Idx → BitVec 32) (ix2 r 0))
      (fun g => (GenP.V7 m (outs m) c main_v48 : S64x1.Idx → EReal) (ix2 g 0)) (GenP.V7 m (outs m) c main_arg12)
      (fun o => (GenP.V7 m (outs m) c main_v50 : S1x10.Idx → EReal) (ix2 0 o)) = _
  rw [V7_v39, V7_v49, V7_v48, V7_arg12, V7_v50]

/-- The result array is the specification's network of the arguments. -/
theorem result_net : (result m c : S64x10.Idx → EReal)
    = Cert.Spec.net (aggK128 (m ((c : Thread nD τ).loc main_arg1) : (⟨S2x800000, .i32⟩ : BufTy).Contents (Elt Ideal))) (aggK256 (m ((c : Thread nD τ).loc main_arg1) : (⟨S2x800000, .i32⟩ : BufTy).Contents (Elt Ideal)))
        (fun g => (cinvK (m ((c : Thread nD τ).loc main_arg2) : (⟨S50000, .i32⟩ : BufTy).Contents (Elt Ideal)) : S64x1.Idx → EReal) (ix2 g 0))
        (m ((c : Thread nD τ).loc main_arg0) : (⟨S50000x128, .f32⟩ : BufTy).Contents (Elt Ideal)) (m ((c : Thread nD τ).loc main_arg3) : (⟨S128x256, .f32⟩ : BufTy).Contents (Elt Ideal)) (m ((c : Thread nD τ).loc main_arg4) : (⟨S128x256, .f32⟩ : BufTy).Contents (Elt Ideal))
        (fun q => (shapeCast S1x256 (m ((c : Thread nD τ).loc main_arg5) : (⟨S256, .f32⟩ : BufTy).Contents (Elt Ideal)) shapeCasts_S256_S1x256 : S1x256.Idx → EReal) (ix2 0 q))
        (m ((c : Thread nD τ).loc main_arg6) : (⟨S256x256, .f32⟩ : BufTy).Contents (Elt Ideal)) (m ((c : Thread nD τ).loc main_arg7) : (⟨S256x256, .f32⟩ : BufTy).Contents (Elt Ideal))
        (fun q => (shapeCast S1x256 (m ((c : Thread nD τ).loc main_arg8) : (⟨S256, .f32⟩ : BufTy).Contents (Elt Ideal)) shapeCasts_S256_S1x256 : S1x256.Idx → EReal) (ix2 0 q))
        (m ((c : Thread nD τ).loc main_arg9) : (⟨S256x256, .f32⟩ : BufTy).Contents (Elt Ideal)) (m ((c : Thread nD τ).loc main_arg10) : (⟨S256x256, .f32⟩ : BufTy).Contents (Elt Ideal))
        (fun q => (shapeCast S1x256 (m ((c : Thread nD τ).loc main_arg11) : (⟨S256, .f32⟩ : BufTy).Contents (Elt Ideal)) shapeCasts_S256_S1x256 : S1x256.Idx → EReal) (ix2 0 q))
        (fun r => (shapeCast S50000x1 (m ((c : Thread nD τ).loc main_arg2) : (⟨S50000, .i32⟩ : BufTy).Contents (Elt Ideal)) shapeCasts_S50000_S50000x1 : S50000x1.Idx → BitVec 32) (ix2 r 0))
        (m ((c : Thread nD τ).loc main_arg12) : (⟨S256x10, .f32⟩ : BufTy).Contents (Elt Ideal))
        (fun o => (shapeCast S1x10 (m ((c : Thread nD τ).loc main_arg13) : (⟨S10, .f32⟩ : BufTy).Contents (Elt Ideal)) shapeCasts_S10_S1x10 : S1x10.Idx → EReal) (ix2 0 o)) := by
  rw [result_head, K3_eq, K2_eq, K1_eq]
  rfl

end Cert.KernelIdeal.Hand

end
-- ==== Proof.RefValue.lean ====
/-
  The reference program's result, read as mathematics at the ideal values.

  Each graph-convolution layer of the reference is  h ↦ (h·W_root + agg(h)·W_nbr + b), clamped below at 0 on the first two
  layers, where agg(h) gathers the rows of h named by the edge list's sources and adds each onto the row named by the
  edge's target. The head adds every row of the third layer's output onto the row of its graph id, divides each graph's
  row by max(number of its nodes, 1), multiplies by the last weight matrix and adds the bias. Here each of these is
  identified, index by index, with the specification's functions.
-/
import proofs.«425379_j2551210574350_1_alg».proof.Proof.Gen.ReferenceIdeal.Read
import proofs.«425379_j2551210574350_1_alg».proof.Proof.Spec
import Idealize.ShloMosaic.PureOps.Ideal
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.ShloMosaic.StableHlo

/-! ## Indices -/

/-- A rank-2 index is determined by its two coordinates. -/
theorem idx2_eq {n0 n1 : Nat} (f : (⟨2, ![n0, n1]⟩ : Shape).Idx) (a : Fin n0) (b : Fin n1) (h0 : f 0 = a) (h1 : f 1 = b) :
    f = ix2 a b := by
  funext d; match d with | ⟨0, _⟩ => exact h0 | ⟨1, _⟩ => exact h1

/-- A rank-1 index is determined by its coordinate. -/
theorem idx1_eq {n : Nat} (f : (⟨1, ![n]⟩ : Shape).Idx) (a : Fin n) (h0 : f 0 = a) : f = ix1 a := by
  funext d; match d with | ⟨0, _⟩ => exact h0

/-! ## The neighbour sums -/

/-- The neighbour sums of features of width 128: the rows named by the edges' sources, added onto the edges' targets. -/
def agg128R (x1 : (⟨S2x800000, .i32⟩ : BufTy).Contents (Elt Ideal)) (h : S50000x128.Idx → EReal) : S50000x128.Idx → EReal :=
  Host.scatterAdd (F := Ideal) (φ := .f32) scatter_S50000x128_S800000x1_S800000x128_1_0_0_1 (val_main_v11 (F := Ideal)) (val_main_v12 (F := Ideal) x1)
    (Host.gather gather_S50000x128_S800000x1_S800000x128_1_0_n_n_0_1_1128 h (val_main_v9 (F := Ideal) x1))

/-- The neighbour sums of features of width 256. -/
def agg256R (x1 : (⟨S2x800000, .i32⟩ : BufTy).Contents (Elt Ideal)) (h : S50000x256.Idx → EReal) : S50000x256.Idx → EReal :=
  Host.scatterAdd (F := Ideal) (φ := .f32) scatter_S50000x256_S800000x1_S800000x256_1_0_0_1 (val_main_v28 (F := Ideal)) (val_main_v29 (F := Ideal) x1)
    (Host.gather gather_S50000x256_S800000x1_S800000x256_1_0_n_n_0_1_1256 h (val_main_v26 (F := Ideal) x1))

variable (x0 : (⟨S50000x128, .f32⟩ : BufTy).Contents (Elt Ideal)) (x1 : (⟨S2x800000, .i32⟩ : BufTy).Contents (Elt Ideal))
  (x2 : (⟨S50000, .i32⟩ : BufTy).Contents (Elt Ideal)) (x3 x4 : (⟨S128x256, .f32⟩ : BufTy).Contents (Elt Ideal))
  (x5 : (⟨S256, .f32⟩ : BufTy).Contents (Elt Ideal)) (x6 x7 : (⟨S256x256, .f32⟩ : BufTy).Contents (Elt Ideal))
  (x8 : (⟨S256, .f32⟩ : BufTy).Contents (Elt Ideal)) (x9 x10 : (⟨S256x256, .f32⟩ : BufTy).Contents (Elt Ideal))
  (x11 : (⟨S256, .f32⟩ : BufTy).Contents (Elt Ideal)) (x12 : (⟨S256x10, .f32⟩ : BufTy).Contents (Elt Ideal))
  (x13 : (⟨S10, .f32⟩ : BufTy).Contents (Elt Ideal))

theorem v13_eq : val_main_v13 (F := Ideal) x0 x1 = agg128R x1 x0 := rfl

/-- The later printings of the edge list's source column, target column and the zero array are the earlier ones. -/
theorem v43_eq : val_main_v43 (F := Ideal) x1 = val_main_v26 (F := Ideal) x1 := rfl
theorem v46_eq : val_main_v46 (F := Ideal) x1 = val_main_v29 (F := Ideal) x1 := rfl
theorem v45_eq : val_main_v45 (F := Ideal) = val_main_v28 (F := Ideal) := rfl

theorem v30_eq : val_main_v30 (F := Ideal) x0 x1 x3 x4 x5 = agg256R x1 (val_main_v20 (F := Ideal) x0 x1 x3 x4 x5) := rfl
theorem v47_eq : val_main_v47 (F := Ideal) x0 x1 x3 x4 x5 x6 x7 x8 = agg256R x1 (val_main_v37 (F := Ideal) x0 x1 x3 x4 x5 x6 x7 x8) := by
  unfold val_main_v47 agg256R
  rw [v45_eq, v46_eq]
  unfold val_main_v44
  rw [v43_eq]

/-! ## The layers -/

theorem layer1 : val_main_v20 (F := Ideal) x0 x1 x3 x4 x5
    = Cert.Spec.layer128 true x0 (agg128R x1 x0) x3 x4 (fun q => x5 (ix1 q)) := by
  funext i
  obtain ⟨p, q, rfl⟩ : ∃ p q, i = ix2 p q := ⟨i 0, i 1, eq_ix2 i⟩
  rw [val_main_v20_apply, val_main_v19_apply, val_main_v16_apply, val_main_v14_apply, val_main_v15_apply, val_main_v18_apply,
    val_main_v17_apply, val_main_call0_v0_apply, val_main_call0_cst_apply, Cert.Spec.layer128_ix2, v13_eq]
  have e1 : ∀ k : Fin 128, lidx_main_v14 (ix2 p q) k = ix2 p k := fun k => idx2_eq _ _ _ rfl rfl
  have e2 : ∀ k : Fin 128, ridx_main_v14 (ix2 p q) k = ix2 k q := fun k => idx2_eq _ _ _ rfl rfl
  have e3 : ∀ k : Fin 128, lidx_main_v15 (ix2 p q) k = ix2 p k := fun k => idx2_eq _ _ _ rfl rfl
  have e4 : ∀ k : Fin 128, ridx_main_v15 (ix2 p q) k = ix2 k q := fun k => idx2_eq _ _ _ rfl rfl
  have e5 : idx_main_v17 (idx_main_v18 (ix2 p q)) = ix1 q := idx1_eq _ _ rfl
  simp only [e1, e2, e3, e4, e5]
  show max (_ + _ + _) (Ideal.ofBits .f32 0x00000000#32) = _
  rw [Ideal.ofBits_zero_f32]
  rfl

theorem layer2 : val_main_v37 (F := Ideal) x0 x1 x3 x4 x5 x6 x7 x8
    = Cert.Spec.layer256 true (val_main_v20 (F := Ideal) x0 x1 x3 x4 x5) (agg256R x1 (val_main_v20 (F := Ideal) x0 x1 x3 x4 x5)) x6 x7
        (fun q => x8 (ix1 q)) := by
  funext i
  obtain ⟨p, q, rfl⟩ : ∃ p q, i = ix2 p q := ⟨i 0, i 1, eq_ix2 i⟩
  rw [val_main_v37_apply, val_main_v36_apply, val_main_v33_apply, val_main_v31_apply, val_main_v32_apply, val_main_v35_apply,
    val_main_v34_apply, val_main_call1_v0_apply, val_main_call1_cst_apply, Cert.Spec.layer256_ix2, v30_eq]
  have e1 : ∀ k : Fin 256, lidx_main_v31 (ix2 p q) k = ix2 p k := fun k => idx2_eq _ _ _ rfl rfl
  have e2 : ∀ k : Fin 256, ridx_main_v31 (ix2 p q) k = ix2 k q := fun k => idx2_eq _ _ _ rfl rfl
  have e3 : ∀ k : Fin 256, lidx_main_v32 (ix2 p q) k = ix2 p k := fun k => idx2_eq _ _ _ rfl rfl
  have e4 : ∀ k : Fin 256, ridx_main_v32 (ix2 p q) k = ix2 k q := fun k => idx2_eq _ _ _ rfl rfl
  have e5 : idx_main_v34 (idx_main_v35 (ix2 p q)) = ix1 q := idx1_eq _ _ rfl
  simp only [e1, e2, e3, e4, e5]
  show max (_ + _ + _) (Ideal.ofBits .f32 0x00000000#32) = _
  rw [Ideal.ofBits_zero_f32]
  rfl

theorem layer3 : val_main_v53 (F := Ideal) x0 x1 x3 x4 x5 x6 x7 x8 x9 x10 x11
    = Cert.Spec.layer256 false (val_main_v37 (F := Ideal) x0 x1 x3 x4 x5 x6 x7 x8)
        (agg256R x1 (val_main_v37 (F := Ideal) x0 x1 x3 x4 x5 x6 x7 x8)) x9 x10 (fun q => x11 (ix1 q)) := by
  funext i
  obtain ⟨p, q, rfl⟩ : ∃ p q, i = ix2 p q := ⟨i 0, i 1, eq_ix2 i⟩
  rw [val_main_v53_apply, val_main_v50_apply, val_main_v48_apply, val_main_v49_apply, val_main_v52_apply,
    val_main_v51_apply, Cert.Spec.layer256_ix2, v47_eq]
  have e1 : ∀ k : Fin 256, lidx_main_v48 (ix2 p q) k = ix2 p k := fun k => idx2_eq _ _ _ rfl rfl
  have e2 : ∀ k : Fin 256, ridx_main_v48 (ix2 p q) k = ix2 k q := fun k => idx2_eq _ _ _ rfl rfl
  have e3 : ∀ k : Fin 256, lidx_main_v49 (ix2 p q) k = ix2 p k := fun k => idx2_eq _ _ _ rfl rfl
  have e4 : ∀ k : Fin 256, ridx_main_v49 (ix2 p q) k = ix2 k q := fun k => idx2_eq _ _ _ rfl rfl
  have e5 : idx_main_v51 (idx_main_v52 (ix2 p q)) = ix1 q := idx1_eq _ _ rfl
  simp only [e1, e2, e3, e4, e5]
  rfl

/-! ## Where an update row of the pooling scatter lands -/

section Land
variable (idx : IVec S50000x1 32) (j : S50000x256.Idx)

theorem pool_start0 : scatter_S64x256_S50000x1_S50000x256_1_0_0_1.start j idx 0 = (idx (ix2 (j 0) 0)).toInt := by
  unfold ScatterDims.start
  rw [dif_pos (by decide)]
  refine congrArg (fun t => (idx t).toInt) ?_
  refine idx2_eq _ _ _ ?_ ?_
  · rfl
  · rfl

theorem pool_start1 : scatter_S64x256_S50000x1_S50000x256_1_0_0_1.start j idx 1 = 0 := by
  unfold ScatterDims.start
  rw [dif_neg (by decide)]

theorem pool_window0 : scatter_S64x256_S50000x1_S50000x256_1_0_0_1.window j 0 = 0 := by
  unfold ScatterDims.window
  rw [dif_neg (by decide)]

theorem pool_window1 : scatter_S64x256_S50000x1_S50000x256_1_0_0_1.window j 1 = (j 1).val := by
  unfold ScatterDims.window
  rw [dif_pos (by decide)]
  rfl

/-- A signed 32-bit word is a natural number below 64 exactly when it is that number's word. -/
theorem toInt_ofNat_small (g : ℕ) (hg : g < 64) : (BitVec.ofNat 32 g).toInt = (g : Int) := by
  rw [BitVec.toInt_ofNat']
  exact Int.bmod_eq_of_le (by simp only [Nat.reducePow]; omega) (by simp only [Nat.reducePow]; omega)

theorem toInt_eq_small (w : BitVec 32) (g : ℕ) (hg : g < 64) : w.toInt = (g : Int) ↔ w = BitVec.ofNat 32 g := by
  constructor
  · intro h
    apply BitVec.eq_of_toInt_eq
    rw [h, toInt_ofNat_small g hg]
  · rintro rfl
    exact toInt_ofNat_small g hg

/-- Update element (r, c) lands on (g, q) exactly when row r's graph id, read signed, is g and c = q. -/
theorem pool_lands (i : S64x256.Idx) :
    scatter_S64x256_S50000x1_S50000x256_1_0_0_1.resultIdx? j idx = some i
      ↔ (idx (ix2 (j 0) 0)).toInt = ((i 0).val : Int) ∧ (j 1).val = (i 1).val := by
  unfold ScatterDims.resultIdx?
  have hi0 : (i 0).val < 64 := (i 0).isLt
  have hi1 : (i 1).val < 256 := (i 1).isLt
  have hj1 : (j 1).val < 256 := (j 1).isLt
  split_ifs with h
  · rw [Option.some.injEq]
    constructor
    · intro e
      have e0 := congrArg (fun f => (f 0).val) e
      have e1 := congrArg (fun f => (f 1).val) e
      simp only [pool_start0, pool_start1, pool_window0, pool_window1] at e0 e1
      have h0 := h 0
      simp only [pool_start0, pool_window0] at h0
      constructor
      · omega
      · omega
    · rintro ⟨e0, e1⟩
      funext a
      match a with
      | ⟨0, _⟩ =>
        apply Fin.ext
        show (scatter_S64x256_S50000x1_S50000x256_1_0_0_1.start j idx 0 + (scatter_S64x256_S50000x1_S50000x256_1_0_0_1.window j 0 : ℕ)).toNat = (i 0).val
        rw [pool_start0, pool_window0, e0]; simp
      | ⟨1, _⟩ =>
        apply Fin.ext
        show (scatter_S64x256_S50000x1_S50000x256_1_0_0_1.start j idx 1 + (scatter_S64x256_S50000x1_S50000x256_1_0_0_1.window j 1 : ℕ)).toNat = (i 1).val
        rw [pool_start1, pool_window1, ← e1]; simp
  · constructor
    · intro e; exact absurd e (by simp)
    · rintro ⟨e0, e1⟩
      exfalso; apply h
      intro a
      match a with
      | ⟨0, _⟩ =>
        show 0 ≤ scatter_S64x256_S50000x1_S50000x256_1_0_0_1.start j idx 0 + (scatter_S64x256_S50000x1_S50000x256_1_0_0_1.window j 0 : ℕ) ∧ scatter_S64x256_S50000x1_S50000x256_1_0_0_1.start j idx 0 + (scatter_S64x256_S50000x1_S50000x256_1_0_0_1.window j 0 : ℕ) < (64 : ℕ)
        rw [pool_start0, pool_window0, e0]; omega
      | ⟨1, _⟩ =>
        show 0 ≤ scatter_S64x256_S50000x1_S50000x256_1_0_0_1.start j idx 1 + (scatter_S64x256_S50000x1_S50000x256_1_0_0_1.window j 1 : ℕ) ∧ scatter_S64x256_S50000x1_S50000x256_1_0_0_1.start j idx 1 + (scatter_S64x256_S50000x1_S50000x256_1_0_0_1.window j 1 : ℕ) < (256 : ℕ)
        rw [pool_start1, pool_window1]; omega

end Land

/-! ## The pooled sums -/

/-- The bits of the f32 one are the extended real 1. -/
theorem ofBits_one_f32 : Ideal.ofBits .f32 0x3F800000#32 = 1 := by
  simp [Ideal.ofBits, Ideal.ieee, -EReal.coe_mul]; norm_num

theorem pooled (g : Fin 64) (q : Fin 256) :
    val_main_v56 (F := Ideal) x0 x1 x2 x3 x4 x5 x6 x7 x8 x9 x10 x11 (ix2 g q)
      = Cert.Spec.poolC (val_main_v53 (F := Ideal) x0 x1 x3 x4 x5 x6 x7 x8 x9 x10 x11) (fun r => x2 (ix1 r)) g q := by
  unfold val_main_v56
  generalize val_main_v53 (F := Ideal) x0 x1 x3 x4 x5 x6 x7 x8 x9 x10 x11 = h3
  show Ideal.hostScatterAdd _ _ _ _ _ = _
  unfold Ideal.hostScatterAdd
  rw [val_main_v54_apply, val_main_cst_7_apply]
  show Ideal.ofBits .f32 0x00000000#32 + _ = _
  rw [Ideal.ofBits_zero_f32, zero_add, Finset.sum_filter, sum_idx2]
  unfold Cert.Spec.poolC
  refine Finset.sum_congr rfl fun r _ => ?_
  simp only [pool_lands]
  have hv : ∀ c : Fin 256, val_main_v55 (F := Ideal) x2 (ix2 (ix2 r c 0) 0) = x2 (ix1 r) := fun c => by
    rw [val_main_v55_apply]; exact congrArg x2 (idx1_eq _ _ rfl)
  simp only [hv]
  show (∑ c : Fin 256, if BitVec.toInt (x2 (ix1 r)) = ((g.val : ℕ) : Int) ∧ c.val = q.val then h3 (ix2 r c) else 0) = _
  simp only [toInt_eq_small _ g.val g.isLt]
  by_cases hw : x2 (ix1 r) = BitVec.ofNat 32 g.val
  · rw [if_pos hw, Finset.sum_eq_single q]
    · rw [if_pos ⟨hw, rfl⟩]
    · intro c _ hc
      exact if_neg fun h => hc (Fin.ext h.2)
    · intro h; exact absurd (Finset.mem_univ q) h
  · rw [if_neg hw]
    exact Finset.sum_eq_zero fun c _ => if_neg fun h => hw h.1

/-! ## The node counts -/

/-- The divisor of graph g's pooled row: the number of nodes whose graph id is g, or 1 when there is none. -/
def cntR (x2 : (⟨S50000, .i32⟩ : BufTy).Contents (Elt Ideal)) : S64.Idx → EReal := val_main_v62 (F := Ideal) x2

/-- It is a natural number of ones added to zero, clamped below at one. -/
theorem cnt_nat (g : Fin 64) : ∃ n : ℕ, cntR x2 (ix1 g) = ((max (n : ℝ) 1 : ℝ) : EReal) := by
  apply Exists.intro
  unfold cntR
  rw [val_main_v62_apply, val_main_v61_apply, val_main_cst_10_apply]
  unfold val_main_v60
  show max (Ideal.hostScatterAdd _ _ _ _ _) (Ideal.ofBits .f32 0x3F800000#32) = _
  unfold Ideal.hostScatterAdd
  rw [val_main_v58_apply, val_main_cst_9_apply]
  simp only [val_main_v57_apply, val_main_cst_8_apply]
  show max (Ideal.ofBits .f32 0x00000000#32 + ∑ j ∈ _, Ideal.ofBits .f32 0x3F800000#32) (Ideal.ofBits .f32 0x3F800000#32) = _
  rw [Ideal.ofBits_zero_f32, ofBits_one_f32, zero_add, Finset.sum_const, nsmul_one, EReal.coe_strictMono.monotone.map_max,
    EReal.coe_one, EReal.coe_natCast]

theorem cnt_real (g : Fin 64) : ∃ r : ℝ, r ≠ 0 ∧ cntR x2 (ix1 g) = (r : EReal) := by
  obtain ⟨n, hn⟩ := cnt_nat x2 g
  exact ⟨max (n : ℝ) 1, (lt_of_lt_of_le one_pos (le_max_right _ _)).ne', hn⟩

/-! ## The whole reference -/

theorem result_eq : val_main_v69 (F := Ideal) x0 x1 x2 x3 x4 x5 x6 x7 x8 x9 x10 x11 x12 x13
    = Cert.Spec.net (agg128R x1) (agg256R x1) (fun g => Ideal.div 1 (cntR x2 (ix1 g))) x0 x3 x4 (fun q => x5 (ix1 q))
        x6 x7 (fun q => x8 (ix1 q)) x9 x10 (fun q => x11 (ix1 q)) (fun r => x2 (ix1 r)) x12 (fun o => x13 (ix1 o)) := by
  show _ = Cert.Spec.head (Cert.Spec.layer256 false
      (Cert.Spec.layer256 true (Cert.Spec.layer128 true x0 (agg128R x1 x0) x3 x4 (fun q => x5 (ix1 q)))
        (agg256R x1 (Cert.Spec.layer128 true x0 (agg128R x1 x0) x3 x4 (fun q => x5 (ix1 q)))) x6 x7 (fun q => x8 (ix1 q)))
      (agg256R x1 (Cert.Spec.layer256 true (Cert.Spec.layer128 true x0 (agg128R x1 x0) x3 x4 (fun q => x5 (ix1 q)))
        (agg256R x1 (Cert.Spec.layer128 true x0 (agg128R x1 x0) x3 x4 (fun q => x5 (ix1 q)))) x6 x7 (fun q => x8 (ix1 q))))
      x9 x10 (fun q => x11 (ix1 q))) (fun r => x2 (ix1 r)) (fun g => Ideal.div 1 (cntR x2 (ix1 g))) x12 (fun o => x13 (ix1 o))
  rw [← layer1 x0 x1 x3 x4 x5, ← layer2 x0 x1 x3 x4 x5 x6 x7 x8, ← layer3 x0 x1 x3 x4 x5 x6 x7 x8 x9 x10 x11]
  funext i
  obtain ⟨g, o, rfl⟩ : ∃ g o, i = ix2 g o := ⟨i 0, i 1, eq_ix2 i⟩
  rw [Cert.Spec.head_ix2, val_main_v69_apply, val_main_v66_apply, val_main_v68_apply, val_main_v67_apply]
  unfold Cert.Spec.headC
  show (∑ k : Fin 256, _) + _ = (∑ k : Fin 256, _) + _
  refine congrArg₂ (· + ·) ?_ ?_
  · refine Finset.sum_congr rfl fun k _ => ?_
    have el : lidx_main_v66 (ix2 g o) k = ix2 g k := idx2_eq _ _ _ rfl rfl
    have er : ridx_main_v66 (ix2 g o) k = ix2 k o := idx2_eq _ _ _ rfl rfl
    have ec : idx_main_v63 (idx_main_v64 (ix2 g k)) = ix1 g := idx1_eq _ _ rfl
    rw [el, er, val_main_v65_apply, val_main_v64_apply, val_main_v63_apply, pooled, ec]
    obtain ⟨c, hc, hcv⟩ := cnt_real x2 g
    show Ideal.div _ (cntR x2 (ix1 g)) * _ = _ * Ideal.div 1 (cntR x2 (ix1 g)) * _
    rw [hcv, Ideal.div_coe hc, Ideal.div_coe hc, one_mul]
  · exact congrArg x13 (idx1_eq _ _ rfl)

end Cert.ReferenceIdeal.RefValue

end
-- ==== Proof.Bridge.lean ====
/-
  The two programs prepare the same host-side quantities. Both gather the rows named by the edge list's source column
  (a negative index shifted up by the node count) and add each onto the row named by the destination column — the
  neighbour sums —, both count each graph's nodes by adding ones at the graph ids and clamp the count below at one; the
  kernel program inverts the counts on the host and hands the bias vectors, the graph ids and the reciprocal counts to its
  pipelined regions as one-row or one-column arrays. Here: the neighbour sums and the counts of the two programs are the
  same functions; the reshaped operands read at an index are the flat ones; the reciprocal column at a graph is one over
  the count; and so the specification evaluated at the kernel program's quantities is the specification evaluated at the
  reference's.
-/
import proofs.«425379_j2551210574350_1_alg».proof.Proof.KIHost
import proofs.«425379_j2551210574350_1_alg».proof.Proof.RefValue
import proofs.«425379_j2551210574350_1_alg».proof.Proof.Spec
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

open scoped BigOperators

namespace Cert.Bridge

open Idealize.ShloMosaic Idealize.ShloMosaic.ValueIdx
open Cert.KernelIdeal.Hand (srcCol dstCol aggK128 aggK256 cntK cinvK)
open Cert.ReferenceIdeal.RefValue (agg128R agg256R cntR)

/-! ## The edge list's columns -/

/-- The kernel program's source column is the reference's, at its first printing -/
theorem src_eq (x1 : (⟨Cert.ReferenceIdeal.S2x800000, .i32⟩ : BufTy).Contents (Elt Ideal)) :
    srcCol (F := Ideal) x1 = Cert.ReferenceIdeal.Read.val_main_v9 (F := Ideal) x1 := rfl
/-- and at its second. -/
theorem src_eq' (x1 : (⟨Cert.ReferenceIdeal.S2x800000, .i32⟩ : BufTy).Contents (Elt Ideal)) :
    srcCol (F := Ideal) x1 = Cert.ReferenceIdeal.Read.val_main_v26 (F := Ideal) x1 := rfl
/-- The destination column likewise. -/
theorem dst_eq (x1 : (⟨Cert.ReferenceIdeal.S2x800000, .i32⟩ : BufTy).Contents (Elt Ideal)) :
    dstCol (F := Ideal) x1 = Cert.ReferenceIdeal.Read.val_main_v12 (F := Ideal) x1 := rfl
theorem dst_eq' (x1 : (⟨Cert.ReferenceIdeal.S2x800000, .i32⟩ : BufTy).Contents (Elt Ideal)) :
    dstCol (F := Ideal) x1 = Cert.ReferenceIdeal.Read.val_main_v29 (F := Ideal) x1 := rfl

/-! ## The neighbour sums and the counts -/

/-- The neighbour sums of 128-wide rows: the same scatter-add of the same gathered rows on both sides. -/
theorem agg128_eq (x1 : (⟨Cert.ReferenceIdeal.S2x800000, .i32⟩ : BufTy).Contents (Elt Ideal)) (h : Cert.ReferenceIdeal.S50000x128.Idx → EReal) :
    aggK128 (F := Ideal) x1 h = agg128R x1 h := by
  unfold Cert.KernelIdeal.Hand.aggK128 Cert.ReferenceIdeal.RefValue.agg128R
  rw [src_eq, dst_eq]
  rfl

/-- The neighbour sums of 256-wide rows. -/
theorem agg256_eq (x1 : (⟨Cert.ReferenceIdeal.S2x800000, .i32⟩ : BufTy).Contents (Elt Ideal)) (h : Cert.ReferenceIdeal.S50000x256.Idx → EReal) :
    aggK256 (F := Ideal) x1 h = agg256R x1 h := by
  unfold Cert.KernelIdeal.Hand.aggK256 Cert.ReferenceIdeal.RefValue.agg256R
  rw [src_eq', dst_eq']
  rfl

/-- The clamped per-graph node counts. -/
theorem cnt_eq (x2 : (⟨Cert.ReferenceIdeal.S50000, .i32⟩ : BufTy).Contents (Elt Ideal)) : cntK (F := Ideal) x2 = cntR x2 := rfl

/-! ## The reciprocal counts, read at a graph -/

/-- The kernel program's reciprocal column at graph g: one over the reference's clamped count of g. -/
theorem cinv_apply (x2 : (⟨Cert.ReferenceIdeal.S50000, .i32⟩ : BufTy).Contents (Elt Ideal)) (g : Fin 64) :
    (cinvK (F := Ideal) x2 : Cert.KernelIdeal.S64x1.Idx → EReal) (ix2 g 0) = Ideal.div 1 (cntR x2 (ix1 g)) := by
  unfold Cert.KernelIdeal.Hand.cinvK
  refine (shapeCast_apply _ _ (ix2 g (0 : Fin 1)) (ix1 g) ?_).trans ?_
  · rw [Shape.rowMajor_val_one, Shape.rowMajor_val_two]
    show g.val = g.val * 1 + 0
    omega
  · unfold Host.divf broadcastInDim
    rw [constant_apply, Ideal.hostDivf_def, Cert.ReferenceIdeal.RefValue.ofBits_one_f32, cnt_eq]

/-! ## The reshapes, read at an index -/

/-- A bias vector viewed as a row. -/
theorem reshape_b (x : Cert.KernelIdeal.S256.Idx → EReal) (q : Fin 256) :
    (shapeCast Cert.KernelIdeal.S1x256 x Cert.KernelIdeal.Gen.shapeCasts_S256_S1x256 : Cert.KernelIdeal.S1x256.Idx → EReal) (ix2 (0 : Fin 1) q) = x (ix1 q) := by
  refine shapeCast_apply _ _ (ix2 (0 : Fin 1) q) (ix1 q) ?_
  rw [Shape.rowMajor_val_one, Shape.rowMajor_val_two]
  show q.val = 0 * 256 + q.val
  omega

/-- The graph ids viewed as a column. -/
theorem reshape_batch (x2 : Cert.KernelIdeal.S50000.Idx → BitVec 32) (r : Fin 50000) :
    (shapeCast Cert.KernelIdeal.S50000x1 x2 Cert.KernelIdeal.Gen.shapeCasts_S50000_S50000x1 : Cert.KernelIdeal.S50000x1.Idx → BitVec 32) (ix2 r (0 : Fin 1)) = x2 (ix1 r) := by
  refine shapeCast_apply _ _ (ix2 r (0 : Fin 1)) (ix1 r) ?_
  rw [Shape.rowMajor_val_one, Shape.rowMajor_val_two]
  show r.val = r.val * 1 + 0
  omega

/-- The head's bias viewed as a row. -/
theorem reshape_bl (x13 : Cert.KernelIdeal.S10.Idx → EReal) (o : Fin 10) :
    (shapeCast Cert.KernelIdeal.S1x10 x13 Cert.KernelIdeal.Gen.shapeCasts_S10_S1x10 : Cert.KernelIdeal.S1x10.Idx → EReal) (ix2 (0 : Fin 1) o) = x13 (ix1 o) := by
  refine shapeCast_apply _ _ (ix2 (0 : Fin 1) o) (ix1 o) ?_
  rw [Shape.rowMajor_val_one, Shape.rowMajor_val_two]
  show o.val = 0 * 10 + o.val
  omega

/-! ## The whole network -/

section Net
variable (x0 : (⟨Cert.ReferenceIdeal.S50000x128, .f32⟩ : BufTy).Contents (Elt Ideal)) (x1 : (⟨Cert.ReferenceIdeal.S2x800000, .i32⟩ : BufTy).Contents (Elt Ideal))
  (x2 : (⟨Cert.ReferenceIdeal.S50000, .i32⟩ : BufTy).Contents (Elt Ideal)) (x3 x4 : (⟨Cert.ReferenceIdeal.S128x256, .f32⟩ : BufTy).Contents (Elt Ideal))
  (x5 : (⟨Cert.ReferenceIdeal.S256, .f32⟩ : BufTy).Contents (Elt Ideal)) (x6 x7 : (⟨Cert.ReferenceIdeal.S256x256, .f32⟩ : BufTy).Contents (Elt Ideal))
  (x8 : (⟨Cert.ReferenceIdeal.S256, .f32⟩ : BufTy).Contents (Elt Ideal)) (x9 x10 : (⟨Cert.ReferenceIdeal.S256x256, .f32⟩ : BufTy).Contents (Elt Ideal))
  (x11 : (⟨Cert.ReferenceIdeal.S256, .f32⟩ : BufTy).Contents (Elt Ideal)) (x12 : (⟨Cert.ReferenceIdeal.S256x10, .f32⟩ : BufTy).Contents (Elt Ideal))
  (x13 : (⟨Cert.ReferenceIdeal.S10, .f32⟩ : BufTy).Contents (Elt Ideal))

/-- The specification at the kernel program's host-side quantities is the specification at the reference's. -/
theorem net_eq :
    Cert.Spec.net (aggK128 (F := Ideal) x1) (aggK256 (F := Ideal) x1)
        (fun g => (cinvK (F := Ideal) x2 : Cert.KernelIdeal.S64x1.Idx → EReal) (ix2 g (0 : Fin 1))) x0 x3 x4
        (fun q => (shapeCast Cert.KernelIdeal.S1x256 x5 Cert.KernelIdeal.Gen.shapeCasts_S256_S1x256 : Cert.KernelIdeal.S1x256.Idx → EReal) (ix2 (0 : Fin 1) q)) x6 x7
        (fun q => (shapeCast Cert.KernelIdeal.S1x256 x8 Cert.KernelIdeal.Gen.shapeCasts_S256_S1x256 : Cert.KernelIdeal.S1x256.Idx → EReal) (ix2 (0 : Fin 1) q)) x9 x10
        (fun q => (shapeCast Cert.KernelIdeal.S1x256 x11 Cert.KernelIdeal.Gen.shapeCasts_S256_S1x256 : Cert.KernelIdeal.S1x256.Idx → EReal) (ix2 (0 : Fin 1) q))
        (fun r => (shapeCast Cert.KernelIdeal.S50000x1 x2 Cert.KernelIdeal.Gen.shapeCasts_S50000_S50000x1 : Cert.KernelIdeal.S50000x1.Idx → BitVec 32) (ix2 r (0 : Fin 1))) x12
        (fun o => (shapeCast Cert.KernelIdeal.S1x10 x13 Cert.KernelIdeal.Gen.shapeCasts_S10_S1x10 : Cert.KernelIdeal.S1x10.Idx → EReal) (ix2 (0 : Fin 1) o))
      = Cert.Spec.net (agg128R x1) (agg256R x1) (fun g => Ideal.div 1 (cntR x2 (ix1 g))) x0 x3 x4 (fun q => x5 (ix1 q))
        x6 x7 (fun q => x8 (ix1 q)) x9 x10 (fun q => x11 (ix1 q)) (fun r => x2 (ix1 r)) x12 (fun o => x13 (ix1 o)) := by
  rw [show aggK128 (F := Ideal) x1 = agg128R x1 from funext (agg128_eq x1),
    show aggK256 (F := Ideal) x1 = agg256R x1 from funext (agg256_eq x1),
    show (fun g => (cinvK (F := Ideal) x2 : Cert.KernelIdeal.S64x1.Idx → EReal) (ix2 g (0 : Fin 1))) = (fun g => Ideal.div 1 (cntR x2 (ix1 g))) from funext (cinv_apply x2),
    show (fun q => (shapeCast Cert.KernelIdeal.S1x256 x5 Cert.KernelIdeal.Gen.shapeCasts_S256_S1x256 : Cert.KernelIdeal.S1x256.Idx → EReal) (ix2 (0 : Fin 1) q)) = (fun q => x5 (ix1 q)) from funext (reshape_b x5),
    show (fun q => (shapeCast Cert.KernelIdeal.S1x256 x8 Cert.KernelIdeal.Gen.shapeCasts_S256_S1x256 : Cert.KernelIdeal.S1x256.Idx → EReal) (ix2 (0 : Fin 1) q)) = (fun q => x8 (ix1 q)) from funext (reshape_b x8),
    show (fun q => (shapeCast Cert.KernelIdeal.S1x256 x11 Cert.KernelIdeal.Gen.shapeCasts_S256_S1x256 : Cert.KernelIdeal.S1x256.Idx → EReal) (ix2 (0 : Fin 1) q)) = (fun q => x11 (ix1 q)) from funext (reshape_b x11),
    show (fun r => (shapeCast Cert.KernelIdeal.S50000x1 x2 Cert.KernelIdeal.Gen.shapeCasts_S50000_S50000x1 : Cert.KernelIdeal.S50000x1.Idx → BitVec 32) (ix2 r (0 : Fin 1))) = (fun r => x2 (ix1 r)) from funext (reshape_batch x2),
    show (fun o => (shapeCast Cert.KernelIdeal.S1x10 x13 Cert.KernelIdeal.Gen.shapeCasts_S10_S1x10 : Cert.KernelIdeal.S1x10.Idx → EReal) (ix2 (0 : Fin 1) o)) = (fun o => x13 (ix1 o)) from funext (reshape_bl x13)]

end Net

end Cert.Bridge

end
-- ==== Proof.lean ====
/-
  The certificate of a three-layer graph convolution with a mean-pooling head. The kernel program runs four pipelined
  regions among host stretches: one region per layer (ten row blocks of 5000 nodes each; both products, the bias, and for the
  first two layers the clamp at zero) and one for the head (per-graph sums kept across the ten points as a one-hot product
  into a scratch block, then scaled by the reciprocal clamped counts and sent through the last weights). The reference does
  the same with whole-array products, a scatter-add for the pooling and a division by the clamped counts.

  Frames: each kernel region's body is run once per control case and its proof data chained through the program's items; the
  reference's frame is its run with the result dropped. Nothing was rewritten by the idealization, so there is nothing to
  preserve. Values: over the extended reals both results are the specification's network of the arguments — a row block of a
  matrix product is the product of the row block; a one-hot product summed over the blocks is the sum over the rows of a
  graph; dividing by a nonzero real is multiplying by its reciprocal — and the two spellings of the shared host operations
  (neighbour sums, counts, reshaped rows) agree.
-/
import proofs.«425379_j2551210574350_1_alg».proof.Defs
import proofs.«425379_j2551210574350_1_alg».proof.Proof.Gen.Kernel
import proofs.«425379_j2551210574350_1_alg».proof.Proof.Gen.KernelIdeal
import proofs.«425379_j2551210574350_1_alg».proof.Proof.Gen.ReferenceIdeal
import proofs.«425379_j2551210574350_1_alg».proof.Proof.Gen.Pre_finite_inputs
import proofs.«425379_j2551210574350_1_alg».proof.Proof.KSegs
import proofs.«425379_j2551210574350_1_alg».proof.Proof.KIValue
import proofs.«425379_j2551210574350_1_alg».proof.Proof.RefValue
import proofs.«425379_j2551210574350_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the network of the arguments in their result
    arrays. -/
theorem algebraic : Cert.algebraic_KernelIdeal_ReferenceIdeal := by
  intro m ρ m' ρ' _ hagree
  refine ⟨fun c => Cert.KernelIdeal.Hand.result m c, Cert.KernelIdeal.Hand.run_main m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v69_eq, h0, h1, h2, h3, h4, h5, h6, h7, h8, h9, h10, h11, h12, h13]
  exact (Cert.ReferenceIdeal.RefValue.result_eq _ _ _ _ _ _ _ _ _ _ _ _ _ _).trans
    ((Cert.Bridge.net_eq _ _ _ _ _ _ _ _ _ _ _ _ _ _).symm.trans (Cert.KernelIdeal.Hand.result_net m c).symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
